-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v56)) (v1 : (c : Dev Cert.KernelIdeal.nD) → Buf (Elt Ideal) ((c.tc : Thread Cert.KernelIdeal.nD Cert.KernelIdeal.τ).loc Cert.KernelIdeal.main_v64)) (v2 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_v64) = v1 c
          ∧ r.2.mem ((c.tc : Thread Cert.KernelIdeal.nD Cert.KernelIdeal.τ).loc Cert.KernelIdeal.main_v65) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v104) = v1 c
          ∧ r.2.mem ((c.tc : Thread Cert.ReferenceIdeal.nD Cert.ReferenceIdeal.τ).loc Cert.ReferenceIdeal.main_v109) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S64x128 : Shape := ⟨2, ![64, 128]⟩
abbrev S128x128 : Shape := ⟨2, ![128, 128]⟩
abbrev S128 : Shape := ⟨1, ![128]⟩
abbrev S64x256 : Shape := ⟨2, ![64, 256]⟩
abbrev S64 : Shape := ⟨1, ![64]⟩
abbrev S512x128 : Shape := ⟨2, ![512, 128]⟩
abbrev S512 : Shape := ⟨1, ![512]⟩
abbrev S16x128 : Shape := ⟨2, ![16, 128]⟩
abbrev S16 : Shape := ⟨1, ![16]⟩
abbrev S200000 : Shape := ⟨1, ![200000]⟩
abbrev S600000 : Shape := ⟨1, ![600000]⟩
abbrev S256 : Shape := ⟨1, ![256]⟩
abbrev S2x600000 : Shape := ⟨2, ![2, 600000]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_
  bcast_S_S16x128 : S_.BroadcastsInDim S16x128 (![] : Fin 0 → Fin S16x128.rank)
  reducesTo_S16x128_S_d0_1 : S16x128.ReducesTo [0, 1] S_
  bcast_S_S16 : S_.BroadcastsInDim S16 (![] : Fin 0 → Fin S16.rank)
  reducesTo_S16_S_d0 : S16.ReducesTo [0] S_
  bcast_S_S600000 : S_.BroadcastsInDim S600000 (![] : Fin 0 → Fin S600000.rank)
  reducesTo_S600000_S_d0 : S600000.ReducesTo [0] S_

variable [Facts]

def fn_part4 {F : FTy → Type} [FloatOps F] (main_arg15 : IVec S600000 32) (main_v63 : IVec S_ 1) (main_v67 : IVec S_ 1) : IVec S_ 1 :=
  let main_v68 : IVec S_ 1 := andi main_v63 main_v67
  let main_c_26 : IVec S_ 32 := constantI S_ 32 0#32
  let main_v69 : IVec S600000 32 := broadcastInDim S600000 ![] bcast_S_S600000 main_c_26
  let main_v70 : IVec S600000 1 := cmpi .sge main_arg15 main_v69
  let main_c_27 : IVec S_ 32 := constantI S_ 32 64#32
  let main_v71 : IVec S600000 32 := broadcastInDim S600000 ![] bcast_S_S600000 main_c_27
  let main_v72 : IVec S600000 1 := cmpi .slt main_arg15 main_v71
  let main_v73 : IVec S600000 1 := andi main_v70 main_v72
  let main_c_28 : IVec S_ 1 := constantI S_ 1 1#1
  let main_v74 : IVec S_ 1 := (fun x v => Host.reduce IntOp.andi x v reducesTo_S600000_S_d0 h_S_) main_v73 main_c_28
  let main_v75 : IVec S_ 1 := andi main_v68 main_v74
  main_v75

def fn_part3 {F : FTy → Type} [FloatOps F] (main_arg11 : FVec F S512 .f32) (main_arg12 : FVec F S16x128 .f32) (main_arg13 : FVec F S16 .f32) (main_arg15 : IVec S600000 32) (main_v48 : IVec S_ 1) (main_v49 : FVec F S512x128 .f32) (main_v50 : FVec F S512x128 .f32) : IVec S_ 1 :=
  let main_v51 : IVec S512x128 1 := cmpf .olt main_v49 main_v50
  let main_c_19 : IVec S_ 1 := constantI S_ 1 1#1
  let main_v52 : IVec S_ 1 := (fun x v => Host.reduce IntOp.andi x v reducesTo_S512x128_S_d0_1 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S16x128 .f32 := Host.absf main_arg12
  let main_cst_22 : FVec F S_ .f32 := constant S_ .f32 0x7F800000#32
  let main_v60 : FVec F S16x128 .f32 := broadcastInDim S16x128 ![] bcast_S_S16x128 main_cst_22
  let main_v61 : IVec S16x128 1 := cmpf .olt main_v59 main_v60
  let main_c_23 : IVec S_ 1 := constantI S_ 1 1#1
  let main_v62 : IVec S_ 1 := (fun x v => Host.reduce IntOp.andi x v reducesTo_S16x128_S_d0_1 h_S_) main_v61 main_c_23
  let main_v63 : IVec S_ 1 := andi main_v58 main_v62
  let main_v64 : FVec F S16 .f32 := Host.absf main_arg13
  let main_cst_24 : FVec F S_ .f32 := constant S_ .f32 0x7F800000#32
  let main_v65 : FVec F S16 .f32 := broadcastInDim S16 ![] bcast_S_S16 main_cst_24
  let main_v66 : IVec S16 1 := cmpf .olt main_v64 main_v65
  let main_c_25 : IVec S_ 1 := constantI S_ 1 1#1
  let main_v67 : IVec S_ 1 := (fun x v => Host.reduce IntOp.andi x v reducesTo_S16_S_d0 h_S_) main_v66 main_c_25
  fn_part4 (F := F) main_arg15 main_v63 main_v67

def fn_part2 {F : FTy → Type} [FloatOps F] (main_arg7 : FVec F S128 .f32) (main_arg8 : FVec F S64x256 .f32) (main_arg9 : FVec F S64 .f32) (main_arg10 : FVec F S512x128 .f32) (main_arg11 : FVec F S512 .f32) (main_arg12 : FVec F S16x128 .f32) (main_arg13 : FVec F S16 .f32) (main_arg15 : IVec S600000 32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S64x256 .f32 := Host.absf main_arg8
  let main_cst_14 : FVec F S_ .f32 := constant S_ .f32 0x7F800000#32
  let main_v40 : FVec F S64x256 .f32 := broadcastInDim S64x256 ![] bcast_S_S64x256 main_cst_14
  let main_v41 : IVec S64x256 1 := cmpf .olt main_v39 main_v40
  let main_c_15 : IVec S_ 1 := constantI S_ 1 1#1
  let main_v42 : IVec S_ 1 := (fun x v => Host.reduce IntOp.andi x v reducesTo_S64x256_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S512x128 .f32 := Host.absf main_arg10
  let main_cst_18 : FVec F S_ .f32 := constant S_ .f32 0x7F800000#32
  let main_v50 : FVec F S512x128 .f32 := broadcastInDim S512x128 ![] bcast_S_S512x128 main_cst_18
  fn_part3 (F := F) main_arg11 main_arg12 main_arg13 main_arg15 main_v48 main_v49 main_v50

def fn_part1 {F : FTy → Type} [FloatOps F] (main_arg4 : FVec F S128x128 .f32) (main_arg5 : FVec F S128 .f32) (main_arg6 : FVec F S128x128 .f32) (main_arg7 : FVec F S128 .f32) (main_arg8 : FVec F S64x256 .f32) (main_arg9 : FVec F S64 .f32) (main_arg10 : FVec F S512x128 .f32) (main_arg11 : FVec F S512 .f32) (main_arg12 : FVec F S16x128 .f32) (main_arg13 : FVec F S16 .f32) (main_arg15 : IVec S600000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_arg15 main_v33

def fn {F : FTy → Type} [FloatOps F] (main_arg0 : FVec F S200000x128 .f32) (main_arg1 : FVec F S64x128 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S64x256 .f32) (main_arg9 : FVec F S64 .f32) (main_arg10 : FVec F S512x128 .f32) (main_arg11 : FVec F S512 .f32) (main_arg12 : FVec F S16x128 .f32) (main_arg13 : FVec F S16 .f32) (main_arg14 : IVec S200000 32) (main_arg15 : IVec S600000 32) (main_arg16 : IVec S256 32) (main_arg17 : IVec S2x600000 32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg15 main_v13 main_v16
-- ==== Kernel.lean ====
abbrev S200000x128 : Shape := ⟨2, ![200000, 128]⟩
abbrev S64x128 : Shape := ⟨2, ![64, 128]⟩
abbrev S128x128 : Shape := ⟨2, ![128, 128]⟩
abbrev S128 : Shape := ⟨1, ![128]⟩
abbrev S64x256 : Shape := ⟨2, ![64, 256]⟩
abbrev S64 : Shape := ⟨1, ![64]⟩
abbrev S512x128 : Shape := ⟨2, ![512, 128]⟩
abbrev S512 : Shape := ⟨1, ![512]⟩
abbrev S16x128 : Shape := ⟨2, ![16, 128]⟩
abbrev S16 : Shape := ⟨1, ![16]⟩
abbrev S200000 : Shape := ⟨1, ![200000]⟩
abbrev S600000 : Shape := ⟨1, ![600000]⟩
abbrev S256 : Shape := ⟨1, ![256]⟩
abbrev S2x600000 : Shape := ⟨2, ![2, 600000]⟩
abbrev S_ : Shape := ⟨0, ![]⟩
abbrev S200000x1 : Shape := ⟨2, ![200000, 1]⟩
abbrev S10000x128 : Shape := ⟨2, ![10000, 128]⟩
abbrev S1x128 : Shape := ⟨2, ![1, 128]⟩
abbrev S600000x1 : Shape := ⟨2, ![600000, 1]⟩
abbrev S600000x128 : Shape := ⟨2, ![600000, 128]⟩
abbrev S10000x1 : Shape := ⟨2, ![10000, 1]⟩
abbrev S1x64 : Shape := ⟨2, ![1, 64]⟩
abbrev S10000x64 : Shape := ⟨2, ![10000, 64]⟩
abbrev S1x600000 : Shape := ⟨2, ![1, 600000]⟩
abbrev S5000x128 : Shape := ⟨2, ![5000, 128]⟩
abbrev S8000x128 : Shape := ⟨2, ![8000, 128]⟩
abbrev S600000x64 : Shape := ⟨2, ![600000, 64]⟩
abbrev S5000x64 : Shape := ⟨2, ![5000, 64]⟩
abbrev S128x64 : Shape := ⟨2, ![128, 64]⟩
abbrev S256x1 : Shape := ⟨2, ![256, 1]⟩
abbrev S256x128 : Shape := ⟨2, ![256, 128]⟩
abbrev S256x512 : Shape := ⟨2, ![256, 512]⟩
abbrev S128x512 : Shape := ⟨2, ![128, 512]⟩
abbrev S1x512 : Shape := ⟨2, ![1, 512]⟩
abbrev S200000x16 : Shape := ⟨2, ![200000, 16]⟩
abbrev S20000x128 : Shape := ⟨2, ![20000, 128]⟩
abbrev S20000x16 : Shape := ⟨2, ![20000, 16]⟩
abbrev S128x16 : Shape := ⟨2, ![128, 16]⟩
abbrev S1x16 : Shape := ⟨2, ![1, 16]⟩

abbrev nBuf : Space → Nat
  | .hbm => 98
  | .vmem => 59
  | .smem => 0
  | _ => 0

abbrev bufTy : (tb : Table) → Fin (tcTables nBuf tb) → BufTy
  | .hbm, ⟨0, _⟩ => ⟨S200000x128, .f32⟩
  | .hbm, ⟨1, _⟩ => ⟨S64x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S64x256, .f32⟩
  | .hbm, ⟨9, _⟩ => ⟨S64, .f32⟩
  | .hbm, ⟨10, _⟩ => ⟨S512x128, .f32⟩
  | .hbm, ⟨11, _⟩ => ⟨S512, .f32⟩
  | .hbm, ⟨12, _⟩ => ⟨S16x128, .f32⟩
  | .hbm, ⟨13, _⟩ => ⟨S16, .f32⟩
  | .hbm, ⟨14, _⟩ => ⟨S200000, .i32⟩
  | .hbm, ⟨15, _⟩ => ⟨S600000, .i32⟩
  | .hbm, ⟨16, _⟩ => ⟨S256, .i32⟩
  | .hbm, ⟨17, _⟩ => ⟨S2x600000, .i32⟩
  | .hbm, ⟨18, _⟩ => ⟨S_, .i32⟩
  | .hbm, ⟨19, _⟩ => ⟨S200000, .i32⟩
  | .hbm, ⟨20, _⟩ => ⟨S200000, .i1⟩
  | .hbm, ⟨21, _⟩ => ⟨S_, .i32⟩
  | .hbm, ⟨22, _⟩ => ⟨S200000, .i32⟩
  | .hbm, ⟨23, _⟩ => ⟨S200000, .i32⟩
  | .hbm, ⟨24, _⟩ => ⟨S200000, .i32⟩
  | .hbm, ⟨25, _⟩ => ⟨S200000x1, .i32⟩
  | .hbm, ⟨26, _⟩ => ⟨S200000x128, .f32⟩
  | .hbm, ⟨27, _⟩ => ⟨S200000x128, .f32⟩
  | .hbm, ⟨28, _⟩ => ⟨S128x128, .f32⟩
  | .hbm, ⟨29, _⟩ => ⟨S64x128, .f32⟩
  | .hbm, ⟨30, _⟩ => ⟨S600000x1, .i32⟩
  | .hbm, ⟨31, _⟩ => ⟨S600000x128, .f32⟩
  | .hbm, ⟨32, _⟩ => ⟨S1x600000, .i32⟩
  | .hbm, ⟨33, _⟩ => ⟨S600000, .i32⟩
  | .hbm, ⟨34, _⟩ => ⟨S1x600000, .i32⟩
  | .hbm, ⟨35, _⟩ => ⟨S600000, .i32⟩
  | .hbm, ⟨36, _⟩ => ⟨S_, .i32⟩
  | .hbm, ⟨37, _⟩ => ⟨S600000, .i32⟩
  | .hbm, ⟨38, _⟩ => ⟨S600000, .i1⟩
  | .hbm, ⟨39, _⟩ => ⟨S_, .i32⟩
  | .hbm, ⟨40, _⟩ => ⟨S600000, .i32⟩
  | .hbm, ⟨41, _⟩ => ⟨S600000, .i32⟩
  | .hbm, ⟨42, _⟩ => ⟨S600000, .i32⟩
  | .hbm, ⟨43, _⟩ => ⟨S600000x1, .i32⟩
  | .hbm, ⟨44, _⟩ => ⟨S600000x128, .f32⟩
  | .hbm, ⟨45, _⟩ => ⟨S600000x128, .f32⟩
  | .hbm, ⟨46, _⟩ => ⟨S_, .f32⟩
  | .hbm, ⟨47, _⟩ => ⟨S200000x128, .f32⟩
  | .hbm, ⟨48, _⟩ => ⟨S600000x1, .i32⟩
  | .hbm, ⟨49, _⟩ => ⟨S200000x128, .f32⟩
  | .hbm, ⟨50, _⟩ => ⟨S200000x128, .f32⟩
  | .hbm, ⟨51, _⟩ => ⟨S_, .i32⟩
  | .hbm, ⟨52, _⟩ => ⟨S600000, .i32⟩
  | .hbm, ⟨53, _⟩ => ⟨S600000, .i1⟩
  | .hbm, ⟨54, _⟩ => ⟨S_, .i32⟩
  | .hbm, ⟨55, _⟩ => ⟨S600000, .i32⟩
  | .hbm, ⟨56, _⟩ => ⟨S600000, .i32⟩
  | .hbm, ⟨57, _⟩ => ⟨S600000, .i32⟩
  | .hbm, ⟨58, _⟩ => ⟨S600000x1, .i32⟩
  | .hbm, ⟨59, _⟩ => ⟨S600000x128, .f32⟩
  | .hbm, ⟨60, _⟩ => ⟨S600000x128, .f32⟩
  | .hbm, ⟨61, _⟩ => ⟨S_, .f32⟩
  | .hbm, ⟨62, _⟩ => ⟨S200000x128, .f32⟩
  | .hbm, ⟨63, _⟩ => ⟨S600000x1, .i32⟩
  | .hbm, ⟨64, _⟩ => ⟨S200000x128, .f32⟩
  | .hbm, ⟨65, _⟩ => ⟨S200000x128, .f32⟩
  | .hbm, ⟨66, _⟩ => ⟨S_, .i32⟩
  | .hbm, ⟨67, _⟩ => ⟨S600000, .i32⟩
  | .hbm, ⟨68, _⟩ => ⟨S600000, .i1⟩
  | .hbm, ⟨69, _⟩ => ⟨S_, .i32⟩
  | .hbm, ⟨70, _⟩ => ⟨S600000, .i32⟩
  | .hbm, ⟨71, _⟩ => ⟨S600000, .i32⟩
  | .hbm, ⟨72, _⟩ => ⟨S600000, .i32⟩
  | .hbm, ⟨73, _⟩ => ⟨S600000x1, .i32⟩
  | .hbm, ⟨74, _⟩ => ⟨S600000x128, .f32⟩
  | .hbm, ⟨75, _⟩ => ⟨S_, .i32⟩
  | .hbm, ⟨76, _⟩ => ⟨S600000, .i32⟩
  | .hbm, ⟨77, _⟩ => ⟨S600000, .i1⟩
  | .hbm, ⟨78, _⟩ => ⟨S_, .i32⟩
  | .hbm, ⟨79, _⟩ => ⟨S600000, .i32⟩
  | .hbm, ⟨80, _⟩ => ⟨S600000, .i32⟩
  | .hbm, ⟨81, _⟩ => ⟨S600000, .i32⟩
  | .hbm, ⟨82, _⟩ => ⟨S600000x1, .i32⟩
  | .hbm, ⟨83, _⟩ => ⟨S600000x128, .f32⟩
  | .hbm, ⟨84, _⟩ => ⟨S64x128, .f32⟩
  | .hbm, ⟨85, _⟩ => ⟨S64x128, .f32⟩
  | .hbm, ⟨86, _⟩ => ⟨S600000x64, .f32⟩
  | .hbm, ⟨87, _⟩ => ⟨S_, .i32⟩
  | .hbm, ⟨88, _⟩ => ⟨S256, .i32⟩
  | .hbm, ⟨89, _⟩ => ⟨S256, .i1⟩
  | .hbm, ⟨90, _⟩ => ⟨S_, .i32⟩
  | .hbm, ⟨91, _⟩ => ⟨S256, .i32⟩
  | .hbm, ⟨92, _⟩ => ⟨S256, .i32⟩
  | .hbm, ⟨93, _⟩ => ⟨S256, .i32⟩
  | .hbm, ⟨94, _⟩ => ⟨S256x1, .i32⟩
  | .hbm, ⟨95, _⟩ => ⟨S256x128, .f32⟩
  | .hbm, ⟨96, _⟩ => ⟨S256x512, .f32⟩
  | .hbm, ⟨97, _⟩ => ⟨S200000x16, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S128, .f32⟩
  | .local _ .vmem, ⟨4, _⟩ => ⟨S10000x128, .f32⟩
  | .local _ .vmem, ⟨5, _⟩ => ⟨S10000x128, .f32⟩
  | .local _ .vmem, ⟨6, _⟩ => ⟨S10000x1, .i32⟩
  | .local _ .vmem, ⟨7, _⟩ => ⟨S10000x1, .i32⟩
  | .local _ .vmem, ⟨8, _⟩ => ⟨S64x128, .f32⟩
  | .local _ .vmem, ⟨9, _⟩ => ⟨S128, .f32⟩
  | .local _ .vmem, ⟨10, _⟩ => ⟨S10000x128, .f32⟩
  | .local _ .vmem, ⟨11, _⟩ => ⟨S10000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S8000x128, .f32⟩
  | .local _ .vmem, ⟨19, _⟩ => ⟨S8000x128, .f32⟩
  | .local _ .vmem, ⟨20, _⟩ => ⟨S8000x128, .f32⟩
  | .local _ .vmem, ⟨21, _⟩ => ⟨S8000x128, .f32⟩
  | .local _ .vmem, ⟨22, _⟩ => ⟨S128x128, .f32⟩
  | .local _ .vmem, ⟨23, _⟩ => ⟨S128, .f32⟩
  | .local _ .vmem, ⟨24, _⟩ => ⟨S8000x128, .f32⟩
  | .local _ .vmem, ⟨25, _⟩ => ⟨S8000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S8000x128, .f32⟩
  | .local _ .vmem, ⟨33, _⟩ => ⟨S8000x128, .f32⟩
  | .local _ .vmem, ⟨34, _⟩ => ⟨S8000x128, .f32⟩
  | .local _ .vmem, ⟨35, _⟩ => ⟨S8000x128, .f32⟩
  | .local _ .vmem, ⟨36, _⟩ => ⟨S128x128, .f32⟩
  | .local _ .vmem, ⟨37, _⟩ => ⟨S128, .f32⟩
  | .local _ .vmem, ⟨38, _⟩ => ⟨S8000x128, .f32⟩
  | .local _ .vmem, ⟨39, _⟩ => ⟨S8000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S64x128, .f32⟩
  | .local _ .vmem, ⟨45, _⟩ => ⟨S64x128, .f32⟩
  | .local _ .vmem, ⟨46, _⟩ => ⟨S64, .f32⟩
  | .local _ .vmem, ⟨47, _⟩ => ⟨S5000x64, .f32⟩
  | .local _ .vmem, ⟨48, _⟩ => ⟨S5000x64, .f32⟩
  | .local _ .vmem, ⟨49, _⟩ => ⟨S256x128, .f32⟩
  | .local _ .vmem, ⟨50, _⟩ => ⟨S512x128, .f32⟩
  | .local _ .vmem, ⟨51, _⟩ => ⟨S512, .f32⟩
  | .local _ .vmem, ⟨52, _⟩ => ⟨S256x512, .f32⟩
  | .local _ .vmem, ⟨53, _⟩ => ⟨S20000x128, .f32⟩
  | .local _ .vmem, ⟨54, _⟩ => ⟨S20000x128, .f32⟩
  | .local _ .vmem, ⟨55, _⟩ => ⟨S16x128, .f32⟩
  | .local _ .vmem, ⟨56, _⟩ => ⟨S16, .f32⟩
  | .local _ .vmem, ⟨57, _⟩ => ⟨S20000x16, .f32⟩
  | .local _ .vmem, ⟨58, _⟩ => ⟨S20000x16, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c_1 : Ref sig .tc := ⟨.hbm, 36, rfl⟩
abbrev main_v16 : Ref sig .tc := ⟨.hbm, 37, rfl⟩
abbrev main_v17 : Ref sig .tc := ⟨.hbm, 38, rfl⟩
abbrev main_c_2 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_c_3 : Ref sig .tc := ⟨.hbm, 51, rfl⟩
abbrev main_v28 : Ref sig .tc := ⟨.hbm, 52, rfl⟩
abbrev main_v29 : Ref sig .tc := ⟨.hbm, 53, rfl⟩
abbrev main_c_4 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_5 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_c_6 : Ref sig .tc := ⟨.hbm, 66, rfl⟩
abbrev main_v40 : Ref sig .tc := ⟨.hbm, 67, rfl⟩
abbrev main_v41 : Ref sig .tc := ⟨.hbm, 68, rfl⟩
abbrev main_c_7 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_c_8 : Ref sig .tc := ⟨.hbm, 75, rfl⟩
abbrev main_v47 : Ref sig .tc := ⟨.hbm, 76, rfl⟩
abbrev main_v48 : Ref sig .tc := ⟨.hbm, 77, rfl⟩
abbrev main_c_9 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_c_10 : Ref sig .tc := ⟨.hbm, 87, rfl⟩
abbrev main_v57 : Ref sig .tc := ⟨.hbm, 88, rfl⟩
abbrev main_v58 : Ref sig .tc := ⟨.hbm, 89, rfl⟩
abbrev main_c_11 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg4_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg1_1 : Ref sig .tc := ⟨.vmem, 35, rfl⟩
abbrev cc5_stg2_0 : Ref sig .tc := ⟨.vmem, 36, rfl⟩
abbrev cc5_stg3_0 : Ref sig .tc := ⟨.vmem, 37, rfl⟩
abbrev cc5_stg4_0 : Ref sig .tc := ⟨.vmem, 38, rfl⟩
abbrev cc5_stg4_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg1_1 : Ref sig .tc := ⟨.vmem, 43, rfl⟩
abbrev cc6_stg2_0 : Ref sig .tc := ⟨.vmem, 44, rfl⟩
abbrev cc6_stg3_0 : Ref sig .tc := ⟨.vmem, 45, rfl⟩
abbrev cc6_stg4_0 : Ref sig .tc := ⟨.vmem, 46, rfl⟩
abbrev cc6_stg5_0 : Ref sig .tc := ⟨.vmem, 47, rfl⟩
abbrev cc6_stg5_1 : Ref sig .tc := ⟨.vmem, 48, rfl⟩
abbrev cc7_stg0_0 : Ref sig .tc := ⟨.vmem, 49, rfl⟩
abbrev cc7_stg1_0 : Ref sig .tc := ⟨.vmem, 50, rfl⟩
abbrev cc7_stg2_0 : Ref sig .tc := ⟨.vmem, 51, rfl⟩
abbrev cc7_stg3_0 : Ref sig .tc := ⟨.vmem, 52, rfl⟩
abbrev cc8_stg0_0 : Ref sig .tc := ⟨.vmem, 53, rfl⟩
abbrev cc8_stg0_1 : Ref sig .tc := ⟨.vmem, 54, rfl⟩
abbrev cc8_stg1_0 : Ref sig .tc := ⟨.vmem, 55, rfl⟩
abbrev cc8_stg2_0 : Ref sig .tc := ⟨.vmem, 56, rfl⟩
abbrev cc8_stg3_0 : Ref sig .tc := ⟨.vmem, 57, rfl⟩
abbrev cc8_stg3_1 : Ref sig .tc := ⟨.vmem, 58, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem3_0 : DmaSem sig := 23
abbrev cc3_sem4_0 : DmaSem sig := 24
abbrev cc3_sem4_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31
abbrev cc5_sem0_0 : DmaSem sig := 32
abbrev cc5_sem0_1 : DmaSem sig := 33
abbrev cc5_sem1_0 : DmaSem sig := 34
abbrev cc5_sem1_1 : DmaSem sig := 35
abbrev cc5_sem2_0 : DmaSem sig := 36
abbrev cc5_sem3_0 : DmaSem sig := 37
abbrev cc5_sem4_0 : DmaSem sig := 38
abbrev cc5_sem4_1 : DmaSem sig := 39
abbrev cc6_sem0_0 : DmaSem sig := 40
abbrev cc6_sem0_1 : DmaSem sig := 41
abbrev cc6_sem1_0 : DmaSem sig := 42
abbrev cc6_sem1_1 : DmaSem sig := 43
abbrev cc6_sem2_0 : DmaSem sig := 44
abbrev cc6_sem3_0 : DmaSem sig := 45
abbrev cc6_sem4_0 : DmaSem sig := 46
abbrev cc6_sem5_0 : DmaSem sig := 47
abbrev cc6_sem5_1 : DmaSem sig := 48
abbrev cc7_sem0_0 : DmaSem sig := 49
abbrev cc7_sem1_0 : DmaSem sig := 50
abbrev cc7_sem2_0 : DmaSem sig := 51
abbrev cc7_sem3_0 : DmaSem sig := 52
abbrev cc8_sem0_0 : DmaSem sig := 53
abbrev cc8_sem0_1 : DmaSem sig := 54
abbrev cc8_sem1_0 : DmaSem sig := 55
abbrev cc8_sem2_0 : DmaSem sig := 56
abbrev cc8_sem3_0 : DmaSem sig := 57
abbrev cc8_sem3_1 : DmaSem sig := 58

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![60], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![120], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S8000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![120], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S8000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S8000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![120], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 1 → Memref sig .tc .vmem S256x128 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true]

abbrev stage7_1 : Fin 1 → Memref sig .tc .vmem S512x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S512 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S256x512 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S20000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S16x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S16 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S20000x16 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

class Facts₀ : Prop where
  bcast_S_S200000 : S_.BroadcastsInDim S200000 (![] : Fin 0 → Fin S200000.rank)
  bcast_S200000_S200000x1_0 : S200000.BroadcastsInDim S200000x1 (![0] : Fin 1 → Fin S200000x1.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  transposes_S128x128_S128x128_1_0 : S128x128.Transposes [1, 0] S128x128
  shapeCasts_S600000_S600000x1 : S600000.ShapeCasts S600000x1
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  iota_S1x64_d1_w32 : S1x64.Iotas .tc 32 [1]
  broadcasts_S10000x1_S10000x64 : S10000x1.Broadcasts S10000x64
  broadcasts_S1x64_S10000x64 : S1x64.Broadcasts S10000x64
  natLt_1_32 : 1 < 32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bcast_S_S200000x128 : S_.BroadcastsInDim S200000x128 (![] : Fin 0 → Fin S200000x128.rank)
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  broadcasts_S1x128_S8000x128 : S1x128.Broadcasts S8000x128
  slices_S64x256_S64x128_0_0 : S64x256.Slices ![0, 0] S64x128
  slices_S64x256_S64x128_0_128 : S64x256.Slices ![0, 128] S64x128
  transposes_S64x128_p1_0_S128x64 : S64x128.Transposes [1, 0] S128x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S256 : S_.BroadcastsInDim S256 (![] : Fin 0 → Fin S256.rank)
  bcast_S256_S256x1_0 : S256.BroadcastsInDim S256x1 (![0] : Fin 1 → Fin S256x1.rank)
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S512x128_S512x128_0_0 : ∀ a, (![0, 0] : Fin 2 → Nat) a + S512x128.size a ≤ S512x128.size a
  h_S512x128 : 0 < S512x128.numel
  transposes_S512x128_p1_0_S128x512 : S512x128.Transposes [1, 0] S128x512
  inb_S512_S512_0 : ∀ a, (![0] : Fin 1 → Nat) a + S512.size a ≤ S512.size a
  h_S512 : 0 < S512.numel
  shapeCasts_S512_S1x512 : S512.ShapeCasts S1x512
  broadcasts_S1x512_S256x512 : S1x512.Broadcasts S256x512
  inb_S256x512_S256x512_0_0 : ∀ a, (![0, 0] : Fin 2 → Nat) a + S256x512.size a ≤ S256x512.size a
  h_S256x512 : 0 < S256x512.numel
  inb_S20000x128_S20000x128_0_0 : ∀ a, (![0, 0] : Fin 2 → Nat) a + S20000x128.size a ≤ S20000x128.size a
  h_S20000x128 : 0 < S20000x128.numel
  shapeCasts_S20000x128_S20000x128 : S20000x128.ShapeCasts S20000x128
  inb_S16x128_S16x128_0_0 : ∀ a, (![0, 0] : Fin 2 → Nat) a + S16x128.size a ≤ S16x128.size a
  h_S16x128 : 0 < S16x128.numel
  transposes_S16x128_p1_0_S128x16 : S16x128.Transposes [1, 0] S128x16
  inb_S16_S16_0 : ∀ a, (![0] : Fin 1 → Nat) a + S16.size a ≤ S16.size a
  h_S16 : 0 < S16.numel
  shapeCasts_S16_S1x16 : S16.ShapeCasts S1x16
  broadcasts_S1x16_S20000x16 : S1x16.Broadcasts S20000x16
  inb_S20000x16_S20000x16_0_0 : ∀ a, (![0, 0] : Fin 2 → Nat) a + S20000x16.size a ≤ S20000x16.size a
  h_S20000x16 : 0 < S20000x16.numel
  gather_S200000x128_S200000x1_S200000x128_1_0_n_n_0_1_1128_wf : GatherDims.WF S200000x128 S200000x1 S200000x128 [1] [0] [] [0] [] 1 ![1, 128]
  dot_S10000x128_S128x128_S10000x128_1_0_0_1_n_n_wf : DotDims.WF S10000x128 S128x128 S10000x128 [1] [0] [0] [1] [] []
  dot_S64x128_S128x128_S64x128_1_0_0_1_n_n_wf : DotDims.WF S64x128 S128x128 S64x128 [1] [0] [0] [1] [] []
  dot_S10000x64_S64x128_S10000x128_1_0_0_1_n_n_wf : DotDims.WF S10000x64 S64x128 S10000x128 [1] [0] [0] [1] [] []
  gather_S200000x128_S600000x1_S600000x128_1_0_n_n_0_1_1128_wf : GatherDims.WF S200000x128 S600000x1 S600000x128 [1] [0] [] [0] [] 1 ![1, 128]
  scatter_S200000x128_S600000x1_S600000x128_1_0_0_1_wf : ScatterDims.WF S200000x128 S600000x1 S600000x128 [1] [0] [0] 1
  dot_S8000x128_S128x128_S8000x128_1_0_0_1_n_n_wf : DotDims.WF S8000x128 S128x128 S8000x128 [1] [0] [0] [1] [] []
  dot_S5000x128_S128x64_S5000x64_1_0_0_1_n_n_wf : DotDims.WF S5000x128 S128x64 S5000x64 [1] [0] [0] [1] [] []
  gather_S200000x128_S256x1_S256x128_1_0_n_n_0_1_1128_wf : GatherDims.WF S200000x128 S256x1 S256x128 [1] [0] [] [0] [] 1 ![1, 128]
  dot_S256x128_S128x512_S256x512_1_0_0_1_n_n_wf : DotDims.WF S256x128 S128x512 S256x512 [1] [0] [0] [1] [] []
  dot_S20000x128_S128x16_S20000x16_1_0_0_1_n_n_wf : DotDims.WF S20000x128 S128x16 S20000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S200000x128.size a
  hwx0_0 : ∀ i : grid0.Coords, EltTy.bits .f32 = 32 ∨ (Rect.block (s := S200000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S200000x128.size a
  hwx0_3 : ∀ i : grid0.Coords, EltTy.bits .f32 = 32 ∨ (Rect.block (s := S200000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x1.size a ≤ S600000x1.size a
  hwx1_0 : ∀ i : grid1.Coords, EltTy.bits .i32 = 32 ∨ (Rect.block (s := S600000x1) S10000x1.size (cc1_transform_0 i) (hinb1_0 i)).WholeWords (EltTy.packing .i32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S64x128.size a
  hwx1_1 : ∀ i : grid1.Coords, EltTy.bits .f32 = 32 ∨ (Rect.block (s := S64x128) S64x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S600000x128.size a
  hwx1_3 : ∀ i : grid1.Coords, EltTy.bits .f32 = 32 ∨ (Rect.block (s := S600000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S600000x128.size a
  hwx2_0 : ∀ i : grid2.Coords, EltTy.bits .f32 = 32 ∨ (Rect.block (s := S600000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S600000x128.size a
  hwx2_1 : ∀ i : grid2.Coords, EltTy.bits .f32 = 32 ∨ (Rect.block (s := S600000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S600000x128.size a
  hwx2_2 : ∀ i : grid2.Coords, EltTy.bits .f32 = 32 ∨ (Rect.block (s := S600000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x128.size a ≤ S200000x128.size a
  hwx3_0 : ∀ i : grid3.Coords, EltTy.bits .f32 = 32 ∨ (Rect.block (s := S200000x128) S8000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x128.size a ≤ S200000x128.size a
  hwx3_1 : ∀ i : grid3.Coords, EltTy.bits .f32 = 32 ∨ (Rect.block (s := S200000x128) S8000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S8000x128.size a ≤ S200000x128.size a
  hwx3_4 : ∀ i : grid3.Coords, EltTy.bits .f32 = 32 ∨ (Rect.block (s := S200000x128) S8000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S600000x128.size a
  hwx4_0 : ∀ i : grid4.Coords, EltTy.bits .f32 = 32 ∨ (Rect.block (s := S600000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S600000x128.size a
  hwx4_1 : ∀ i : grid4.Coords, EltTy.bits .f32 = 32 ∨ (Rect.block (s := S600000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S600000x128.size a
  hwx4_2 : ∀ i : grid4.Coords, EltTy.bits .f32 = 32 ∨ (Rect.block (s := S600000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8000x128.size a ≤ S200000x128.size a
  hwx5_0 : ∀ i : grid5.Coords, EltTy.bits .f32 = 32 ∨ (Rect.block (s := S200000x128) S8000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S8000x128.size a ≤ S200000x128.size a
  hwx5_1 : ∀ i : grid5.Coords, EltTy.bits .f32 = 32 ∨ (Rect.block (s := S200000x128) S8000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128.size a ≤ S128.size a
  hwx5_3 : ∀ i : grid5.Coords, EltTy.bits .f32 = 32 ∨ (Rect.block (s := S128) S128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S8000x128.size a ≤ S200000x128.size a
  hwx5_4 : ∀ i : grid5.Coords, EltTy.bits .f32 = 32 ∨ (Rect.block (s := S200000x128) S8000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S600000x128.size a
  hwx6_0 : ∀ i : grid6.Coords, EltTy.bits .f32 = 32 ∨ (Rect.block (s := S600000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S600000x128.size a
  hwx6_1 : ∀ i : grid6.Coords, EltTy.bits .f32 = 32 ∨ (Rect.block (s := S600000x128) S5000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x128.size a ≤ S64x128.size a
  hwx6_2 : ∀ i : grid6.Coords, EltTy.bits .f32 = 32 ∨ (Rect.block (s := S64x128) S64x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x128.size a ≤ S64x128.size a
  hwx6_3 : ∀ i : grid6.Coords, EltTy.bits .f32 = 32 ∨ (Rect.block (s := S64x128) S64x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S64.size a ≤ S64.size a
  hwx6_4 : ∀ i : grid6.Coords, EltTy.bits .f32 = 32 ∨ (Rect.block (s := S64) S64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x64.size a ≤ S600000x64.size a
  hwx6_5 : ∀ i : grid6.Coords, EltTy.bits .f32 = 32 ∨ (Rect.block (s := S600000x64) S5000x64.size (cc6_transform_5 i) (hinb6_5 i)).WholeWords (EltTy.packing .f32)
  hrank7 : 0 < grid7.rank
  hstage7_0 : ∀ j, (stage7_0 j).IsWhole
  nbuf7_0 : grid7.bufCount reads7_0 false = 1
  hreads7_0 : ∀ i i' : grid7.Coords, (∀ a, reads7_0 a = true → i a = i' a) → cc7_transform_0 i = cc7_transform_0 i'
  hinb7_0 : ∀ (i : grid7.Coords) a, (cc7_transform_0 i a + 1) * S256x128.size a ≤ S256x128.size a
  hwx7_0 : ∀ i : grid7.Coords, EltTy.bits .f32 = 32 ∨ (Rect.block (s := S256x128) S256x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S512x128.size a ≤ S512x128.size a
  hwx7_1 : ∀ i : grid7.Coords, EltTy.bits .f32 = 32 ∨ (Rect.block (s := S512x128) S512x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S512.size a ≤ S512.size a
  hwx7_2 : ∀ i : grid7.Coords, EltTy.bits .f32 = 32 ∨ (Rect.block (s := S512) S512.size (cc7_transform_2 i) (hinb7_2 i)).WholeWords (EltTy.packing .f32)
  hstage7_3 : ∀ j, (stage7_3 j).IsWhole
  nbuf7_3 : grid7.bufCount reads7_3 false = 1
  hreads7_3 : ∀ i i' : grid7.Coords, (∀ a, reads7_3 a = true → i a = i' a) → cc7_transform_3 i = cc7_transform_3 i'
  hinb7_3 : ∀ (i : grid7.Coords) a, (cc7_transform_3 i a + 1) * S256x512.size a ≤ S256x512.size a
  hwx7_3 : ∀ i : grid7.Coords, EltTy.bits .f32 = 32 ∨ (Rect.block (s := S256x512) S256x512.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S20000x128.size a ≤ S200000x128.size a
  hwx8_0 : ∀ i : grid8.Coords, EltTy.bits .f32 = 32 ∨ (Rect.block (s := S200000x128) S20000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S16x128.size a ≤ S16x128.size a
  hwx8_1 : ∀ i : grid8.Coords, EltTy.bits .f32 = 32 ∨ (Rect.block (s := S16x128) S16x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S16.size a ≤ S16.size a
  hwx8_2 : ∀ i : grid8.Coords, EltTy.bits .f32 = 32 ∨ (Rect.block (s := S16) S16.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S20000x16.size a ≤ S200000x16.size a
  hwx8_3 : ∀ i : grid8.Coords, EltTy.bits .f32 = 32 ∨ (Rect.block (s := S200000x16) S20000x16.size (cc8_transform_3 i) (hinb8_3 i)).WholeWords (EltTy.packing .f32)

variable [Facts₀]

def gather_S200000x128_S200000x1_S200000x128_1_0_n_n_0_1_1128 : GatherDims S200000x128 S200000x1 S200000x128 where
  offsetDims := [1]
  collapsedSliceDims := [0]
  operandBatchingDims := []
  startIndicesBatchingDims := []
  startIndexMap := [0]
  indexVectorDim := 1
  sliceSizes := ![1, 128]
  wf := gather_S200000x128_S200000x1_S200000x128_1_0_n_n_0_1_1128_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def gather_S200000x128_S600000x1_S600000x128_1_0_n_n_0_1_1128 : GatherDims S200000x128 S600000x1 S600000x128 where
  offsetDims := [1]
  collapsedSliceDims := [0]
  operandBatchingDims := []
  startIndicesBatchingDims := []
  startIndexMap := [0]
  indexVectorDim := 1
  sliceSizes := ![1, 128]
  wf := gather_S200000x128_S600000x1_S600000x128_1_0_n_n_0_1_1128_wf
def scatter_S200000x128_S600000x1_S600000x128_1_0_0_1 : ScatterDims S200000x128 S600000x1 S600000x128 where
  updateWindowDims := [1]
  insertedWindowDims := [0]
  scatterDimsToOperandDims := [0]
  indexVectorDim := 1
  wf := scatter_S200000x128_S600000x1_S600000x128_1_0_0_1_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S200000x128_S256x1_S256x128_1_0_n_n_0_1_1128 : GatherDims S200000x128 S256x1 S256x128 where
  offsetDims := [1]
  collapsedSliceDims := [0]
  operandBatchingDims := []
  startIndicesBatchingDims := []
  startIndexMap := [0]
  indexVectorDim := 1
  sliceSizes := ![1, 128]
  wf := gather_S200000x128_S256x1_S256x128_1_0_n_n_0_1_1128_wf
def dot_S256x128_S128x512_S256x512_1_0_0_1_n_n : DotDims S256x128 S128x512 S256x512 where
  lhsContracting := [1]
  rhsContracting := [0]
  lhsNonContracting := [0]
  rhsNonContracting := [1]
  lhsBatch := []
  rhsBatch := []
  wf := dot_S256x128_S128x512_S256x512_1_0_0_1_n_n_wf
def dot_S20000x128_S128x16_S20000x16_1_0_0_1_n_n : DotDims S20000x128 S128x16 S20000x16 where
  lhsContracting := [1]
  rhsContracting := [0]
  lhsNonContracting := [0]
  rhsNonContracting := [1]
  lhsBatch := []
  rhsBatch := []
  wf := dot_S20000x128_S128x16_S20000x16_1_0_0_1_n_n_wf

abbrev win0_0 : Pipeline.Window sig grid0 :=
  Pipeline.Window.ofSpec (Memref.whole main_v6) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v10) S10000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S64x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v22) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v23) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v26) S8000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v7) S8000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg4) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg5) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v27) S8000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v34) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v11) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v35) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v38) S8000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v27) S8000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg6) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg7) S128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v39) S8000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v46) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v53) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v54) S64x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v55) S64x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg9) S64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v56) S5000x64.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v63) S256x128.size cc7_transform_0 reads7_0 false false 1 stage7_0 sem7_0
    hrank7 hreads7_0 hinb7_0 nbuf7_0 (Memref.isWhole_whole _) hwx7_0 hstage7_0

abbrev win7_1 : Pipeline.Window sig grid7 :=
  Pipeline.Window.ofSpec (Memref.whole main_arg10) S512x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_arg11) S512.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v64) S256x512.size cc7_transform_3 reads7_3 true false 1 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v39) S20000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg12) S16x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_arg13) S16.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v65) S20000x16.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

class Facts : Prop extends Facts₀ where

variable [Facts]
-- ==== ReferenceIdeal.lean ====
abbrev S200000x128 : Shape := ⟨2, ![200000, 128]⟩
abbrev S64x128 : Shape := ⟨2, ![64, 128]⟩
abbrev S128x128 : Shape := ⟨2, ![128, 128]⟩
abbrev S128 : Shape := ⟨1, ![128]⟩
abbrev S64x256 : Shape := ⟨2, ![64, 256]⟩
abbrev S64 : Shape := ⟨1, ![64]⟩
abbrev S512x128 : Shape := ⟨2, ![512, 128]⟩
abbrev S512 : Shape := ⟨1, ![512]⟩
abbrev S16x128 : Shape := ⟨2, ![16, 128]⟩
abbrev S16 : Shape := ⟨1, ![16]⟩
abbrev S200000 : Shape := ⟨1, ![200000]⟩
abbrev S600000 : Shape := ⟨1, ![600000]⟩
abbrev S256 : Shape := ⟨1, ![256]⟩
abbrev S2x600000 : Shape := ⟨2, ![2, 600000]⟩
abbrev S_ : Shape := ⟨0, ![]⟩
abbrev S200000x1 : Shape := ⟨2, ![200000, 1]⟩
abbrev S600000x1 : Shape := ⟨2, ![600000, 1]⟩
abbrev S600000x128 : Shape := ⟨2, ![600000, 128]⟩
abbrev S1x128 : Shape := ⟨2, ![1, 128]⟩
abbrev S1x600000 : Shape := ⟨2, ![1, 600000]⟩
abbrev S600000x256 : Shape := ⟨2, ![600000, 256]⟩
abbrev S256x64 : Shape := ⟨2, ![256, 64]⟩
abbrev S600000x64 : Shape := ⟨2, ![600000, 64]⟩
abbrev S1x64 : Shape := ⟨2, ![1, 64]⟩
abbrev S256x1 : Shape := ⟨2, ![256, 1]⟩
abbrev S256x128 : Shape := ⟨2, ![256, 128]⟩
abbrev S128x512 : Shape := ⟨2, ![128, 512]⟩
abbrev S256x512 : Shape := ⟨2, ![256, 512]⟩
abbrev S1x512 : Shape := ⟨2, ![1, 512]⟩
abbrev S128x16 : Shape := ⟨2, ![128, 16]⟩
abbrev S200000x16 : Shape := ⟨2, ![200000, 16]⟩
abbrev S1x16 : Shape := ⟨2, ![1, 16]⟩

abbrev nBuf : Space → Nat
  | .hbm => 150
  | .vmem => 0
  | .smem => 0
  | _ => 0

abbrev hbmTy0_0 (i : Nat) : BufTy := match i % 128 with
  | 0 => ⟨S200000x128, .f32⟩
  | 1 => ⟨S64x128, .f32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S64x256, .f32⟩
  | 9 => ⟨S64, .f32⟩
  | 10 => ⟨S512x128, .f32⟩
  | 11 => ⟨S512, .f32⟩
  | 12 => ⟨S16x128, .f32⟩
  | 13 => ⟨S16, .f32⟩
  | 14 => ⟨S200000, .i32⟩
  | 15 => ⟨S600000, .i32⟩
  | 16 => ⟨S256, .i32⟩
  | 17 => ⟨S2x600000, .i32⟩
  | 18 => ⟨S_, .i32⟩
  | 19 => ⟨S200000, .i32⟩
  | 20 => ⟨S200000, .i1⟩
  | 21 => ⟨S_, .i32⟩
  | 22 => ⟨S200000, .i32⟩
  | 23 => ⟨S200000, .i32⟩
  | 24 => ⟨S200000, .i32⟩
  | 25 => ⟨S200000x1, .i32⟩
  | 26 => ⟨S200000x128, .f32⟩
  | 27 => ⟨S_, .i32⟩
  | 28 => ⟨S600000, .i32⟩
  | 29 => ⟨S600000, .i1⟩
  | 30 => ⟨S_, .i32⟩
  | 31 => ⟨S600000, .i32⟩
  | 32 => ⟨S600000, .i32⟩
  | 33 => ⟨S600000, .i32⟩
  | 34 => ⟨S600000x1, .i32⟩
  | 35 => ⟨S600000x128, .f32⟩
  | 36 => ⟨S128x128, .f32⟩
  | 37 => ⟨S200000x128, .f32⟩
  | 38 => ⟨S1x128, .f32⟩
  | 39 => ⟨S200000x128, .f32⟩
  | 40 => ⟨S200000x128, .f32⟩
  | 41 => ⟨S128x128, .f32⟩
  | 42 => ⟨S600000x128, .f32⟩
  | 43 => ⟨S1x128, .f32⟩
  | 44 => ⟨S600000x128, .f32⟩
  | 45 => ⟨S600000x128, .f32⟩
  | 46 => ⟨S1x600000, .i32⟩
  | 47 => ⟨S600000, .i32⟩
  | 48 => ⟨S1x600000, .i32⟩
  | 49 => ⟨S600000, .i32⟩
  | 50 => ⟨S_, .i32⟩
  | 51 => ⟨S600000, .i32⟩
  | 52 => ⟨S600000, .i1⟩
  | 53 => ⟨S_, .i32⟩
  | 54 => ⟨S600000, .i32⟩
  | 55 => ⟨S600000, .i32⟩
  | 56 => ⟨S600000, .i32⟩
  | 57 => ⟨S600000x1, .i32⟩
  | 58 => ⟨S600000x128, .f32⟩
  | 59 => ⟨S600000x128, .f32⟩
  | 60 => ⟨S_, .f32⟩
  | 61 => ⟨S600000x128, .f32⟩
  | 62 => ⟨S600000x128, .f32⟩
  | 63 => ⟨S_, .f32⟩
  | 64 => ⟨S200000x128, .f32⟩
  | 65 => ⟨S600000x1, .i32⟩
  | 66 => ⟨S200000x128, .f32⟩
  | 67 => ⟨S200000x128, .f32⟩
  | 68 => ⟨S128x128, .f32⟩
  | 69 => ⟨S200000x128, .f32⟩
  | 70 => ⟨S1x128, .f32⟩
  | 71 => ⟨S200000x128, .f32⟩
  | 72 => ⟨S200000x128, .f32⟩
  | 73 => ⟨S_, .f32⟩
  | 74 => ⟨S200000x128, .f32⟩
  | 75 => ⟨S200000x128, .f32⟩
  | 76 => ⟨S1x600000, .i32⟩
  | 77 => ⟨S600000, .i32⟩
  | 78 => ⟨S1x600000, .i32⟩
  | 79 => ⟨S600000, .i32⟩
  | 80 => ⟨S_, .i32⟩
  | 81 => ⟨S600000, .i32⟩
  | 82 => ⟨S600000, .i1⟩
  | 83 => ⟨S_, .i32⟩
  | 84 => ⟨S600000, .i32⟩
  | 85 => ⟨S600000, .i32⟩
  | 86 => ⟨S600000, .i32⟩
  | 87 => ⟨S600000x1, .i32⟩
  | 88 => ⟨S600000x128, .f32⟩
  | 89 => ⟨S600000x128, .f32⟩
  | 90 => ⟨S_, .f32⟩
  | 91 => ⟨S600000x128, .f32⟩
  | 92 => ⟨S600000x128, .f32⟩
  | 93 => ⟨S_, .f32⟩
  | 94 => ⟨S200000x128, .f32⟩
  | 95 => ⟨S600000x1, .i32⟩
  | 96 => ⟨S200000x128, .f32⟩
  | 97 => ⟨S200000x128, .f32⟩
  | 98 => ⟨S128x128, .f32⟩
  | 99 => ⟨S200000x128, .f32⟩
  | 100 => ⟨S1x128, .f32⟩
  | 101 => ⟨S200000x128, .f32⟩
  | 102 => ⟨S200000x128, .f32⟩
  | 103 => ⟨S1x600000, .i32⟩
  | 104 => ⟨S600000, .i32⟩
  | 105 => ⟨S_, .i32⟩
  | 106 => ⟨S600000, .i32⟩
  | 107 => ⟨S600000, .i1⟩
  | 108 => ⟨S_, .i32⟩
  | 109 => ⟨S600000, .i32⟩
  | 110 => ⟨S600000, .i32⟩
  | 111 => ⟨S600000, .i32⟩
  | 112 => ⟨S600000x1, .i32⟩
  | 113 => ⟨S600000x128, .f32⟩
  | 114 => ⟨S1x600000, .i32⟩
  | 115 => ⟨S600000, .i32⟩
  | 116 => ⟨S_, .i32⟩
  | 117 => ⟨S600000, .i32⟩
  | 118 => ⟨S600000, .i1⟩
  | 119 => ⟨S_, .i32⟩
  | 120 => ⟨S600000, .i32⟩
  | 121 => ⟨S600000, .i32⟩
  | 122 => ⟨S600000, .i32⟩
  | 123 => ⟨S600000x1, .i32⟩
  | 124 => ⟨S600000x128, .f32⟩
  | 125 => ⟨S600000x256, .f32⟩
  | 126 => ⟨S256x64, .f32⟩
  | 127 => ⟨S600000x64, .f32⟩
  | _ => ⟨S200000x128, .f32⟩

abbrev hbmTy0_1 (i : Nat) : BufTy := match i % 128 with
  | 0 => ⟨S1x64, .f32⟩
  | 1 => ⟨S600000x64, .f32⟩
  | 2 => ⟨S600000x64, .f32⟩
  | 3 => ⟨S_, .i32⟩
  | 4 => ⟨S256, .i32⟩
  | 5 => ⟨S256, .i1⟩
  | 6 => ⟨S_, .i32⟩
  | 7 => ⟨S256, .i32⟩
  | 8 => ⟨S256, .i32⟩
  | 9 => ⟨S256, .i32⟩
  | 10 => ⟨S256x1, .i32⟩
  | 11 => ⟨S256x128, .f32⟩
  | 12 => ⟨S128x512, .f32⟩
  | 13 => ⟨S256x512, .f32⟩
  | 14 => ⟨S1x512, .f32⟩
  | 15 => ⟨S256x512, .f32⟩
  | 16 => ⟨S256x512, .f32⟩
  | 17 => ⟨S128x16, .f32⟩
  | 18 => ⟨S200000x16, .f32⟩
  | 19 => ⟨S1x16, .f32⟩
  | 20 => ⟨S200000x16, .f32⟩
  | 21 => ⟨S200000x16, .f32⟩
  | _ => ⟨S200000x128, .f32⟩

abbrev hbmTy (i : Nat) : BufTy := match i / 128 with
  | 0 => hbmTy0_0 i
  | 1 => hbmTy0_1 i
  | _ => ⟨S200000x128, .f32⟩

abbrev bufTy : (tb : Table) → Fin (tcTables nBuf tb) → BufTy
  | .hbm, ⟨i, _⟩ => hbmTy i
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_c_1 : Ref sig .tc := ⟨.hbm, 27, rfl⟩
abbrev main_v7 : Ref sig .tc := ⟨.hbm, 28, rfl⟩
abbrev main_v8 : Ref sig .tc := ⟨.hbm, 29, rfl⟩
abbrev main_c_2 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c_3 : Ref sig .tc := ⟨.hbm, 50, rfl⟩
abbrev main_v28 : Ref sig .tc := ⟨.hbm, 51, rfl⟩
abbrev main_v29 : Ref sig .tc := ⟨.hbm, 52, rfl⟩
abbrev main_c_4 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_call0_cst : Ref sig .tc := ⟨.hbm, 60, rfl⟩
abbrev main_call0_v0 : Ref sig .tc := ⟨.hbm, 61, rfl⟩
abbrev main_v36 : Ref sig .tc := ⟨.hbm, 62, rfl⟩
abbrev main_cst : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_call1_cst : Ref sig .tc := ⟨.hbm, 73, rfl⟩
abbrev main_call1_v0 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_c_5 : Ref sig .tc := ⟨.hbm, 80, rfl⟩
abbrev main_v51 : Ref sig .tc := ⟨.hbm, 81, rfl⟩
abbrev main_v52 : Ref sig .tc := ⟨.hbm, 82, rfl⟩
abbrev main_c_6 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_call2_cst : Ref sig .tc := ⟨.hbm, 90, rfl⟩
abbrev main_call2_v0 : Ref sig .tc := ⟨.hbm, 91, rfl⟩
abbrev main_v59 : Ref sig .tc := ⟨.hbm, 92, rfl⟩
abbrev main_cst_7 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_c_8 : Ref sig .tc := ⟨.hbm, 105, rfl⟩
abbrev main_v71 : Ref sig .tc := ⟨.hbm, 106, rfl⟩
abbrev main_v72 : Ref sig .tc := ⟨.hbm, 107, rfl⟩
abbrev main_c_9 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_c_10 : Ref sig .tc := ⟨.hbm, 116, rfl⟩
abbrev main_v80 : Ref sig .tc := ⟨.hbm, 117, rfl⟩
abbrev main_v81 : Ref sig .tc := ⟨.hbm, 118, rfl⟩
abbrev main_c_11 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_c_12 : Ref sig .tc := ⟨.hbm, 131, rfl⟩
abbrev main_v93 : Ref sig .tc := ⟨.hbm, 132, rfl⟩
abbrev main_v94 : Ref sig .tc := ⟨.hbm, 133, rfl⟩
abbrev main_c_13 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩

abbrev nD : Nat := 1
abbrev τ : Topo := Topo.v7x

variable {F : FTy → Type} [FloatOps F]

class Facts₀ : Prop where
  bcast_S_S200000 : S_.BroadcastsInDim S200000 (![] : Fin 0 → Fin S200000.rank)
  bcast_S200000_S200000x1_0 : S200000.BroadcastsInDim S200000x1 (![0] : Fin 1 → Fin S200000x1.rank)
  bcast_S_S600000 : S_.BroadcastsInDim S600000 (![] : Fin 0 → Fin S600000.rank)
  bcast_S600000_S600000x1_0 : S600000.BroadcastsInDim S600000x1 (![0] : Fin 1 → Fin S600000x1.rank)
  transposes_S128x128_S128x128_1_0 : S128x128.Transposes [1, 0] S128x128
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S1x128_S600000x128_0_1 : S1x128.BroadcastsInDim S600000x128 (![0, 1] : Fin 2 → Fin S600000x128.rank)
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000x128 : S_.BroadcastsInDim S600000x128 (![] : Fin 0 → Fin S600000x128.rank)
  bcast_S_S200000x128 : S_.BroadcastsInDim S200000x128 (![] : Fin 0 → Fin S200000x128.rank)
  concatenates_S600000x128_S600000x128_S600000x256_d1 : Shape.Concatenates [S600000x128, S600000x128] S600000x256 1
  transposes_S64x256_S256x64_1_0 : S64x256.Transposes [1, 0] S256x64
  bcast_S64_S1x64_1 : S64.BroadcastsInDim S1x64 (![1] : Fin 1 → Fin S1x64.rank)
  bcast_S1x64_S600000x64_0_1 : S1x64.BroadcastsInDim S600000x64 (![0, 1] : Fin 2 → Fin S600000x64.rank)
  bcast_S_S256 : S_.BroadcastsInDim S256 (![] : Fin 0 → Fin S256.rank)
  bcast_S256_S256x1_0 : S256.BroadcastsInDim S256x1 (![0] : Fin 1 → Fin S256x1.rank)
  transposes_S512x128_S128x512_1_0 : S512x128.Transposes [1, 0] S128x512
  bcast_S512_S1x512_1 : S512.BroadcastsInDim S1x512 (![1] : Fin 1 → Fin S1x512.rank)
  bcast_S1x512_S256x512_0_1 : S1x512.BroadcastsInDim S256x512 (![0, 1] : Fin 2 → Fin S256x512.rank)
  transposes_S16x128_S128x16_1_0 : S16x128.Transposes [1, 0] S128x16
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  gather_S200000x128_S200000x1_S200000x128_1_0_n_n_0_1_1128_wf : GatherDims.WF S200000x128 S200000x1 S200000x128 [1] [0] [] [0] [] 1 ![1, 128]
  gather_S64x128_S600000x1_S600000x128_1_0_n_n_0_1_1128_wf : GatherDims.WF S64x128 S600000x1 S600000x128 [1] [0] [] [0] [] 1 ![1, 128]
  dot_S200000x128_S128x128_S200000x128_1_0_0_1_n_n_wf : DotDims.WF S200000x128 S128x128 S200000x128 [1] [0] [0] [1] [] []
  dot_S600000x128_S128x128_S600000x128_1_0_0_1_n_n_wf : DotDims.WF S600000x128 S128x128 S600000x128 [1] [0] [0] [1] [] []
  gather_S200000x128_S600000x1_S600000x128_1_0_n_n_0_1_1128_wf : GatherDims.WF S200000x128 S600000x1 S600000x128 [1] [0] [] [0] [] 1 ![1, 128]
  scatter_S200000x128_S600000x1_S600000x128_1_0_0_1_wf : ScatterDims.WF S200000x128 S600000x1 S600000x128 [1] [0] [0] 1
  dot_S600000x256_S256x64_S600000x64_1_0_0_1_n_n_wf : DotDims.WF S600000x256 S256x64 S600000x64 [1] [0] [0] [1] [] []
  gather_S200000x128_S256x1_S256x128_1_0_n_n_0_1_1128_wf : GatherDims.WF S200000x128 S256x1 S256x128 [1] [0] [] [0] [] 1 ![1, 128]
  dot_S256x128_S128x512_S256x512_1_0_0_1_n_n_wf : DotDims.WF S256x128 S128x512 S256x512 [1] [0] [0] [1] [] []
  dot_S200000x128_S128x16_S200000x16_1_0_0_1_n_n_wf : DotDims.WF S200000x128 S128x16 S200000x16 [1] [0] [0] [1] [] []

variable [Facts₀]

def gather_S200000x128_S200000x1_S200000x128_1_0_n_n_0_1_1128 : GatherDims S200000x128 S200000x1 S200000x128 where
  offsetDims := [1]
  collapsedSliceDims := [0]
  operandBatchingDims := []
  startIndicesBatchingDims := []
  startIndexMap := [0]
  indexVectorDim := 1
  sliceSizes := ![1, 128]
  wf := gather_S200000x128_S200000x1_S200000x128_1_0_n_n_0_1_1128_wf
def gather_S64x128_S600000x1_S600000x128_1_0_n_n_0_1_1128 : GatherDims S64x128 S600000x1 S600000x128 where
  offsetDims := [1]
  collapsedSliceDims := [0]
  operandBatchingDims := []
  startIndicesBatchingDims := []
  startIndexMap := [0]
  indexVectorDim := 1
  sliceSizes := ![1, 128]
  wf := gather_S64x128_S600000x1_S600000x128_1_0_n_n_0_1_1128_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def gather_S200000x128_S600000x1_S600000x128_1_0_n_n_0_1_1128 : GatherDims S200000x128 S600000x1 S600000x128 where
  offsetDims := [1]
  collapsedSliceDims := [0]
  operandBatchingDims := []
  startIndicesBatchingDims := []
  startIndexMap := [0]
  indexVectorDim := 1
  sliceSizes := ![1, 128]
  wf := gather_S200000x128_S600000x1_S600000x128_1_0_n_n_0_1_1128_wf
def scatter_S200000x128_S600000x1_S600000x128_1_0_0_1 : ScatterDims S200000x128 S600000x1 S600000x128 where
  updateWindowDims := [1]
  insertedWindowDims := [0]
  scatterDimsToOperandDims := [0]
  indexVectorDim := 1
  wf := scatter_S200000x128_S600000x1_S600000x128_1_0_0_1_wf
def dot_S600000x256_S256x64_S600000x64_1_0_0_1_n_n : DotDims S600000x256 S256x64 S600000x64 where
  lhsContracting := [1]
  rhsContracting := [0]
  lhsNonContracting := [0]
  rhsNonContracting := [1]
  lhsBatch := []
  rhsBatch := []
  wf := dot_S600000x256_S256x64_S600000x64_1_0_0_1_n_n_wf
def gather_S200000x128_S256x1_S256x128_1_0_n_n_0_1_1128 : GatherDims S200000x128 S256x1 S256x128 where
  offsetDims := [1]
  collapsedSliceDims := [0]
  operandBatchingDims := []
  startIndicesBatchingDims := []
  startIndexMap := [0]
  indexVectorDim := 1
  sliceSizes := ![1, 128]
  wf := gather_S200000x128_S256x1_S256x128_1_0_n_n_0_1_1128_wf
def dot_S256x128_S128x512_S256x512_1_0_0_1_n_n : DotDims S256x128 S128x512 S256x512 where
  lhsContracting := [1]
  rhsContracting := [0]
  lhsNonContracting := [0]
  rhsNonContracting := [1]
  lhsBatch := []
  rhsBatch := []
  wf := dot_S256x128_S128x512_S256x512_1_0_0_1_n_n_wf
def dot_S200000x128_S128x16_S200000x16_1_0_0_1_n_n : DotDims S200000x128 S128x16 S200000x16 where
  lhsContracting := [1]
  rhsContracting := [0]
  lhsNonContracting := [0]
  rhsNonContracting := [1]
  lhsBatch := []
  rhsBatch := []
  wf := dot_S200000x128_S128x16_S200000x16_1_0_0_1_n_n_wf

class Facts : Prop extends Facts₀ where

variable [Facts]
-- ==== Proof.KWalk.lean ====
/-
  Walking a buffer back through the fold of the program's segments: a stretch of host operations leaves every buffer
  it does not write as it found it, and so does a region for every buffer that is not one of its arrays.
  Here: the launch arguments and the reference's stage values at them, by name; and the step across a host stretch as a tactic.
-/
import proofs.«154361_j8684423873312_1_alg».proof.Proof.Gen.KernelIdeal.Frame
import proofs.«154361_j8684423873312_1_alg».proof.Proof.Gen.ReferenceIdeal.Read

set_option maxRecDepth 16384

noncomputable section

open Idealize.ShloMosaic Idealize.ShloMosaic.TcCoe Idealize.SL.Sem

namespace Cert.KernelIdeal.Hand

open Cert.KernelIdeal Cert.KernelIdeal.Gen

variable (m : (ℓ : Loc nD τ sig) → Buf (Elt Ideal) ℓ) (ρ : Dev nD → PrngReg)

/-- Argument 0 of the program as launched, on device c. -/
abbrev a0 (c : Dev nD) : (⟨Cert.ReferenceIdeal.S200000x128, .f32⟩ : BufTy).Contents (Elt Ideal) := m ((c : Thread nD τ).loc main_arg0)
/-- Argument 1 of the program as launched, on device c. -/
abbrev a1 (c : Dev nD) : (⟨Cert.ReferenceIdeal.S64x128, .f32⟩ : BufTy).Contents (Elt Ideal) := m ((c : Thread nD τ).loc main_arg1)
/-- Argument 2 of the program as launched, on device c. -/
abbrev a2 (c : Dev nD) : (⟨Cert.ReferenceIdeal.S128x128, .f32⟩ : BufTy).Contents (Elt Ideal) := m ((c : Thread nD τ).loc main_arg2)
/-- Argument 3 of the program as launched, on device c. -/
abbrev a3 (c : Dev nD) : (⟨Cert.ReferenceIdeal.S128, .f32⟩ : BufTy).Contents (Elt Ideal) := m ((c : Thread nD τ).loc main_arg3)
/-- Argument 4 of the program as launched, on device c. -/
abbrev a4 (c : Dev nD) : (⟨Cert.ReferenceIdeal.S128x128, .f32⟩ : BufTy).Contents (Elt Ideal) := m ((c : Thread nD τ).loc main_arg4)
/-- Argument 5 of the program as launched, on device c. -/
abbrev a5 (c : Dev nD) : (⟨Cert.ReferenceIdeal.S128, .f32⟩ : BufTy).Contents (Elt Ideal) := m ((c : Thread nD τ).loc main_arg5)
/-- Argument 6 of the program as launched, on device c. -/
abbrev a6 (c : Dev nD) : (⟨Cert.ReferenceIdeal.S128x128, .f32⟩ : BufTy).Contents (Elt Ideal) := m ((c : Thread nD τ).loc main_arg6)
/-- Argument 7 of the program as launched, on device c. -/
abbrev a7 (c : Dev nD) : (⟨Cert.ReferenceIdeal.S128, .f32⟩ : BufTy).Contents (Elt Ideal) := m ((c : Thread nD τ).loc main_arg7)
/-- Argument 8 of the program as launched, on device c. -/
abbrev a8 (c : Dev nD) : (⟨Cert.ReferenceIdeal.S64x256, .f32⟩ : BufTy).Contents (Elt Ideal) := m ((c : Thread nD τ).loc main_arg8)
/-- Argument 9 of the program as launched, on device c. -/
abbrev a9 (c : Dev nD) : (⟨Cert.ReferenceIdeal.S64, .f32⟩ : BufTy).Contents (Elt Ideal) := m ((c : Thread nD τ).loc main_arg9)
/-- Argument 10 of the program as launched, on device c. -/
abbrev a10 (c : Dev nD) : (⟨Cert.ReferenceIdeal.S512x128, .f32⟩ : BufTy).Contents (Elt Ideal) := m ((c : Thread nD τ).loc main_arg10)
/-- Argument 11 of the program as launched, on device c. -/
abbrev a11 (c : Dev nD) : (⟨Cert.ReferenceIdeal.S512, .f32⟩ : BufTy).Contents (Elt Ideal) := m ((c : Thread nD τ).loc main_arg11)
/-- Argument 12 of the program as launched, on device c. -/
abbrev a12 (c : Dev nD) : (⟨Cert.ReferenceIdeal.S16x128, .f32⟩ : BufTy).Contents (Elt Ideal) := m ((c : Thread nD τ).loc main_arg12)
/-- Argument 13 of the program as launched, on device c. -/
abbrev a13 (c : Dev nD) : (⟨Cert.ReferenceIdeal.S16, .f32⟩ : BufTy).Contents (Elt Ideal) := m ((c : Thread nD τ).loc main_arg13)
/-- Argument 14 of the program as launched, on device c. -/
abbrev a14 (c : Dev nD) : (⟨Cert.ReferenceIdeal.S200000, .i32⟩ : BufTy).Contents (Elt Ideal) := m ((c : Thread nD τ).loc main_arg14)
/-- Argument 15 of the program as launched, on device c. -/
abbrev a15 (c : Dev nD) : (⟨Cert.ReferenceIdeal.S600000, .i32⟩ : BufTy).Contents (Elt Ideal) := m ((c : Thread nD τ).loc main_arg15)
/-- Argument 16 of the program as launched, on device c. -/
abbrev a16 (c : Dev nD) : (⟨Cert.ReferenceIdeal.S256, .i32⟩ : BufTy).Contents (Elt Ideal) := m ((c : Thread nD τ).loc main_arg16)
/-- Argument 17 of the program as launched, on device c. -/
abbrev a17 (c : Dev nD) : (⟨Cert.ReferenceIdeal.S2x600000, .i32⟩ : BufTy).Contents (Elt Ideal) := m ((c : Thread nD τ).loc main_arg17)

/-- The node projection (the reference's stage) at the launch arguments. -/
abbrev t18 (c : Dev nD) := Cert.ReferenceIdeal.Read.val_main_v18 (F := Ideal) (a0 m c) (a2 m c) (a3 m c) (a14 m c)
/-- The edge projection at the launch arguments. -/
abbrev t23 (c : Dev nD) := Cert.ReferenceIdeal.Read.val_main_v23 (F := Ideal) (a1 m c) (a2 m c) (a3 m c) (a15 m c)
/-- The first message at the launch arguments. -/
abbrev t36 (c : Dev nD) := Cert.ReferenceIdeal.Read.val_main_v36 (F := Ideal) (a0 m c) (a1 m c) (a2 m c) (a3 m c) (a14 m c) (a15 m c) (a17 m c)
/-- The first convolution's output at the launch arguments. -/
abbrev t46 (c : Dev nD) := Cert.ReferenceIdeal.Read.val_main_v46 (F := Ideal) (a0 m c) (a1 m c) (a2 m c) (a3 m c) (a4 m c) (a5 m c) (a14 m c) (a15 m c) (a17 m c)
/-- The second message at the launch arguments. -/
abbrev t59 (c : Dev nD) := Cert.ReferenceIdeal.Read.val_main_v59 (F := Ideal) (a0 m c) (a1 m c) (a2 m c) (a3 m c) (a4 m c) (a5 m c) (a14 m c) (a15 m c) (a17 m c)
/-- The second convolution's output at the launch arguments. -/
abbrev t68 (c : Dev nD) := Cert.ReferenceIdeal.Read.val_main_v68 (F := Ideal) (a0 m c) (a1 m c) (a2 m c) (a3 m c) (a4 m c) (a5 m c) (a6 m c) (a7 m c) (a14 m c) (a15 m c) (a17 m c)
/-- The edge classifier's output at the launch arguments. -/
abbrev t92 (c : Dev nD) := Cert.ReferenceIdeal.Read.val_main_v92 (F := Ideal) (a0 m c) (a1 m c) (a2 m c) (a3 m c) (a4 m c) (a5 m c) (a6 m c) (a7 m c) (a8 m c) (a9 m c) (a14 m c) (a15 m c) (a17 m c)
/-- The motif head's output at the launch arguments. -/
abbrev t104 (c : Dev nD) := Cert.ReferenceIdeal.Read.val_main_v104 (F := Ideal) (a0 m c) (a1 m c) (a2 m c) (a3 m c) (a4 m c) (a5 m c) (a6 m c) (a7 m c) (a10 m c) (a11 m c) (a14 m c) (a15 m c) (a16 m c) (a17 m c)
/-- The node classifier's output at the launch arguments. -/
abbrev t109 (c : Dev nD) := Cert.ReferenceIdeal.Read.val_main_v109 (F := Ideal) (a0 m c) (a1 m c) (a2 m c) (a3 m c) (a4 m c) (a5 m c) (a6 m c) (a7 m c) (a12 m c) (a13 m c) (a14 m c) (a15 m c) (a17 m c)

/-- One step back across a stretch of host operations that does not write the buffer: the goal
    `StableHlo.after ops W b = _` becomes `W b = _`. -/
macro "host_keep " ops:ident : tactic =>
  `(tactic| refine (StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_)

/-- The launch contents are the memory's. -/
theorem W0_arg (c : Dev nD) (b : Ref sig .tc) : W0 m ρ c (Proc.devRef .tc b) = m ((c : Thread nD τ).loc b) := rfl

-- the bias of the first layer is still the launch argument when region 1 is entered
example (c : Dev nD) : W3 m ρ c (Proc.devRef .tc main_arg3) = a3 m c := by
  host_keep hostOps1
  refine ((W2_arr m ρ c 2).trans (((dat0 (V1 m ρ) c).arrAt_in 2 rfl _).trans (A_eq0 (V1 m ρ) c 2))).trans ?_
  host_keep hostOps0
  rfl

end Cert.KernelIdeal.Hand

end
-- ==== Proof.LibPlainMatmul.lean ====
/-
  A general fact about the ideal reading of a matrix product, independent of any program: a kernel's matrix product of an
  m×k by a k×n matrix (no batch axis; the left operand's columns contracted with the right operand's rows) into a zero
  accumulator, read at the entry (a, b), is the textbook sum  Σ_c A(a, c) · B(c, b)  on the extended reals.
  (The host's `dot_general` of the same shape has this reading in the library already; this is its twin for the kernel's
  accumulate-into-zero form.)
-/
import Idealize.ShloMosaic.PureOps.Ideal.Laws
import Idealize.ShloMosaic.Lib.ValueIdx

noncomputable section

namespace Idealize.ShloMosaic.LibPlainMatmul

open Idealize.ShloMosaic Idealize.ShloMosaic.ValueIdx

/-- The plain product of an m×k by a k×n matrix accumulated into the f32 zero splat, at the ideal values and at the
    entry (a, b): the sum over the contracted coordinate c of A(a, c) · B(c, b). -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (⟨2, ![m, n]⟩ : Shape) .f32 0x00000000#32) (ix2 a b)
      = ∑ c : Fin k, A (ix2 a c) * B (ix2 c b) := by
  show FloatOps.matmul (DotDims.plain m k n) prec A B (constant (⟨2, ![m, n]⟩ : Shape) .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  -- the left operand is read at (a, c): its row is the output's row, its column the contracted coordinate
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  -- the right operand at (c, b): its row the contracted coordinate, its column the output's column
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Idealize.ShloMosaic.LibPlainMatmul

end
-- ==== Proof.LibPlainDot.lean ====
/-
  General facts about plain matrix products read as extended reals, independent of any program.
  A contraction whose dimension numbers are the plain ones (left columns against right rows, no batch axis) is,
  entry by entry, the textbook sum  Σ_c A(a,c)·B(c,b):  for the host's product, and for a kernel's product
  accumulated into zero, whatever name the dimension record carries.
-/
import proofs.«154361_j8684423873312_1_alg».proof.Proof.LibPlainMatmul

noncomputable section

namespace Idealize.ShloMosaic.LibPlainDot

open Idealize.ShloMosaic Idealize.ShloMosaic.ValueIdx

/-- The host's plain product of an m×k by a k×n matrix at the entry (a, b): Σ_c A(a,c)·B(c,b). -/
theorem dotGeneral_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    Host.dotGeneral (DotDims.plain m k n) prec A B (ix2 a b) = ∑ c : Fin k, A (ix2 a c) * B (ix2 c b) := by
  show FloatOps.dotGeneral (DotDims.plain m k n) prec .single A B (ix2 a b) = _
  -- the host's product is the bare sum over the contraction's index set, which has the one coordinate c
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  -- the left factor sits at row a, column c
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  -- the right factor sits at row c, column b
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

/-- The same for a dimension record that is the plain one under another name. -/
theorem dotGeneral_apply_of_plain {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    Host.dotGeneral d prec A B (ix2 a b) = ∑ c : Fin k, A (ix2 a c) * B (ix2 c b) := by
  subst hd; exact dotGeneral_plain_apply prec A B a b

/-- A kernel's product into the zero splat, for a dimension record that is the plain one under another name. -/
theorem matmul_zero_apply_of_plain {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    matmul d prec A B (constant (⟨2, ![m, n]⟩ : Shape) .f32 0x00000000#32) (ix2 a b)
      = ∑ c : Fin k, A (ix2 a c) * B (ix2 c b) := by
  subst hd; exact LibPlainMatmul.matmul_plain_zero_apply prec A B a b

end Idealize.ShloMosaic.LibPlainDot

end
-- ==== Proof.Layers.lean ====
/-
  The layers of a relational graph network, each as ONE function of whole arrays over the extended reals.
  A weight matrix enters as it is stored, [N, K] (one row per output feature), and a bias as a vector [N].

    lin x w b        (p, q) = Σ_k x(p,k)·w(q,k) + b(q)                       a linear layer  x·wᵀ + b
    plus a b         (p, q) = a(p,q) + b(p,q)
    relu x           (p, q) = max (x(p,q), 0)
    lin2 s d w v b   (p, q) = (Σ_k s(p,k)·w(q,k) + Σ_k d(p,k)·v(q,k)) + b(q)  a linear layer over two operands
    pick ids t b     (p, q) = Σ_c [ids(p) = c]·t(c,q) + b(q)                 a table row chosen by a one-hot product

  Row p of each result depends on row p of the row operands only, so a row tile of the result is the same
  function of the matching row tiles: that is how a tiled kernel and one whole product meet.
  Below the definitions: each layer as a kernel body computes it (operands narrowed, the weight transposed, a product
  into zero, the bias cast to a row and spread) and as the host computes it (one whole product, the bias spread twice).
-/
import Idealize.ShloMosaic.PureOps.Ideal
import Idealize.ShloMosaic.PureOps.Ideal.Laws
import Idealize.ShloMosaic.Lib.ValueIdx
import Idealize.ShloMosaic.Lib.Pipeline.Value
import proofs.«154361_j8684423873312_1_alg».proof.Proof.LibPlainDot

noncomputable section

open scoped BigOperators

namespace Cert.Gnn

open Idealize.ShloMosaic Idealize.ShloMosaic.ValueIdx

variable {M K N C : ℕ}

/-- An [M, N] array of extended reals. -/
abbrev Mat (M N : ℕ) : Type := (⟨2, ![M, N]⟩ : Shape).Idx → EReal
/-- An [N] vector of extended reals. -/
abbrev Row (N : ℕ) : Type := (⟨1, ![N]⟩ : Shape).Idx → EReal

/-- A linear layer: x·wᵀ + b. -/
def lin (x : Mat M K) (w : Mat N K) (b : Row N) : Mat M N :=
  fun i => (∑ k : Fin K, x (ix2 (i 0) k) * w (ix2 (i 1) k)) + b (ix1 (i 1))

theorem lin_apply (x : Mat M K) (w : Mat N K) (b : Row N) (p : Fin M) (q : Fin N) :
    lin x w b (ix2 p q) = (∑ k : Fin K, x (ix2 p k) * w (ix2 q k)) + b (ix1 q) := rfl

/-- The entrywise sum. -/
def plus (a b : Mat M N) : Mat M N := fun i => a i + b i

/-- The rectifier. -/
def relu (x : Mat M N) : Mat M N := fun i => max (x i) 0

/-- A linear layer over two row operands, each with its own weight: (s·wᵀ + d·vᵀ) + b. -/
def lin2 (s d : Mat M K) (w v : Mat N K) (b : Row N) : Mat M N :=
  fun i => ((∑ k : Fin K, s (ix2 (i 0) k) * w (ix2 (i 1) k)) + ∑ k : Fin K, d (ix2 (i 0) k) * v (ix2 (i 1) k)) + b (ix1 (i 1))

theorem lin2_apply (s d : Mat M K) (w v : Mat N K) (b : Row N) (p : Fin M) (q : Fin N) :
    lin2 s d w v b (ix2 p q)
      = ((∑ k : Fin K, s (ix2 p k) * w (ix2 q k)) + ∑ k : Fin K, d (ix2 p k) * v (ix2 q k)) + b (ix1 q) := rfl

/-- The one-hot coefficient of class c at the label word: 1 when the word is c, else 0. -/
def hot (id : BitVec 32) (c : ℕ) : EReal :=
  (((IntOp.cmpi .eq id (BitVec.ofNat 32 c)).setWidth 32).toInt : ℝ)

/-- A table row chosen by a one-hot product, plus a bias: Σ_c [ids(p) = c]·t(c,q) + b(q). -/
def pick (ids : (⟨2, ![M, 1]⟩ : Shape).Idx → BitVec 32) (t : Mat C N) (b : Row N) : Mat M N :=
  fun i => (∑ c : Fin C, hot (ids (ix2 (i 0) (0 : Fin 1))) c.val * t (ix2 c (i 1))) + b (ix1 (i 1))

/-! ## The pieces of a layer read at an entry, as a kernel body and as the host compute them -/

/-- A kernel's product of row operands narrowed to half precision with a weight narrowed and transposed, into zero,
    at (p, q): Σ_k x(p,k)·w(q,k). -/
theorem matT_apply (d : DotDims ⟨2, ![M, K]⟩ ⟨2, ![K, N]⟩ ⟨2, ![M, N]⟩) (hd : d = DotDims.plain M K N)
    (x : FVec Ideal ⟨2, ![M, K]⟩ .f32) (w : FVec Ideal ⟨2, ![N, K]⟩ .f32) (hl : FTy.bf16.bits < FTy.f32.bits)
    (ht : (⟨2, ![N, K]⟩ : Shape).Transposes [1, 0] ⟨2, ![K, N]⟩) (p : Fin M) (q : Fin N) :
    matmul d none (truncf .bf16 x hl) (transpose ⟨2, ![K, N]⟩ [1, 0] (truncf .bf16 w hl) ht)
        (constant (⟨2, ![M, N]⟩ : Shape) .f32 0x00000000#32) (ix2 p q)
      = ∑ k : Fin K, x (ix2 p k) * w (ix2 q k) := by
  rw [LibPlainDot.matmul_zero_apply_of_plain d hd]
  refine Finset.sum_congr rfl fun c _ => ?_
  -- the narrowing is the identity; the transposed weight at (c, q) is the weight at (q, c)
  rw [truncf_apply]
  congr 1
  refine (transpose_apply [1, 0] (truncf .bf16 w hl) ht (ix2 c q) (ix2 q c) fun a => ?_).trans (truncf_apply w hl _)
  match a with
  | ⟨0, _⟩ => rfl
  | ⟨1, _⟩ => rfl

/-- The same product when the left operand is not a float array narrowed but any half-precision array. -/
theorem matT_apply' (d : DotDims ⟨2, ![M, K]⟩ ⟨2, ![K, N]⟩ ⟨2, ![M, N]⟩) (hd : d = DotDims.plain M K N)
    (x : FVec Ideal ⟨2, ![M, K]⟩ .bf16) (w : FVec Ideal ⟨2, ![N, K]⟩ .bf16)
    (ht : (⟨2, ![N, K]⟩ : Shape).Transposes [1, 0] ⟨2, ![K, N]⟩) (p : Fin M) (q : Fin N) :
    matmul d none x (transpose ⟨2, ![K, N]⟩ [1, 0] w ht) (constant (⟨2, ![M, N]⟩ : Shape) .f32 0x00000000#32) (ix2 p q)
      = ∑ k : Fin K, x (ix2 p k) * w (ix2 q k) := by
  rw [LibPlainDot.matmul_zero_apply_of_plain d hd]
  refine Finset.sum_congr rfl fun c _ => ?_
  -- the transposed weight at (c, q) is the weight at (q, c)
  congr 1
  refine transpose_apply [1, 0] w ht (ix2 c q) (ix2 q c) fun a => ?_
  match a with
  | ⟨0, _⟩ => rfl
  | ⟨1, _⟩ => rfl

/-- A kernel's product with an untransposed right operand [K, N], into zero, at (p, q): Σ_k x(p,k)·t(k,q). -/
theorem mat_apply (d : DotDims ⟨2, ![M, K]⟩ ⟨2, ![K, N]⟩ ⟨2, ![M, N]⟩) (hd : d = DotDims.plain M K N)
    (x : FVec Ideal ⟨2, ![M, K]⟩ .bf16) (t : FVec Ideal ⟨2, ![K, N]⟩ .bf16) (p : Fin M) (q : Fin N) :
    matmul d none x t (constant (⟨2, ![M, N]⟩ : Shape) .f32 0x00000000#32) (ix2 p q)
      = ∑ k : Fin K, x (ix2 p k) * t (ix2 k q) :=
  LibPlainDot.matmul_zero_apply_of_plain d hd none x t p q

/-- A kernel's bias: the vector cast to a one-row array and spread over the rows, at (p, q): b(q). -/
theorem biasRow_apply (b : FVec Ideal ⟨1, ![N]⟩ .f32) (hc : (⟨1, ![N]⟩ : Shape).ShapeCasts ⟨2, ![1, N]⟩)
    (hb : (⟨2, ![1, N]⟩ : Shape).Broadcasts ⟨2, ![M, N]⟩) (p : Fin M) (q : Fin N) :
    broadcastTo ⟨2, ![M, N]⟩ (shapeCast ⟨2, ![1, N]⟩ b hc) hb (ix2 p q) = b (ix1 q) := by
  -- the spread row at (p, q) is the one-row array at (0, q) …
  refine (broadcastTo_apply (shapeCast ⟨2, ![1, N]⟩ b hc) hb (ix2 p q) (ix2 (0 : Fin 1) q) fun a => ?_).trans ?_
  · match a with
    | ⟨0, _⟩ => rfl
    | ⟨1, _⟩ =>
      show q.val = if N = 1 then 0 else q.val
      split_ifs with h1
      · have := q.isLt; omega
      · rfl
  -- … which sits at the row-major position q of the vector
  · refine shapeCast_apply b hc (ix2 (0 : Fin 1) q) (ix1 q) ?_
    rw [Shape.rowMajor_val_one, Shape.rowMajor_val_two]
    show q.val = 0 * N + q.val
    omega

/-- The host's product with a transposed weight, at (p, q): Σ_k x(p,k)·w(q,k). -/
theorem dotT_apply (d : DotDims ⟨2, ![M, K]⟩ ⟨2, ![K, N]⟩ ⟨2, ![M, N]⟩) (hd : d = DotDims.plain M K N)
    (x : FVec Ideal ⟨2, ![M, K]⟩ .f32) (w : FVec Ideal ⟨2, ![N, K]⟩ .f32)
    (ht : (⟨2, ![N, K]⟩ : Shape).Transposes [1, 0] ⟨2, ![K, N]⟩) (p : Fin M) (q : Fin N) :
    Host.dotGeneral d none x (transpose ⟨2, ![K, N]⟩ [1, 0] w ht) (ix2 p q) = ∑ k : Fin K, x (ix2 p k) * w (ix2 q k) := by
  rw [LibPlainDot.dotGeneral_apply_of_plain d hd]
  refine Finset.sum_congr rfl fun c _ => ?_
  -- the transposed weight at (c, q) is the weight at (q, c)
  congr 1
  refine transpose_apply [1, 0] w ht (ix2 c q) (ix2 q c) fun a => ?_
  match a with
  | ⟨0, _⟩ => rfl
  | ⟨1, _⟩ => rfl

/-- The host's bias: the vector spread to one row and the row over the rows, at (p, q): b(q). -/
theorem hostBias_apply (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  -- the row spread over the rows at (p, q) is the one-row array at (0, q) …
  refine (broadcastInDim_apply ![0, 1] h2 (broadcastInDim ⟨2, ![1, N]⟩ ![1] h1 b) (ix2 p q) (ix2 (0 : Fin 1) q)
    fun a => ?_).trans ?_
  · match a with
    | ⟨0, _⟩ => rfl
    | ⟨1, _⟩ =>
      show q.val = if N = 1 then 0 else q.val
      split_ifs with hN
      · have := q.isLt; omega
      · rfl
  -- … which is the vector at q
  · refine broadcastInDim_apply ![1] h1 b (ix2 (0 : Fin 1) q) (ix1 q) fun a => ?_
    match a with
    | ⟨0, _⟩ =>
      show q.val = if N = 1 then 0 else q.val
      split_ifs with hN
      · have := q.isLt; omega
      · rfl

/-- The host's linear layer as one whole-array function: x·wᵀ + b. -/
theorem host_lin (d : DotDims ⟨2, ![M, K]⟩ ⟨2, ![K, N]⟩ ⟨2, ![M, N]⟩) (hd : d = DotDims.plain M K N)
    (x : FVec Ideal ⟨2, ![M, K]⟩ .f32) (w : FVec Ideal ⟨2, ![N, K]⟩ .f32) (b : FVec Ideal ⟨1, ![N]⟩ .f32)
    (ht : (⟨2, ![N, K]⟩ : Shape).Transposes [1, 0] ⟨2, ![K, N]⟩)
    (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral d none x (transpose ⟨2, ![K, N]⟩ [1, 0] w ht))
        (broadcastInDim ⟨2, ![M, N]⟩ ![0, 1] h2 (broadcastInDim ⟨2, ![1, N]⟩ ![1] h1 b)) = lin x w b := by
  funext i
  obtain ⟨p, q, rfl⟩ : ∃ p q, i = ix2 p q := ⟨i 0, i 1, eq_ix2 i⟩
  rw [addf_apply, dotT_apply d hd x w ht, hostBias_apply b h1 h2, lin_apply]

/-- The one-hot coefficient at its own class is 1 … -/
theorem hot_self (c : ℕ) (hc : c < 2 ^ 32) : hot (BitVec.ofNat 32 c) c = 1 := by
  have h1 : IntOp.cmpi .eq (BitVec.ofNat 32 c) (BitVec.ofNat 32 c) = 1#1 := by simp [IntOp.cmpi]
  have h2 : ((1#1 : BitVec 1).setWidth 32).toInt = 1 := by decide
  unfold hot
  rw [h1, h2]
  simp

/-- … and 0 at any other class. -/
theorem hot_ne (id : BitVec 32) (c : ℕ) (hc : c < 2 ^ 32) (h : id.toNat ≠ c) : hot id c = 0 := by
  -- a word whose value is not c is not the word of c
  have hne : id ≠ BitVec.ofNat 32 c := by
    intro he
    apply h
    rw [he, BitVec.toNat_ofNat]
    exact Nat.mod_eq_of_lt hc
  have hb : (id == BitVec.ofNat 32 c) = false := beq_eq_false_iff_ne.mpr hne
  have h1 : IntOp.cmpi .eq id (BitVec.ofNat 32 c) = 0#1 := by
    show BitVec.ofBool (id == BitVec.ofNat 32 c) = 0#1
    rw [hb]
    rfl
  have h2 : ((0#1 : BitVec 1).setWidth 32).toInt = 0 := by decide
  unfold hot
  rw [h1, h2]
  simp

/-- A one-hot product picks the table's row: where the label of row p is the class r, the layer's entry (p, q) is
    t(r, q) + b(q). No finiteness is asked of the table: 0·x = 0 on the extended reals. -/
theorem pick_apply_of_eq (ids : (⟨2, ![M, 1]⟩ : Shape).Idx → BitVec 32) (t : Mat C N) (b : Row N) (hC : C ≤ 2 ^ 32)
    (p : Fin M) (q : Fin N) (r : Fin C) (h : (ids (ix2 p (0 : Fin 1))).toNat = r.val) :
    pick ids t b (ix2 p q) = t (ix2 r q) + b (ix1 q) := by
  show (∑ c : Fin C, hot (ids (ix2 p (0 : Fin 1))) c.val * t (ix2 c q)) + b (ix1 q) = _
  congr 1
  have hr : r.val < 2 ^ 32 := lt_of_lt_of_le r.isLt hC
  -- the label word of row p is the word of r
  have hid : ids (ix2 p (0 : Fin 1)) = BitVec.ofNat 32 r.val := by
    apply BitVec.eq_of_toNat_eq
    rw [h, BitVec.toNat_ofNat, Nat.mod_eq_of_lt hr]
  -- only the term of class r survives
  rw [Finset.sum_eq_single r]
  · rw [hid, hot_self _ hr, one_mul]
  · intro c _ hcr
    rw [hot_ne _ _ (lt_of_lt_of_le c.isLt hC) (by rw [h]; exact fun e => hcr (Fin.ext e.symm)), zero_mul]
  · intro hr'
    exact absurd (Finset.mem_univ r) hr'

end Cert.Gnn

end
-- ==== Proof.Region0.lean ====
/-
  The first dense layer, tiled by rows: 20 tiles of 10000 rows of the gathered node features against the whole weight
  and bias. Each tile's result is the linear layer of that tile's rows, so the result array is the linear layer of the
  whole array:  out(r, q) = Σ_k x(r,k)·w(q,k) + b(q).
-/
import proofs.«154361_j8684423873312_1_alg».proof.Proof.Gen.KernelIdeal.Frame
import proofs.«154361_j8684423873312_1_alg».proof.Proof.Layers
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.Gnn

-- the buffer contents the region is entered from: a parameter
variable (V : (c : Dev nD) → (b : Ref sig .tc) → Buf (Elt Ideal) ((c : Thread nD τ).loc b))

/-- The zero offsets of a whole rank-2 block, however spelt. -/
private theorem hz : (![0, 0] : Fin 2 → Nat) = fun _ => 0 := funext fun a => by fin_cases a <;> rfl
/-- The zero offset of a whole rank-1 block. -/
private theorem hz1 : (![0] : Fin 1 → Nat) = fun _ => 0 := funext fun a => by fin_cases a <;> rfl

/-- The body's stored value is the linear layer of its three loaded blocks: the rows and the weight narrowed (the
    identity on the extended reals), the weight transposed, one product into zero, the bias spread over the rows. -/
theorem pay0_eq (x : Vec Ideal S10000x128 .f32) (w : Vec Ideal S128x128 .f32) (b : Vec Ideal S128 .f32) :
    k0_pay1 x w b = lin x w b := by
  funext i
  obtain ⟨p, q, rfl⟩ : ∃ p q, i = ix2 p q := ⟨i 0, i 1, eq_ix2 i⟩
  unfold k0_pay1
  rw [shapeCast_self]
  refine (addf_apply _ _ _).trans ?_
  rw [lin_apply]
  congr 1
  · exact matT_apply dot_S10000x128_S128x128_S10000x128_1_0_0_1_n_n rfl x w bitsLt_bf16_f32
      transposes_S128x128_p1_0_S128x128 p q
  · exact biasRow_apply b shapeCasts_S128_S1x128 broadcasts_S1x128_S10000x128 p q

/-- The index maps over the grid: the row operand and the result are at block (t, 0), the weight at (0, 0), the
    bias at (0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The row operand's block at point t is rows 10000·t … 10000·t + 9999 of its array. -/
theorem iblk0_0_apply (c : Dev nD) (t : Fin cfg0.N) (y : S10000x128.Idx) (k : S200000x128.Idx)
    (hk0 : (k 0).val = t.val * 10000 + (y 0).val) (hk1 : (k 1).val = (y 1).val) :
    (iblk0 V c 0 t : Vec Ideal S10000x128 .f32) y = (V c main_v6 : S200000x128.Idx → EReal) k := by
  obtain ⟨e0, e1, -⟩ := idx0 t
  unfold iblk0
  rw [View.read_apply]
  show V c main_v6 _ = _
  congr 1
  funext a
  apply Fin.ext
  match a with
  | ⟨0, _⟩ => show win0_0.index t 0 * 10000 + 1 * (y 0).val = (k 0).val; rw [e0, hk0]; omega
  | ⟨1, _⟩ => show win0_0.index t 1 * 128 + 1 * (y 1).val = (k 1).val; rw [e1, hk1]; omega

/-- The weight's block at every point is the whole weight. -/
theorem iblk0_1_apply (c : Dev nD) (t : Fin cfg0.N) (y : S128x128.Idx) :
    (iblk0 V c 1 t : Vec Ideal S128x128 .f32) y = (V c main_arg2 : S128x128.Idx → EReal) y := by
  obtain ⟨-, -, e0, e1, -⟩ := idx0 t
  unfold iblk0
  rw [View.read_apply]
  show V c main_arg2 _ = _
  congr 1
  funext a
  apply Fin.ext
  match a with
  | ⟨0, _⟩ => show win0_1.index t 0 * 128 + 1 * (y 0).val = (y 0).val; rw [e0]; omega
  | ⟨1, _⟩ => show win0_1.index t 1 * 128 + 1 * (y 1).val = (y 1).val; rw [e1]; omega

/-- The bias's block at every point is the whole bias. -/
theorem iblk0_2_apply (c : Dev nD) (t : Fin cfg0.N) (y : S128.Idx) :
    (iblk0 V c 2 t : Vec Ideal S128 .f32) y = (V c main_arg3 : S128.Idx → EReal) y := by
  obtain ⟨-, -, -, -, e0, -⟩ := idx0 t
  unfold iblk0
  rw [View.read_apply]
  show V c main_arg3 _ = _
  congr 1
  funext a
  apply Fin.ext
  match a with
  | ⟨0, _⟩ => show win0_2.index t 0 * 128 + 1 * (y 0).val = (y 0).val; rw [e0]; omega

/-- Entry (p, q) of a linear layer reads row p of the row operand, row q of the weight and entry q of the bias only:
    where those agree, two layers' entries agree. -/
private theorem lin_congr {M M' K N N' : ℕ} (x : Mat M K) (X : Mat M' K) (w : Mat N K) (W : Mat N' K) (b : Row N) (B : Row N')
    (p : Fin M) (p' : Fin M') (q : Fin N) (q' : Fin N')
    (hx : ∀ k, x (ix2 p k) = X (ix2 p' k)) (hw : ∀ k, w (ix2 q k) = W (ix2 q' k)) (hb : b (ix1 q) = B (ix1 q')) :
    lin x w b (ix2 p q) = lin X W B (ix2 p' q') := by
  rw [lin_apply, lin_apply, hb]
  congr 1
  exact Finset.sum_congr rfl fun k _ => by rw [hx k, hw k]

/-- What point t writes back is block t of the linear layer of the whole arrays. -/
theorem flushed0_eq (c : Dev nD) (t : Fin cfg0.N) :
    (dat0 V c).flushed 3 t
      = ((cfg0.win 3).blk t).view.read (Elt Ideal) (lin (V c main_v6) (V c main_arg2) (V c main_arg3)) := by
  show (cfg0.win 3).cut (grid0.coords t) ((dat0 V c).after 3 t) = _
  rw [after0_3]
  unfold out0_3
  rw [View.canon_unit_zero hz]
  simp only [View.ld_unit_zero (S := S10000x128) hz, View.ld_unit_zero (S := S128x128) hz,
    View.ld_unit_zero (S := S128) hz1]
  rw [pay0_eq]
  obtain ⟨-, -, -, -, -, e5, e6⟩ := idx0 t
  have hN : cfg0.N = 20 := N_0
  refine funext fun (j : S10000x128.Idx) => ?_
  obtain ⟨p, q, rfl⟩ : ∃ p q, j = ix2 p q := ⟨j 0, j 1, eq_ix2 j⟩
  have hp : t.val * 10000 + p.val < 200000 := by have := t.isLt; have := p.isLt; omega
  -- the block's entry (p, q) sits at row 10000·t + p, column q of the array
  have he : ((cfg0.win 3).blk t).view.emb (ix2 p q)
      = (ix2 (⟨t.val * 10000 + p.val, hp⟩ : Fin 200000) q : S200000x128.Idx) := by
    funext a
    apply Fin.ext
    match a with
    | ⟨0, _⟩ => show win0_3.index t 0 * 10000 + 1 * p.val = t.val * 10000 + p.val; rw [e5]; omega
    | ⟨1, _⟩ => show win0_3.index t 1 * 128 + 1 * q.val = q.val; rw [e6]; omega
  show lin _ _ _ (ix2 p q) = lin _ _ _ (((cfg0.win 3).blk t).view.emb (ix2 p q))
  rw [he]
  exact lin_congr _ _ _ _ _ _ p _ q q (fun k => iblk0_0_apply V c t _ _ rfl rfl)
    (fun k => iblk0_1_apply V c t _) (iblk0_2_apply V c t _)

/-- An index of the array is in point t's block iff each coordinate is in the block's range on its axis. -/
theorem mem_blk0 (t : Fin cfg0.N) (i : S200000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole main_v7).slice (win0_3.rect t)).set ↔ _
  rw [View.set_slice_whole, Rect.mem_set_unit]
  exact Iff.rfl

/-- Row r of the array is in the block of point r / 10000: the blocks cover the array. -/
theorem cover0 (i : S200000x128.Idx) :
    ∃ t : Fin cfg0.N, (cfg0.win 3).flush t = true ∧ i ∈ ((cfg0.win 3).blk t).view.set := by
  have h0 : (i 0).val < 200000 := idx2_lt0 i
  have h1 : (i 1).val < 128 := idx2_lt1 i
  have hN : cfg0.N = 20 := N_0
  have ht : (i 0).val / 10000 < cfg0.N := by omega
  obtain ⟨-, -, -, -, -, e5, e6⟩ := idx0 ⟨(i 0).val / 10000, ht⟩
  refine ⟨⟨(i 0).val / 10000, ht⟩, flush0_3 _, ?_⟩
  rw [mem_blk0]
  intro a
  match a with
  | ⟨0, _⟩ =>
    show win0_3.index ⟨(i 0).val / 10000, ht⟩ (0 : Fin 2) * 10000 ≤ (i 0).val
      ∧ (i 0).val < win0_3.index ⟨(i 0).val / 10000, ht⟩ (0 : Fin 2) * 10000 + 10000
    rw [e5]
    show (i 0).val / 10000 * 10000 ≤ (i 0).val ∧ (i 0).val < (i 0).val / 10000 * 10000 + 10000
    omega
  | ⟨1, _⟩ =>
    show win0_3.index ⟨(i 0).val / 10000, ht⟩ (1 : Fin 2) * 128 ≤ (i 1).val
      ∧ (i 1).val < win0_3.index ⟨(i 0).val / 10000, ht⟩ (1 : Fin 2) * 128 + 128
    rw [e6]
    omega

/-- After the region its result array is the layer of the arrays the region found. -/
theorem final0 (c : Dev nD) :
    (dat0 V c).arrAt 3 cfg0.N = lin (V c main_v6) (V c main_arg2) (V c main_arg3) :=
  (dat0 V c).arrAt_eq_of_cover 3 (lin (V c main_v6) (V c main_arg2) (V c main_arg3))
    (fun t _ => flushed0_eq V c t) cover0

end Cert.KernelIdeal.Hand

end
-- ==== Proof.Region1.lean ====
/-
  The edge-attribute layer as a one-hot product, tiled by rows: 60 tiles of 10000 edge labels against the whole
  64-row table and the bias:  out(e, q) = Σ_c [label(e) = c]·t(c,q) + b(q).
-/
import proofs.«154361_j8684423873312_1_alg».proof.Proof.Gen.KernelIdeal.Frame
import proofs.«154361_j8684423873312_1_alg».proof.Proof.Layers
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.Gnn

-- the buffer contents the region is entered from: a parameter
variable (V : (c : Dev nD) → (b : Ref sig .tc) → Buf (Elt Ideal) ((c : Thread nD τ).loc b))

theorem hz1_2 : (![0, 0] : Fin 2 → Nat) = fun _ => 0 := funext fun a => by fin_cases a <;> rfl
theorem hz1_1 : (![0] : Fin 1 → Nat) = fun _ => 0 := funext fun a => by fin_cases a <;> rfl

/-- The one-hot operand of the product at (p, c): the coefficient of class c at the label of row p. -/
theorem onehot_apply (ids : Vec Ideal S10000x1 .i32) (p : Fin 10000) (c : Fin 64) :
    (truncf .bf16 (sitofp .f32 (extui 32 (cmpi .eq
        (broadcastTo S10000x64 (shapeCast S10000x1 ids shapeCasts_S10000x1_S10000x1) broadcasts_S10000x1_S10000x64)
        (broadcastTo S10000x64 (iota .tc S1x64 32 [1] iota_S1x64_d1_w32) broadcasts_S1x64_S10000x64)) natLt_1_32)
        : FVec Ideal S10000x64 .f32) bitsLt_bf16_f32 : FVec Ideal S10000x64 .bf16) (ix2 p c)
      = hot (ids (ix2 p (0 : Fin 1))) c.val := by
  -- the labels spread along the classes read (p, 0)
  have hA : broadcastTo S10000x64 (shapeCast S10000x1 ids shapeCasts_S10000x1_S10000x1) broadcasts_S10000x1_S10000x64 (ix2 p c)
      = ids (ix2 p (0 : Fin 1)) := by
    rw [shapeCast_self]
    refine broadcastTo_apply ids broadcasts_S10000x1_S10000x64 (ix2 p c) (ix2 p (0 : Fin 1)) fun a => ?_
    match a with
    | ⟨0, _⟩ => rfl
    | ⟨1, _⟩ => rfl
  -- the class numbers spread along the rows read (0, c): the word of c
  have hB : broadcastTo S10000x64 (iota .tc S1x64 32 [1] iota_S1x64_d1_w32) broadcasts_S1x64_S10000x64 (ix2 p c)
      = BitVec.ofNat 32 c.val := by
    refine (broadcastTo_apply (iota .tc S1x64 32 [1] iota_S1x64_d1_w32) broadcasts_S1x64_S10000x64 (ix2 p c)
      (ix2 (0 : Fin 1) c) fun a => ?_).trans ?_
    · match a with
      | ⟨0, _⟩ => rfl
      | ⟨1, _⟩ => rfl
    · exact iota_single_apply .tc S1x64 32 1 iota_S1x64_d1_w32 (ix2 (0 : Fin 1) c)
  rw [truncf_apply, sitofp_apply, extui_apply]
  have e : cmpi .eq
        (broadcastTo S10000x64 (shapeCast S10000x1 ids shapeCasts_S10000x1_S10000x1) broadcasts_S10000x1_S10000x64)
        (broadcastTo S10000x64 (iota .tc S1x64 32 [1] iota_S1x64_d1_w32) broadcasts_S1x64_S10000x64) (ix2 p c)
      = IntOp.cmpi .eq (ids (ix2 p (0 : Fin 1))) (BitVec.ofNat 32 c.val) := by
    show IntOp.cmpi .eq _ _ = _
    rw [hA, hB]
  rw [e]
  rfl

/-- The body's payload is the layer of its blocks. -/
theorem pay1_eq (ids : Vec Ideal S10000x1 .i32) (t : Vec Ideal S64x128 .f32) (b : Vec Ideal S128 .f32) :
    k1_pay1 ids t b = pick ids t b := by
  funext i
  obtain ⟨p, q, rfl⟩ : ∃ p q, i = ix2 p q := ⟨i 0, i 1, eq_ix2 i⟩
  unfold k1_pay1
  rw [addf_apply]
  show _ = (∑ c : Fin 64, hot (ids (ix2 p (0 : Fin 1))) c.val * t (ix2 c q)) + b (ix1 q)
  congr 1
  · refine (mat_apply dot_S10000x64_S64x128_S10000x128_1_0_0_1_n_n rfl _ _ p q).trans ?_
    refine Finset.sum_congr rfl fun c _ => ?_
    rw [onehot_apply, truncf_apply, shapeCast_self]
  · exact biasRow_apply b shapeCasts_S128_S1x128 broadcasts_S1x128_S10000x128 p q

/-- The printed index maps, decided over the grid: the labels' and the result's block index is (t, 0), the table's and
    the bias's is zero. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

example : Pipeline.arrRef spec1 0 = main_v10 := rfl
example : Pipeline.arrRef spec1 1 = main_v9 := rfl
example : Pipeline.arrRef spec1 2 = main_arg3 := rfl
example : Pipeline.arrRef spec1 3 = main_v11 := rfl

/-- The labels' block at point t is rows 10000t … 10000t + 9999 of the labels. -/
theorem iblk1_0_apply (c : Dev nD) (t : Fin cfg1.N) (y : S10000x1.Idx) (k : S600000x1.Idx)
    (hk0 : (k 0).val = 10000 * t.val + (y 0).val) (hk1 : (k 1).val = (y 1).val) :
    (iblk1 V c 0 t : Vec Ideal S10000x1 .i32) y = (V c main_v10 : S600000x1.Idx → BitVec 32) k := by
  obtain ⟨e0, e1, -⟩ := idx1 t
  unfold iblk1
  rw [View.read_apply]
  show V c main_v10 _ = _
  congr 1
  funext a
  apply Fin.ext
  match a with
  | ⟨0, _⟩ => show win1_0.index t 0 * 10000 + 1 * (y 0).val = (k 0).val; rw [e0, hk0]; omega
  | ⟨1, _⟩ => show win1_0.index t 1 * 1 + 1 * (y 1).val = (k 1).val; rw [e1, hk1]; omega

/-- The table's block at every point is the table. -/
theorem iblk1_1_apply (c : Dev nD) (t : Fin cfg1.N) (y : S64x128.Idx) (k : S64x128.Idx)
    (hk0 : (k 0).val = (y 0).val) (hk1 : (k 1).val = (y 1).val) :
    (iblk1 V c 1 t : Vec Ideal S64x128 .f32) y = (V c main_v9 : S64x128.Idx → EReal) k := by
  obtain ⟨-, -, e0, e1, -⟩ := idx1 t
  unfold iblk1
  rw [View.read_apply]
  show V c main_v9 _ = _
  congr 1
  funext a
  apply Fin.ext
  match a with
  | ⟨0, _⟩ => show win1_1.index t 0 * 64 + 1 * (y 0).val = (k 0).val; rw [e0, hk0]; omega
  | ⟨1, _⟩ => show win1_1.index t 1 * 128 + 1 * (y 1).val = (k 1).val; rw [e1, hk1]; omega

/-- The bias's block at every point is the bias. -/
theorem iblk1_2_apply (c : Dev nD) (t : Fin cfg1.N) (y : S128.Idx) (k : S128.Idx)
    (hk0 : (k 0).val = (y 0).val) :
    (iblk1 V c 2 t : Vec Ideal S128 .f32) y = (V c main_arg3 : S128.Idx → EReal) k := by
  obtain ⟨-, -, -, -, e0, -⟩ := idx1 t
  unfold iblk1
  rw [View.read_apply]
  show V c main_arg3 _ = _
  congr 1
  funext a
  apply Fin.ext
  match a with
  | ⟨0, _⟩ => show win1_2.index t 0 * 128 + 1 * (y 0).val = (k 0).val; rw [e0, hk0]; omega

/-- The layer of point t's blocks at (p, q) is the layer of the whole arrays at (10000t + p, q): row p of the result
    depends on row p of the labels only. -/
theorem pick_blk1 (c : Dev nD) (t : Fin cfg1.N) (j : S10000x128.Idx) (k : S600000x128.Idx)
    (hk0 : (k 0).val = 10000 * t.val + (j 0).val) (hk1 : (k 1).val = (j 1).val) :
    pick (iblk1 V c 0 t) (iblk1 V c 1 t) (iblk1 V c 2 t) j = pick (V c main_v10) (V c main_v9) (V c main_arg3) k := by
  show (∑ c' : Fin 64, hot (iblk1 V c 0 t (ix2 (j 0) (0 : Fin 1))) c'.val * iblk1 V c 1 t (ix2 c' (j 1)))
        + iblk1 V c 2 t (ix1 (j 1))
      = (∑ c' : Fin 64, hot (V c main_v10 (ix2 (k 0) (0 : Fin 1))) c'.val * V c main_v9 (ix2 c' (k 1)))
        + V c main_arg3 (ix1 (k 1))
  rw [iblk1_0_apply V c t (ix2 (j 0) (0 : Fin 1)) (ix2 (k 0) (0 : Fin 1)) hk0 rfl,
    iblk1_2_apply V c t (ix1 (j 1)) (ix1 (k 1)) hk1]
  congr 1
  refine Finset.sum_congr rfl fun c' _ => ?_
  rw [iblk1_1_apply V c t (ix2 c' (j 1)) (ix2 c' (k 1)) rfl hk1]

/-- What point t writes back is block t of the layer of the arrays the region found. -/
theorem flushed1_eq (c : Dev nD) (t : Fin cfg1.N) :
    (dat1 V c).flushed 3 t
      = ((cfg1.win 3).blk t).view.read (Elt Ideal) (pick (V c main_v10) (V c main_v9) (V c main_arg3)) := by
  show (cfg1.win 3).cut (grid1.coords t) ((dat1 V c).after 3 t) = _
  rw [after1_3]
  unfold out1_3
  rw [View.canon_unit_zero hz1_2]
  simp only [View.ld_unit_zero (S := S10000x1) hz1_2, View.ld_unit_zero (S := S64x128) hz1_2,
    View.ld_unit_zero (S := S128) hz1_1]
  rw [pay1_eq]
  funext j
  obtain ⟨-, -, -, -, -, e0, e1⟩ := idx1 t
  refine pick_blk1 V c t j (((cfg1.win 3).blk t).view.emb j) ?_ ?_
  · show win1_3.index t 0 * 10000 + 1 * (j 0).val = 10000 * t.val + (j 0).val
    rw [e0]; omega
  · show win1_3.index t 1 * 128 + 1 * (j 1).val = (j 1).val
    rw [e1]; omega

/-- An index of the result is in point t's block iff each coordinate is in the block's range on its axis. -/
theorem mem_blk1 (t : Fin cfg1.N) (i : S600000x128.Idx) :
    i ∈ ((cfg1.win 3).blk t).view.set ↔ ∀ a : Fin 2, win1_3.index t a * S10000x128.size a ≤ (i a).val
      ∧ (i a).val < win1_3.index t a * S10000x128.size a + S10000x128.size a := by
  show i ∈ ((View.whole main_v11).slice (win1_3.rect t)).set ↔ _
  rw [View.set_slice_whole, Rect.mem_set_unit]
  exact Iff.rfl

/-- Row r of the result is in the block of point r / 10000: the blocks tile the array. -/
theorem cover1 (i : S600000x128.Idx) :
    ∃ t : Fin cfg1.N, (cfg1.win 3).flush t = true ∧ i ∈ ((cfg1.win 3).blk t).view.set := by
  have hi0 : (i 0).val < 600000 := (i 0).isLt
  have hi1 : (i 1).val < 128 := (i 1).isLt
  have hN : cfg1.N = 60 := N_1
  obtain ⟨t, ht⟩ : ∃ t : Fin cfg1.N, t.val = (i 0).val / 10000 := ⟨⟨(i 0).val / 10000, by rw [hN]; omega⟩, rfl⟩
  obtain ⟨-, -, -, -, -, e0, e1⟩ := idx1 t
  refine ⟨t, flush1_3 t, ?_⟩
  rw [mem_blk1]
  intro a
  match a with
  | ⟨0, _⟩ =>
    show win1_3.index t 0 * 10000 ≤ (i 0).val ∧ (i 0).val < win1_3.index t 0 * 10000 + 10000
    rw [e0, ht]; omega
  | ⟨1, _⟩ =>
    show win1_3.index t 1 * 128 ≤ (i 1).val ∧ (i 1).val < win1_3.index t 1 * 128 + 128
    rw [e1]; omega

/-- After the region its result array is the layer of the arrays the region found. -/
theorem final1 (c : Dev nD) :
    (dat1 V c).arrAt 3 cfg1.N = pick (V c main_v10) (V c main_v9) (V c main_arg3) :=
  (dat1 V c).arrAt_eq_of_cover 3 (pick (V c main_v10) (V c main_v9) (V c main_arg3))
    (fun t _ => flushed1_eq V c t) cover1

end Cert.KernelIdeal.Hand

end
-- ==== Proof.LibGatherRows.lean ====
/-
  A gather of whole rows, read at an index. What `x[idx]` along the first axis of a table `x : [N, C]` lowers to, for a
  column of start indices `idx : [E, 1]`: a gather with offset axis 1, the operand's axis 0 collapsed, no batching axes, the
  start index mapped to axis 0, the index vector on the start indices' axis 1, and slices of one whole row. Result element
  `(e, j)` is the table at row `idx[e, 0]` — read as a signed integer and clamped into `[0, N − 1]`, as a gather clamps
  every start index — and column `j`. Where the start index, read unsigned, is already below `N ≤ 2³¹`, the sign and the
  clamp change nothing and the row is the start index itself.
-/
import Idealize.ShloMosaic.Lib.ValueIdx

namespace LibGatherRows

open Idealize.ShloMosaic Idealize.ShloMosaic.ValueIdx

variable {α : Type}

/-- The dimension numbers of a gather of whole rows, for an operand `[N, C]`, start indices `[E, 1]` and a result
    `[E, C]`; their conditions `wf` are decided on a program's literal shapes. -/
abbrev rowDims (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE GATHER OF ROWS READ AT `(e, j)`: the operand at row `idx[e, 0]`, read signed and clamped into `[0, N − 1]`, and
    column `j`. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowDims N C E wf) x idx (ix2 e j)
      = x (ix2 (⟨min (idx (ix2 e (0 : Fin 1))).toInt.toNat (N - 1), by omega⟩ : Fin N) j) := by
  unfold Host.gather
  congr 1
  funext a
  refine Fin.ext ?_
  match a with
  | ⟨0, _⟩ =>
    show (rowDims N C E wf).start (ix2 e j) idx 0 + (rowDims N C E wf).batchCoord (ix2 e j) 0
      + (rowDims N C E wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C E wf).startIndexMap from List.mem_singleton.mpr rfl)]
    have hsi : (rowDims N C E wf).siIdx (ix2 e j) ⟨List.idxOf (0 : Fin 2) (rowDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N C E wf).start (ix2 e j) idx 1 + (rowDims N C E wf).batchCoord (ix2 e j) 1
      + (rowDims N C E wf).offCoord (ix2 e j) 1 = j.val
    rw [GatherDims.batchCoord_eq_zero _ _ _ List.not_mem_nil]
    have hst : (rowDims N C E wf).start (ix2 e j) idx 1 = 0 := by
      unfold GatherDims.start
      rw [dif_neg (show ¬ (1 : Fin 2) ∈ (rowDims N C E wf).startIndexMap from
        fun h => absurd (congrArg Fin.val (List.mem_singleton.mp h)) Nat.one_ne_zero)]
    have hk : (1 : Fin 2) ∈ (rowDims N C E wf).sKept :=
      (GatherDims.mem_sKept _ _).mpr
        ⟨fun h => absurd (congrArg Fin.val (List.mem_singleton.mp h)) Nat.one_ne_zero, List.not_mem_nil⟩
    have hoff : (rowDims N C E wf).offCoord (ix2 e j) 1 = j.val := by
      unfold GatherDims.offCoord
      rw [dif_pos hk]
      rfl
    rw [hst, hoff, Nat.add_zero, Nat.zero_add]

/-- A 32-bit word below 2³¹ read as a signed integer is its unsigned reading. -/
theorem toInt_toNat_of_lt {a : BitVec 32} (ha : a.toNat < 2 ^ 31) : a.toInt.toNat = a.toNat := by
  have hw := BitVec.toInt_eq_toNat_cond a
  split at hw <;> omega

/-- THE GATHER OF ROWS AT AN IN-RANGE START INDEX: where `idx[e, 0]`, read unsigned, is below `N ≤ 2³¹`, the result's
    element `(e, j)` is the operand at row `idx[e, 0]` and column `j`. -/
theorem gather_rows_apply_of_lt {N C E : Nat} (hN : N ≤ 2 ^ 31)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ 32) (e : Fin E) (j : Fin C)
    (h : (idx (ix2 e (0 : Fin 1))).toNat < N) :
    Host.gather (rowDims N C E wf) x idx (ix2 e j) = x (ix2 (⟨(idx (ix2 e (0 : Fin 1))).toNat, h⟩ : Fin N) j) := by
  rw [gather_rows_apply (by omega) wf x idx e j]
  congr 2
  refine Fin.ext ?_
  show min (idx (ix2 e (0 : Fin 1))).toInt.toNat (N - 1) = (idx (ix2 e (0 : Fin 1))).toNat
  rw [toInt_toNat_of_lt (by omega)]
  omega

/-- A record of dimension numbers with the fields of a gather of whole rows is `rowDims`. -/
theorem eq_rowDims {N C E : Nat} (G : GatherDims ⟨2, ![N, C]⟩ ⟨2, ![E, 1]⟩ ⟨2, ![E, C]⟩)
    (hod : G.offsetDims = [1]) (hcd : G.collapsedSliceDims = [0]) (hob : G.operandBatchingDims = [])
    (hsb : G.startIndicesBatchingDims = []) (hsm : G.startIndexMap = [0]) (hiv : G.indexVectorDim = 1)
    (hss : G.sliceSizes = ![1, C]) :
    ∃ wf, G = rowDims N C E wf := by
  obtain ⟨od, cd, ob, sb, sm, iv, ss, wf⟩ := G
  simp only at hod hcd hob hsb hsm hiv hss
  subst hod hcd hob hsb hsm hiv hss
  exact ⟨wf, rfl⟩

/-- The gather of rows at an in-range start index, for any record of dimension numbers with those fields. -/
theorem gather_apply_of_fields {N C E : Nat} (hN : N ≤ 2 ^ 31) (G : GatherDims ⟨2, ![N, C]⟩ ⟨2, ![E, 1]⟩ ⟨2, ![E, C]⟩)
    (hod : G.offsetDims = [1]) (hcd : G.collapsedSliceDims = [0]) (hob : G.operandBatchingDims = [])
    (hsb : G.startIndicesBatchingDims = []) (hsm : G.startIndexMap = [0]) (hiv : G.indexVectorDim = 1)
    (hss : G.sliceSizes = ![1, C])
    (x : (⟨2, ![N, C]⟩ : Shape).Idx → α) (idx : IVec ⟨2, ![E, 1]⟩ 32) (e : Fin E) (j : Fin C)
    (h : (idx (ix2 e (0 : Fin 1))).toNat < N) :
    Host.gather G x idx (ix2 e j) = x (ix2 (⟨(idx (ix2 e (0 : Fin 1))).toNat, h⟩ : Fin N) j) := by
  obtain ⟨wf, rfl⟩ := eq_rowDims G hod hcd hob hsb hsm hiv hss
  exact gather_rows_apply_of_lt hN wf x idx e j h

end LibGatherRows
-- ==== Proof.RefLayers.lean ====
/-
  The reference network, layer by layer: each stretch of host operations between two gathers or scatters, as one of the
  layer functions of Layers.lean applied to the stages before it.

    the node projection and the edge projection are  lin  of a gathered table;
    a message is  relu (plus gathered edge-attributes);
    a convolution's update is  lin (plus aggregated features)  (the first one under relu);
    the edge classifier, one product over the two gathered halves joined by columns, is  lin2  over the two halves of the
    weight (a sum over 256 joined columns splits into its first and last 128 terms: addition on the extended reals is
    commutative and associative, so no finiteness is asked);
    the two heads are  lin.

  The edge projection once more, as the one-hot product the kernel computes: where every label lies in [0, 64) the gather
  of a table row followed by the projection is the projected table's row picked by the label.
-/
import proofs.«154361_j8684423873312_1_alg».proof.Proof.Gen.ReferenceIdeal.Run
import proofs.«154361_j8684423873312_1_alg».proof.Proof.Gen.ReferenceIdeal.Read
import proofs.«154361_j8684423873312_1_alg».proof.Proof.Layers
import proofs.«154361_j8684423873312_1_alg».proof.Proof.LibGatherRows

set_option maxRecDepth 16384

noncomputable section

open Idealize.ShloMosaic Idealize.ShloMosaic.ValueIdx

namespace Cert.ReferenceIdeal.Hand

open Cert.ReferenceIdeal Cert.ReferenceIdeal.Gen Cert.ReferenceIdeal.Read Cert.Gnn

variable (x0 : (⟨S200000x128, .f32⟩ : BufTy).Contents (Elt Ideal))
  (x1 : (⟨S64x128, .f32⟩ : BufTy).Contents (Elt Ideal))
  (x2 : (⟨S128x128, .f32⟩ : BufTy).Contents (Elt Ideal))
  (x3 : (⟨S128, .f32⟩ : BufTy).Contents (Elt Ideal))
  (x4 : (⟨S128x128, .f32⟩ : BufTy).Contents (Elt Ideal))
  (x5 : (⟨S128, .f32⟩ : BufTy).Contents (Elt Ideal))
  (x6 : (⟨S128x128, .f32⟩ : BufTy).Contents (Elt Ideal))
  (x7 : (⟨S128, .f32⟩ : BufTy).Contents (Elt Ideal))
  (x8 : (⟨S64x256, .f32⟩ : BufTy).Contents (Elt Ideal))
  (x9 : (⟨S64, .f32⟩ : BufTy).Contents (Elt Ideal))
  (x10 : (⟨S512x128, .f32⟩ : BufTy).Contents (Elt Ideal))
  (x11 : (⟨S512, .f32⟩ : BufTy).Contents (Elt Ideal))
  (x12 : (⟨S16x128, .f32⟩ : BufTy).Contents (Elt Ideal))
  (x13 : (⟨S16, .f32⟩ : BufTy).Contents (Elt Ideal))
  (x14 : (⟨S200000, .i32⟩ : BufTy).Contents (Elt Ideal))
  (x15 : (⟨S600000, .i32⟩ : BufTy).Contents (Elt Ideal))
  (x16 : (⟨S256, .i32⟩ : BufTy).Contents (Elt Ideal))
  (x17 : (⟨S2x600000, .i32⟩ : BufTy).Contents (Elt Ideal))

/-- The zero array a rectifier compares against reads 0 at every index (the first message's) … -/
private theorem zero0_apply (i : S600000x128.Idx) : val_main_call0_v0 (F := Ideal) i = (0 : EReal) := by
  rw [val_main_call0_v0_apply, val_main_call0_cst_apply]
  exact Ideal.ofBits_zero_f32

/-- … the first convolution's … -/
private theorem zero1_apply (i : S200000x128.Idx) : val_main_call1_v0 (F := Ideal) i = (0 : EReal) := by
  rw [val_main_call1_v0_apply, val_main_call1_cst_apply]
  exact Ideal.ofBits_zero_f32

/-- … and the second message's. -/
private theorem zero2_apply (i : S600000x128.Idx) : val_main_call2_v0 (F := Ideal) i = (0 : EReal) := by
  rw [val_main_call2_v0_apply, val_main_call2_cst_apply]
  exact Ideal.ofBits_zero_f32

/-- A 32-bit word whose unsigned reading is below 2³¹ is not negative as a signed word: the comparison "below 0" is
    the bit 0. -/
private theorem slt_zero_of_lt (a : BitVec 32) (ha : a.toNat < 2 ^ 31) : IntOp.cmpi .slt a 0#32 = 0#1 := by
  have hw := BitVec.toInt_eq_toNat_cond a
  have hnn : ¬ a.toInt < (0#32 : BitVec 32).toInt := by
    rw [show (0#32 : BitVec 32).toInt = 0 from rfl]
    split at hw <;> omega
  show BitVec.ofBool (a.slt 0#32) = 0#1
  rw [show a.slt 0#32 = false from decide_eq_false hnn]
  rfl

/-- The node projection: the gathered node table through the first linear layer. -/
theorem r18 : val_main_v18 (F := Ideal) x0 x2 x3 x14 = lin (val_main_v6 (F := Ideal) x0 x14) x2 x3 := by
  unfold val_main_v18 val_main_v15 val_main_v17 val_main_v16 val_main_v14
  exact host_lin _ rfl _ _ _ _ _ _

/-- The edge projection: the gathered relation table through the same linear layer. -/
theorem r23 : val_main_v23 (F := Ideal) x1 x2 x3 x15 = lin (val_main_v13 (F := Ideal) x1 x15) x2 x3 := by
  unfold val_main_v23 val_main_v20 val_main_v22 val_main_v21 val_main_v19
  exact host_lin _ rfl _ _ _ _ _ _

/-- The edge projection as a one-hot product: where every label is below 64 (read unsigned), the projection of the
    gathered relation rows is the row of the projected table  x1·x2ᵀ  picked by the label, plus the bias. -/
theorem r23_pick (d : DotDims ⟨2, ![64, 128]⟩ ⟨2, ![128, 128]⟩ ⟨2, ![64, 128]⟩) (hd : d = DotDims.plain 64 128 128)
    (ht : (⟨2, ![128, 128]⟩ : Shape).Transposes [1, 0] ⟨2, ![128, 128]⟩)
    (hc : (⟨1, ![600000]⟩ : Shape).ShapeCasts ⟨2, ![600000, 1]⟩)
    (h : ∀ e : Fin 600000, ((x15 : (⟨1, ![600000]⟩ : Shape).Idx → BitVec 32) (ix1 e)).toNat < 64) :
    pick (shapeCast ⟨2, ![600000, 1]⟩ (x15 : (⟨1, ![600000]⟩ : Shape).Idx → BitVec 32) hc)
        (Host.dotGeneral (F := Ideal) (φ₁ := .f32) (φ₂ := .f32) d none (x1 : FVec Ideal ⟨2, ![64, 128]⟩ .f32) (transpose ⟨2, ![128, 128]⟩ [1, 0] (x2 : FVec Ideal ⟨2, ![128, 128]⟩ .f32) ht))
        (x3 : Row 128)
      = val_main_v23 (F := Ideal) x1 x2 x3 x15 := by
  funext i
  obtain ⟨e, q, rfl⟩ : ∃ e q, i = ix2 e q := ⟨i 0, i 1, eq_ix2 i⟩
  have he : ((x15 : (⟨1, ![600000]⟩ : Shape).Idx → BitVec 32) (ix1 e)).toNat < 64 := h e
  -- the label column at (e, 0) is the label of e: the two sit at the same row-major position
  have hid : shapeCast ⟨2, ![600000, 1]⟩ (x15 : (⟨1, ![600000]⟩ : Shape).Idx → BitVec 32) hc (ix2 e (0 : Fin 1))
      = x15 (ix1 e) := by
    refine shapeCast_apply _ hc (ix2 e (0 : Fin 1)) (ix1 e) ?_
    rw [Shape.rowMajor_val_one, Shape.rowMajor_val_two]
    show e.val = e.val * 1 + 0
    omega
  -- the start index of the gather is the label itself: a label below 64 is not negative, so the wrap-around
  -- "label + 64 where negative" leaves it
  have h12 : val_main_v12 (F := Ideal) x15 (ix2 e (0 : Fin 1)) = x15 (ix1 e) := by
    have hidx : idx_main_v12 (ix2 e (0 : Fin 1)) = ix1 e := by
      funext a
      match a with
      | ⟨0, _⟩ => rfl
    rw [val_main_v12_apply, hidx, val_main_v11_apply, val_main_v8_apply, val_main_v7_apply, val_main_c_1_apply,
      slt_zero_of_lt (x15 (ix1 e)) (by omega), select_zero]
  have hlt : (val_main_v12 (F := Ideal) x15 (ix2 e (0 : Fin 1))).toNat < 64 := by rw [h12]; exact he
  -- so the gathered row is the table's row of that label
  have h13 : ∀ k : Fin 128, val_main_v13 (F := Ideal) x1 x15 (ix2 e k)
      = x1 (ix2 (⟨(x15 (ix1 e)).toNat, he⟩ : Fin 64) k) := fun k => by
    unfold val_main_v13
    refine (LibGatherRows.gather_apply_of_fields (by norm_num) gather_S64x128_S600000x1_S600000x128_1_0_n_n_0_1_1128
      rfl rfl rfl rfl rfl rfl rfl x1 (val_main_v12 (F := Ideal) x15) e k hlt).trans ?_
    have hr : (⟨(val_main_v12 (F := Ideal) x15 (ix2 e (0 : Fin 1))).toNat, hlt⟩ : Fin 64)
        = ⟨(x15 (ix1 e)).toNat, he⟩ := Fin.ext (congrArg BitVec.toNat h12)
    rw [hr]
  -- left: the row of the projected table picked by the label; right: the projection of the gathered row
  have hpick := pick_apply_of_eq
    (shapeCast ⟨2, ![600000, 1]⟩ (x15 : (⟨1, ![600000]⟩ : Shape).Idx → BitVec 32) hc)
    (Host.dotGeneral (F := Ideal) (φ₁ := .f32) (φ₂ := .f32) d none (x1 : FVec Ideal ⟨2, ![64, 128]⟩ .f32)
      (transpose ⟨2, ![128, 128]⟩ [1, 0] (x2 : FVec Ideal ⟨2, ![128, 128]⟩ .f32) ht))
    (x3 : Row 128) (by norm_num : (64 : ℕ) ≤ 2 ^ 32) e q ⟨_, he⟩ (congrArg BitVec.toNat hid)
  rw [hpick, dotT_apply d hd _ _ ht, r23 x1 x2 x3 x15, lin_apply]
  simp only [h13]

/-- The first message: the rectifier of the gathered node projection plus the edge projection. -/
theorem r36 : val_main_v36 (F := Ideal) x0 x1 x2 x3 x14 x15 x17 = relu (plus (val_main_v34 (F := Ideal) x0 x2 x3 x14 x17) (val_main_v23 (F := Ideal) x1 x2 x3 x15)) := by
  funext i
  rw [val_main_v36_apply, val_main_v35_apply, zero0_apply]
  rfl

/-- The first convolution: the aggregated messages plus the node projection, through a linear layer and the rectifier. -/
theorem r46 : val_main_v46 (F := Ideal) x0 x1 x2 x3 x4 x5 x14 x15 x17 = relu (lin (plus (val_main_v39 (F := Ideal) x0 x1 x2 x3 x14 x15 x17) (val_main_v18 (F := Ideal) x0 x2 x3 x14)) x4 x5) := by
  -- under the rectifier: the linear layer of the entrywise sum
  have h45 : val_main_v45 (F := Ideal) x0 x1 x2 x3 x4 x5 x14 x15 x17
      = lin (plus (val_main_v39 (F := Ideal) x0 x1 x2 x3 x14 x15 x17) (val_main_v18 (F := Ideal) x0 x2 x3 x14)) x4 x5 := by
    unfold val_main_v45 val_main_v42 val_main_v44 val_main_v43 val_main_v41 val_main_v40
    exact host_lin _ rfl _ _ _ _ _ _
  funext i
  rw [val_main_v46_apply, h45, zero1_apply]
  rfl

/-- The second message. -/
theorem r59 : val_main_v59 (F := Ideal) x0 x1 x2 x3 x4 x5 x14 x15 x17 = relu (plus (val_main_v57 (F := Ideal) x0 x1 x2 x3 x4 x5 x14 x15 x17) (val_main_v23 (F := Ideal) x1 x2 x3 x15)) := by
  funext i
  rw [val_main_v59_apply, val_main_v58_apply, zero2_apply]
  rfl

/-- The second convolution: a linear layer, no rectifier. -/
theorem r68 : val_main_v68 (F := Ideal) x0 x1 x2 x3 x4 x5 x6 x7 x14 x15 x17 = lin (plus (val_main_v62 (F := Ideal) x0 x1 x2 x3 x4 x5 x14 x15 x17) (val_main_v46 (F := Ideal) x0 x1 x2 x3 x4 x5 x14 x15 x17)) x6 x7 := by
  unfold val_main_v68 val_main_v65 val_main_v67 val_main_v66 val_main_v64 val_main_v63
  exact host_lin _ rfl _ _ _ _ _ _

/-- The edge classifier: the product over the joined source and destination features against the whole weight is the
    sum of the two products against the weight's two halves w (columns 0…127) and v (columns 128…255). -/
theorem r92 (w v : Mat 64 128)
    (hw : ∀ (r : Fin 64) (k : Fin 128), w (ix2 r k) = (x8 : Mat 64 256) (ix2 r (Fin.castAdd 128 k)))
    (hv : ∀ (r : Fin 64) (k : Fin 128), v (ix2 r k) = (x8 : Mat 64 256) (ix2 r (Fin.natAdd 128 k))) :
    val_main_v92 (F := Ideal) x0 x1 x2 x3 x4 x5 x6 x7 x8 x9 x14 x15 x17 = lin2 (val_main_v77 (F := Ideal) x0 x1 x2 x3 x4 x5 x6 x7 x14 x15 x17) (val_main_v86 (F := Ideal) x0 x1 x2 x3 x4 x5 x6 x7 x14 x15 x17) w v x9 := by
  funext i
  obtain ⟨p, q, rfl⟩ : ∃ p q, i = ix2 p q := ⟨i 0, i 1, eq_ix2 i⟩
  -- a first-half column of the joined features is the source features' column …
  have hl : ∀ k : Fin 128, val_main_v87 (F := Ideal) x0 x1 x2 x3 x4 x5 x6 x7 x14 x15 x17 (ix2 p (Fin.castAdd 128 k)) = val_main_v77 (F := Ideal) x0 x1 x2 x3 x4 x5 x6 x7 x14 x15 x17 (ix2 p k) := fun k => by
    unfold val_main_v87
    exact concatenate_pair_apply_left (t := S600000x256) (s₁ := S600000x128) (s₂ := S600000x128) 1 _ _ _ (ix2 p (Fin.castAdd 128 k)) rfl (ix2 p k)
      (fun b => match b with | ⟨0, _⟩ => rfl | ⟨1, _⟩ => rfl)
  -- … a last-half column 128 + k is the destination features' column k
  have hr : ∀ k : Fin 128, val_main_v87 (F := Ideal) x0 x1 x2 x3 x4 x5 x6 x7 x14 x15 x17 (ix2 p (Fin.natAdd 128 k)) = val_main_v86 (F := Ideal) x0 x1 x2 x3 x4 x5 x6 x7 x14 x15 x17 (ix2 p k) := fun k => by
    unfold val_main_v87
    exact concatenate_pair_apply_right (t := S600000x256) (s₁ := S600000x128) (s₂ := S600000x128) 1 _ _ _ (ix2 p (Fin.natAdd 128 k)) rfl rfl (ix2 p k)
      (fun b hb => match b, hb with | ⟨0, _⟩, _ => rfl | ⟨1, _⟩, hb => absurd rfl hb)
      (by show k.val + 128 = 128 + k.val; omega)
  -- the transposed weight at (c, q) is the weight at (q, c)
  have h88 : ∀ c : Fin 256, val_main_v88 (F := Ideal) x8 (ix2 c q) = x8 (ix2 q c) := fun c => by
    unfold val_main_v88
    exact transpose_apply [1, 0] x8 transposes_S64x256_S256x64_1_0 (ix2 c q) (ix2 q c)
      (fun b => match b with | ⟨0, _⟩ => rfl | ⟨1, _⟩ => rfl)
  -- a sum over 256 columns is the sum over the first 128 plus the sum over the last 128
  have hsplit : ∀ f : Fin 256 → EReal,
      ∑ c : Fin 256, f c = ∑ k : Fin 128, f (Fin.castAdd 128 k) + ∑ k : Fin 128, f (Fin.natAdd 128 k) :=
    fun f => Fin.sum_univ_add (a := 128) (b := 128) f
  unfold val_main_v92 val_main_v89 val_main_v91 val_main_v90
  rw [addf_apply, LibPlainDot.dotGeneral_apply_of_plain dot_S600000x256_S256x64_S600000x64_1_0_0_1_n_n rfl,
    hostBias_apply, lin2_apply, hsplit]
  simp only [hl, hr, h88, hw, hv]

/-- The motif head. -/
theorem r104 : val_main_v104 (F := Ideal) x0 x1 x2 x3 x4 x5 x6 x7 x10 x11 x14 x15 x16 x17 = lin (val_main_v99 (F := Ideal) x0 x1 x2 x3 x4 x5 x6 x7 x14 x15 x16 x17) x10 x11 := by
  unfold val_main_v104 val_main_v101 val_main_v103 val_main_v102 val_main_v100
  exact host_lin _ rfl _ _ _ _ _ _

/-- The node classifier. -/
theorem r109 : val_main_v109 (F := Ideal) x0 x1 x2 x3 x4 x5 x6 x7 x12 x13 x14 x15 x17 = lin (val_main_v68 (F := Ideal) x0 x1 x2 x3 x4 x5 x6 x7 x14 x15 x17) x12 x13 := by
  unfold val_main_v109 val_main_v106 val_main_v108 val_main_v107 val_main_v105
  exact host_lin _ rfl _ _ _ _ _ _

end Cert.ReferenceIdeal.Hand

end
-- ==== Proof.PreRange.lean ====
/-
  The added domain conjunct, read back: under the precondition every relation label lies in [0, 64).
  The printed predicate ends in the conjunction (and) of the finiteness tests with  all (label ≥ 0 ∧ label < 64), both
  comparisons signed; a label that passes both, read as an unsigned word, is below 64.
-/
import proofs.«154361_j8684423873312_1_alg».proof.Defs
import proofs.«154361_j8684423873312_1_alg».proof.Proof.Gen.Pre_finite_inputs
import Idealize.ShloMosaic.Lib.ReduceAll
import Idealize.ShloMosaic.Lib.ValueIdx
import Idealize.ShloMosaic.Lib.StableHlo.Predicate

noncomputable section

open Idealize.ShloMosaic Idealize.ShloMosaic.ValueIdx Idealize.SL.Sem

namespace Cert.PreRange

open Cert.Pre_finite_inputs in
/-- The rank-0 shape has exactly one index. -/
instance : Subsingleton S_.Idx := ⟨fun a b => funext fun d => d.elim0⟩

/-- A 32-bit word whose signed reading lies in [0, 64) reads below 64 unsigned. -/
theorem toNat_lt_of_toInt {x : BitVec 32} (h0 : (0#32 : BitVec 32).toInt ≤ x.toInt) (h1 : x.toInt < (64#32 : BitVec 32).toInt) :
    x.toNat < 64 := by
  rw [show (0#32 : BitVec 32).toInt = 0 from by decide] at h0
  rw [show (64#32 : BitVec 32).toInt = 64 from by decide] at h1
  rw [BitVec.toInt_eq_toNat_cond] at h0 h1
  split at h0 <;> omega

open Cert.Pre_finite_inputs in
/-- The last part of the predicate: its value is (finiteness) and all (label ≥ 0 and label < 64); when it is 1,
    every label passes both signed comparisons. -/
theorem part4_range {F : FTy → Type} [FloatOps F] [Facts] (a15 : IVec S600000 32) (v63 v67 : IVec S_ 1)
    (h : fn_part4 (F := F) a15 v63 v67 ix0 = 1#1) (e : Fin 600000) : (a15 (ix1 e)).toNat < 64 := by
  unfold fn_part4 at h
  have h2 := (IntOp.andi_eq_one.1 h).2
  have h3 := Host.reduce_andi_all _ _ _ _ _ h2 (ix1 e)
  obtain ⟨hge, hlt⟩ := IntOp.andi_eq_one.1 h3
  exact toNat_lt_of_toInt (IntOp.cmpi_sge.1 hge) (IntOp.cmpi_slt.1 hlt)

/-- Every relation label of a memory that meets the precondition is below 64, read unsigned. -/
theorem rel_range (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m)
    (c : Dev Cert.KernelIdeal.nD) (e : Fin 600000) :
    ((m ((c.tc : Thread Cert.KernelIdeal.nD Cert.KernelIdeal.τ).loc Cert.KernelIdeal.main_arg15)
        : (⟨1, ![600000]⟩ : Shape).Idx → BitVec 32) (ix1 e)).toNat < 64 := by
  have h := congrFun (hpre c) ValueIdx.ix0
  exact part4_range (F := Ideal) _ _ _ h e

end Cert.PreRange

end
-- ==== Proof.KChainA.lean ====
/-
  The kernel program's first two layers are the reference's: after region 0 the node projection, after region 1 the edge
  projection (the one-hot product picks the projected table's row, the labels being in range under the precondition).
-/
import proofs.«154361_j8684423873312_1_alg».proof.Proof.KWalk
import proofs.«154361_j8684423873312_1_alg».proof.Proof.Region0
import proofs.«154361_j8684423873312_1_alg».proof.Proof.Region1
import proofs.«154361_j8684423873312_1_alg».proof.Proof.RefLayers
import proofs.«154361_j8684423873312_1_alg».proof.Proof.PreRange

set_option maxRecDepth 16384

noncomputable section

open Idealize.ShloMosaic Idealize.ShloMosaic.TcCoe Idealize.SL.Sem Idealize.ShloMosaic.ValueIdx

namespace Cert.KernelIdeal.Hand

open Cert.KernelIdeal Cert.KernelIdeal.Gen Cert.Gnn

variable (m : (ℓ : Loc nD τ sig) → Buf (Elt Ideal) ℓ) (ρ : Dev nD → PrngReg)

/-! ## The launch arguments at the entry of region 0 and at its exit -/

/-- The node table is the launch argument when region 0 is entered. -/
theorem W1_arg0 (c : Dev nD) : W1 m ρ c (Proc.devRef .tc main_arg0) = a0 m c := by
  host_keep hostOps0
  rfl

/-- The node ids are the launch argument when region 0 is entered. -/
theorem W1_arg14 (c : Dev nD) : W1 m ρ c (Proc.devRef .tc main_arg14) = a14 m c := by
  host_keep hostOps0
  rfl

/-- The first layer's weight is the launch argument when region 0 is entered. -/
theorem W1_arg2 (c : Dev nD) : W1 m ρ c (Proc.devRef .tc main_arg2) = a2 m c := by
  host_keep hostOps0
  rfl

/-- The first layer's bias is the launch argument when region 0 is entered. -/
theorem W1_arg3 (c : Dev nD) : W1 m ρ c (Proc.devRef .tc main_arg3) = a3 m c := by
  host_keep hostOps0
  rfl

/-- The gathered node table region 0 is entered with is the reference's: the same gather of the same table by the
    same normalised ids (a negative id has the table's height added). -/
theorem W1_v6 (c : Dev nD) :
    W1 m ρ c (Proc.devRef .tc main_v6) = Cert.ReferenceIdeal.Read.val_main_v6 (F := Ideal) (a0 m c) (a14 m c) := by
  show StableHlo.after hostOps0 (W0 m ρ c) (Proc.devRef .tc main_v6) = _
  after_results
  unfold Cert.ReferenceIdeal.Read.val_main_v6 Cert.ReferenceIdeal.Read.val_main_v5 Cert.ReferenceIdeal.Read.val_main_v4
    Cert.ReferenceIdeal.Read.val_main_v3 Cert.ReferenceIdeal.Read.val_main_v2 Cert.ReferenceIdeal.Read.val_main_c_0
    Cert.ReferenceIdeal.Read.val_main_v1 Cert.ReferenceIdeal.Read.val_main_v0 Cert.ReferenceIdeal.Read.val_main_c
  rfl

/-- After region 0 its result array holds the reference's node projection of the launch arguments. -/
theorem kv7 (c : Dev nD) : W2 m ρ c (Proc.devRef .tc main_v7) = t18 m c := by
  refine ((W2_arr m ρ c 3).trans (final0 (V1 m ρ) c)).trans ?_
  have h6 : V1 m ρ c main_v6 = Cert.ReferenceIdeal.Read.val_main_v6 (F := Ideal) (a0 m c) (a14 m c) := W1_v6 m ρ c
  have h2 : V1 m ρ c main_arg2 = a2 m c := W1_arg2 m ρ c
  have h3 : V1 m ρ c main_arg3 = a3 m c := W1_arg3 m ρ c
  rw [h6, h2, h3]
  exact (Cert.ReferenceIdeal.Hand.r18 (a0 m c) (a2 m c) (a3 m c) (a14 m c)).symm

/-- The relation table is still the launch argument after region 0 (it is none of the region's arrays). -/
theorem W2_arg1 (c : Dev nD) : W2 m ρ c (Proc.devRef .tc main_arg1) = a1 m c := by
  refine (W2_of_ne m ρ c main_arg1 (by decide)).trans ?_
  host_keep hostOps0
  rfl

/-- The relation labels are still the launch argument after region 0. -/
theorem W2_arg15 (c : Dev nD) : W2 m ρ c (Proc.devRef .tc main_arg15) = a15 m c := by
  refine (W2_of_ne m ρ c main_arg15 (by decide)).trans ?_
  host_keep hostOps0
  rfl

/-- The first layer's weight, an input array of region 0, leaves it as it entered. -/
theorem W2_arg2 (c : Dev nD) : W2 m ρ c (Proc.devRef .tc main_arg2) = a2 m c :=
  ((W2_arr m ρ c 1).trans (((dat0 (V1 m ρ) c).arrAt_in 1 rfl _).trans (A_eq0 (V1 m ρ) c 1))).trans (W1_arg2 m ρ c)

/-- The first layer's bias, an input array of region 0, leaves it as it entered. -/
theorem W2_arg3 (c : Dev nD) : W2 m ρ c (Proc.devRef .tc main_arg3) = a3 m c :=
  ((W2_arr m ρ c 2).trans (((dat0 (V1 m ρ) c).arrAt_in 2 rfl _).trans (A_eq0 (V1 m ρ) c 2))).trans (W1_arg3 m ρ c)

/-- The bias region 1 is entered with is the launch argument. -/
theorem W3_arg3 (c : Dev nD) : W3 m ρ c (Proc.devRef .tc main_arg3) = a3 m c := by
  host_keep hostOps1
  exact W2_arg3 m ρ c

/-- The label column region 1 is entered with: the launch labels recast from [600000] to [600000, 1]. -/
theorem W3_v10 (c : Dev nD) :
    W3 m ρ c (Proc.devRef .tc main_v10)
      = shapeCast S600000x1 (a15 m c : (⟨1, ![600000]⟩ : Shape).Idx → BitVec 32) shapeCasts_S600000_S600000x1 := by
  show StableHlo.after hostOps1 (W2 m ρ c) (Proc.devRef .tc main_v10) = _
  after_results
  rw [W2_arg15]
  rfl

/-- The projected relation table region 1 is entered with: the launch table times the transposed launch weight. -/
theorem W3_v9 (c : Dev nD) :
    W3 m ρ c (Proc.devRef .tc main_v9)
      = Host.dotGeneral (F := Ideal) (φ₁ := .f32) (φ₂ := .f32) dot_S64x128_S128x128_S64x128_1_0_0_1_n_n none (a1 m c : FVec Ideal ⟨2, ![64, 128]⟩ .f32)
          (transpose S128x128 [1, 0] (a2 m c : FVec Ideal ⟨2, ![128, 128]⟩ .f32) transposes_S128x128_S128x128_1_0) := by
  show StableHlo.after hostOps1 (W2 m ρ c) (Proc.devRef .tc main_v9) = _
  after_results
  rw [W2_arg1, W2_arg2]

/-- After region 1 its result array holds the reference's edge projection of the launch arguments. -/
theorem kv11 (hpre : Cert.Pre_KernelIdeal (hPre_finite_inputs := Cert.Pre_finite_inputs.Gen.facts) m) (c : Dev nD) :
    W4 m ρ c (Proc.devRef .tc main_v11) = t23 m c := by
  refine ((W4_arr m ρ c 3).trans (final1 (V3 m ρ) c)).trans ?_
  have h10 : V3 m ρ c main_v10
      = shapeCast S600000x1 (a15 m c : (⟨1, ![600000]⟩ : Shape).Idx → BitVec 32) shapeCasts_S600000_S600000x1 := W3_v10 m ρ c
  have h9 : V3 m ρ c main_v9
      = Host.dotGeneral (F := Ideal) (φ₁ := .f32) (φ₂ := .f32) dot_S64x128_S128x128_S64x128_1_0_0_1_n_n none (a1 m c : FVec Ideal ⟨2, ![64, 128]⟩ .f32)
          (transpose S128x128 [1, 0] (a2 m c : FVec Ideal ⟨2, ![128, 128]⟩ .f32) transposes_S128x128_S128x128_1_0) := W3_v9 m ρ c
  have h3 : V3 m ρ c main_arg3 = a3 m c := W3_arg3 m ρ c
  rw [h10, h9, h3]
  exact Cert.ReferenceIdeal.Hand.r23_pick (a1 m c) (a2 m c) (a3 m c) (a15 m c) dot_S64x128_S128x128_S64x128_1_0_0_1_n_n rfl
    transposes_S128x128_S128x128_1_0 shapeCasts_S600000_S600000x1 (fun e => Cert.PreRange.rel_range m hpre c e)

end Cert.KernelIdeal.Hand

end
-- ==== Proof.Region2.lean ====
/-
  The first message: the rectifier of the gathered source features plus the edge attributes, entry by entry, tiled by
  rows (120 tiles of 5000 edges):  out(e, q) = max (a(e,q) + b(e,q), 0).
-/
import proofs.«154361_j8684423873312_1_alg».proof.Proof.Gen.KernelIdeal.Frame
import proofs.«154361_j8684423873312_1_alg».proof.Proof.Layers
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.Gnn

-- the buffer contents the region is entered from: a parameter
variable (V : (c : Dev nD) → (b : Ref sig .tc) → Buf (Elt Ideal) ((c : Thread nD τ).loc b))

/-- The zero offsets of a whole staging buffer. -/
theorem reluAdd2_zeroOff : (![0, 0] : Fin 2 → Nat) = fun _ => 0 := funext fun a => by fin_cases a <;> rfl

/-- The body's arithmetic on its two loaded tiles is the rectifier of their entrywise sum. -/
theorem reluAdd2_pay (x y : Vec Ideal S5000x128 .f32) : k2_pay1 x y = relu (plus x y) := by
  funext i
  unfold k2_pay1
  -- the casts to the same shape are the identity; the compared constant is the real 0
  rw [shapeCast_self, shapeCast_self]
  show max (x i + y i) (Ideal.ofBits .f32 0x00000000#32) = max (x i + y i) 0
  rw [Ideal.ofBits_zero_f32]

/-- The index maps over the 120 tiles: tile t of each of the three arrays is its row block t, column block 0. -/
theorem reluAdd2_tiles : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What tile t writes back is tile t of the rectifier of the sum of the two whole arrays: the three windows are tiled
    alike, so the entry (r, q) of the output tile is computed from the entries (5000 t + r, q) of both inputs. -/
theorem reluAdd2_flushed (c : Dev nD) (t : Fin cfg2.N) :
    (dat2 V c).flushed 2 t
      = ((cfg2.win 2).blk t).view.read (Elt Ideal) (relu (plus (V c main_v22) (V c main_v11))) := by
  show (cfg2.win 2).cut (grid2.coords t) ((dat2 V c).after 2 t) = _
  rw [after2_2]
  unfold out2_2
  rw [View.canon_unit_zero reluAdd2_zeroOff]
  simp only [View.ld_unit_zero (S := S5000x128) reluAdd2_zeroOff]
  rw [reluAdd2_pay]
  obtain ⟨e0, e1, e2, e3, e4, e5⟩ := reluAdd2_tiles t
  funext j
  -- a tile's entry sits in its array at (block index × tile extent + the coordinate inside the tile), per axis
  have h0 : ((cfg2.win 0).blk t).view.emb j = ((cfg2.win 2).blk t).view.emb j := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * (j 1).val = win2_2.index t (1 : Fin 2) * 128 + 1 * (j 1).val; omega
  have h1 : ((cfg2.win 1).blk t).view.emb j = ((cfg2.win 2).blk t).view.emb j := by
    funext a; apply Fin.ext
    match a with
    | ⟨0, _⟩ => show win2_1.index t (0 : Fin 2) * 5000 + 1 * (j 0).val = win2_2.index t (0 : Fin 2) * 5000 + 1 * (j 0).val; omega
    | ⟨1, _⟩ => show win2_1.index t (1 : Fin 2) * 128 + 1 * (j 1).val = win2_2.index t (1 : Fin 2) * 128 + 1 * (j 1).val; omega
  -- both sides are max (a + b, 0), the left at the inputs' positions, the right at the output's
  have both : ∀ (A B : Mat 600000 128) (p0 p1 p2 : S600000x128.Idx), p0 = p2 → p1 = p2 →
      max (A p0 + B p1) 0 = max (A p2 + B p2) 0 := by
    intro A B p0 p1 p2 q0 q1
    rw [q0, q1]
  exact both (V c main_v22) (V c main_v11) (((cfg2.win 0).blk t).view.emb j) (((cfg2.win 1).blk t).view.emb j)
    (((cfg2.win 2).blk t).view.emb j) h0 h1

/-- An entry of the output array is in tile t iff each coordinate is in the tile's range on its axis. -/
theorem reluAdd2_memTile (t : Fin cfg2.N) (i : S600000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v23).slice (win2_2.rect t)).set ↔ _
  rw [View.set_slice_whole, Rect.mem_set_unit]
  exact Iff.rfl

/-- The 120 tiles cover the output array: row r is in tile r / 5000. -/
theorem reluAdd2_cover (i : S600000x128.Idx) :
    ∃ t : Fin cfg2.N, (cfg2.win 2).flush t = true ∧ i ∈ ((cfg2.win 2).blk t).view.set := by
  have hi0 : (i 0).val < 600000 := (i 0).isLt
  have hi1 : (i 1).val < 128 := (i 1).isLt
  have hN : grid2.N = 120 := N_2
  have ht : (i 0).val / 5000 < cfg2.N := by show (i 0).val / 5000 < grid2.N; omega
  obtain ⟨-, -, -, -, e4, e5⟩ := reluAdd2_tiles ⟨(i 0).val / 5000, ht⟩
  refine ⟨⟨(i 0).val / 5000, ht⟩, flush2_2 _, ?_⟩
  rw [reluAdd2_memTile]
  intro a
  match a with
  | ⟨0, _⟩ =>
    show win2_2.index ⟨(i 0).val / 5000, ht⟩ (0 : Fin 2) * 5000 ≤ (i 0).val
      ∧ (i 0).val < win2_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win2_2.index ⟨(i 0).val / 5000, ht⟩ (1 : Fin 2) * 128 ≤ (i 1).val
      ∧ (i 1).val < win2_2.index ⟨(i 0).val / 5000, ht⟩ (1 : Fin 2) * 128 + 128
    rw [e5]
    omega

/-- After the region its result array is the layer of the arrays the region found. -/
theorem final2 (c : Dev nD) :
    (dat2 V c).arrAt 2 cfg2.N = relu (plus (V c main_v22) (V c main_v11)) :=
  (dat2 V c).arrAt_eq_of_cover 2 (relu (plus (V c main_v22) (V c main_v11))) (fun t _ => reluAdd2_flushed V c t) reluAdd2_cover

end Cert.KernelIdeal.Hand

end
-- ==== Proof.Region3.lean ====
/-
  The first convolution's update, tiled by rows (25 tiles of 8000 nodes): the aggregated messages plus the node
  features, through a linear layer and the rectifier:  out(r, q) = max (Σ_k (a(r,k) + x(r,k))·w(q,k) + b(q), 0).
-/
import proofs.«154361_j8684423873312_1_alg».proof.Proof.Gen.KernelIdeal.Frame
import proofs.«154361_j8684423873312_1_alg».proof.Proof.Layers
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.Gnn

-- the buffer contents the region is entered from: a parameter
variable (V : (c : Dev nD) → (b : Ref sig .tc) → Buf (Elt Ideal) ((c : Thread nD τ).loc b))

theorem hz3 : (![0, 0] : Fin 2 → Nat) = fun _ => 0 := funext fun a => by fin_cases a <;> rfl

theorem hz3' : (![0] : Fin 1 → Nat) = fun _ => 0 := funext fun a => by fin_cases a; rfl

/-- The body's payload is the layer of its loaded blocks: the sum of the two row operands through x·wᵀ + b, then the
    rectifier (the maximum with the zero scalar spread over the block). -/
theorem pay3_eq (a x : Vec Ideal S8000x128 .f32) (w : Vec Ideal S128x128 .f32) (b : Vec Ideal S128 .f32) :
    k3_pay1 a x w b = relu (lin (plus a x) w b) := by
  funext i
  obtain ⟨p, q, rfl⟩ : ∃ p q, i = ix2 p q := ⟨i 0, i 1, eq_ix2 i⟩
  unfold k3_pay1
  rw [shapeCast_self, shapeCast_self]
  refine (maximumf_apply _ _ _).trans ?_
  show max _ _ = max (lin (plus a x) w b (ix2 p q)) 0
  congr 1
  · refine (addf_apply _ _ _).trans ?_
    rw [lin_apply]
    congr 1
    · exact matT_apply dot_S8000x128_S128x128_S8000x128_1_0_0_1_n_n rfl (addf a x) w bitsLt_bf16_f32
        transposes_S128x128_p1_0_S128x128 p q
    · exact biasRow_apply b shapeCasts_S128_S1x128 broadcasts_S1x128_S8000x128 p q
  · -- the zero scalar's bits are the extended real 0
    exact Ideal.ofBits_zero_f32

/-- The index maps, decided once over the grid: a row-tiled window's block index at point t is (t, 0), a whole
    operand's is zero. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = t.val ∧ win3_4.index t (1 : Fin 2) = 0 :=
  (by decide +kernel : ∀ t : Fin grid3.N, _)

example : Pipeline.arrRef spec3 0 = main_v26 := rfl
example : Pipeline.arrRef spec3 1 = main_v7 := rfl
example : Pipeline.arrRef spec3 2 = main_arg4 := rfl
example : Pipeline.arrRef spec3 3 = main_arg5 := rfl
example : Pipeline.arrRef spec3 4 = main_v27 := rfl

/-- The first row operand's block at point t is rows 8000·t … 8000·t + 7999 of its array. -/
theorem iblk3_0_apply (c : Dev nD) (t : Fin cfg3.N) (y : S8000x128.Idx) (k : S200000x128.Idx)
    (hk0 : (k 0).val = t.val * 8000 + (y 0).val) (hk1 : (k 1).val = (y 1).val) :
    (iblk3 V c 0 t : Vec Ideal S8000x128 .f32) y = (V c main_v26 : S200000x128.Idx → EReal) k := by
  obtain ⟨e0, e1, -⟩ := idx3 t
  unfold iblk3
  rw [View.read_apply]
  show V c main_v26 _ = _
  congr 1
  funext a
  apply Fin.ext
  match a with
  | ⟨0, _⟩ => show win3_0.index t 0 * 8000 + 1 * (y 0).val = (k 0).val; rw [e0, hk0]; omega
  | ⟨1, _⟩ => show win3_0.index t 1 * 128 + 1 * (y 1).val = (k 1).val; rw [e1, hk1]; omega

/-- The second row operand's block at point t is the same rows of its array. -/
theorem iblk3_1_apply (c : Dev nD) (t : Fin cfg3.N) (y : S8000x128.Idx) (k : S200000x128.Idx)
    (hk0 : (k 0).val = t.val * 8000 + (y 0).val) (hk1 : (k 1).val = (y 1).val) :
    (iblk3 V c 1 t : Vec Ideal S8000x128 .f32) y = (V c main_v7 : S200000x128.Idx → EReal) k := by
  obtain ⟨-, -, e0, e1, -⟩ := idx3 t
  unfold iblk3
  rw [View.read_apply]
  show V c main_v7 _ = _
  congr 1
  funext a
  apply Fin.ext
  match a with
  | ⟨0, _⟩ => show win3_1.index t 0 * 8000 + 1 * (y 0).val = (k 0).val; rw [e0, hk0]; omega
  | ⟨1, _⟩ => show win3_1.index t 1 * 128 + 1 * (y 1).val = (k 1).val; rw [e1, hk1]; omega

/-- The weight's block at every point is the whole weight. -/
theorem iblk3_2_apply (c : Dev nD) (t : Fin cfg3.N) (y : S128x128.Idx) (k : S128x128.Idx)
    (hk0 : (k 0).val = (y 0).val) (hk1 : (k 1).val = (y 1).val) :
    (iblk3 V c 2 t : Vec Ideal S128x128 .f32) y = (V c main_arg4 : S128x128.Idx → EReal) k := by
  obtain ⟨-, -, -, -, e0, e1, -⟩ := idx3 t
  unfold iblk3
  rw [View.read_apply]
  show V c main_arg4 _ = _
  congr 1
  funext a
  apply Fin.ext
  match a with
  | ⟨0, _⟩ => show win3_2.index t 0 * 128 + 1 * (y 0).val = (k 0).val; rw [e0, hk0]; omega
  | ⟨1, _⟩ => show win3_2.index t 1 * 128 + 1 * (y 1).val = (k 1).val; rw [e1, hk1]; omega

/-- The bias's block at every point is the whole bias. -/
theorem iblk3_3_apply (c : Dev nD) (t : Fin cfg3.N) (y : S128.Idx) (k : S128.Idx)
    (hk0 : (k 0).val = (y 0).val) :
    (iblk3 V c 3 t : Vec Ideal S128 .f32) y = (V c main_arg5 : S128.Idx → EReal) k := by
  obtain ⟨-, -, -, -, -, -, e0, -⟩ := idx3 t
  unfold iblk3
  rw [View.read_apply]
  show V c main_arg5 _ = _
  congr 1
  funext a
  apply Fin.ext
  match a with
  | ⟨0, _⟩ => show win3_3.index t 0 * 128 + 1 * (y 0).val = (k 0).val; rw [e0, hk0]; omega

/-- Row r of the rectified layer depends on row r of the row operands only: a row tile of the layer of whole arrays is the
    layer of the matching row tiles, the weight and bias whole. -/
theorem lin_tile3 (A X : Mat 200000 128) (W : Mat 128 128) (B : Row 128)
    (a x : Mat 8000 128) (w : Mat 128 128) (b : Row 128) (t : ℕ)
    (ha : ∀ (y : S8000x128.Idx) (k : S200000x128.Idx), (k 0).val = t * 8000 + (y 0).val → (k 1).val = (y 1).val → a y = A k)
    (hx : ∀ (y : S8000x128.Idx) (k : S200000x128.Idx), (k 0).val = t * 8000 + (y 0).val → (k 1).val = (y 1).val → x y = X k)
    (hw : ∀ (y k : S128x128.Idx), (k 0).val = (y 0).val → (k 1).val = (y 1).val → w y = W k)
    (hb : ∀ (y k : S128.Idx), (k 0).val = (y 0).val → b y = B k)
    (j : S8000x128.Idx) (e : S200000x128.Idx) (he0 : (e 0).val = t * 8000 + (j 0).val) (he1 : (e 1).val = (j 1).val) :
    relu (lin (plus a x) w b) j = relu (lin (plus A X) W B) e := by
  show max ((∑ k : Fin 128, (a (ix2 (j 0) k) + x (ix2 (j 0) k)) * w (ix2 (j 1) k)) + b (ix1 (j 1))) 0
     = max ((∑ k : Fin 128, (A (ix2 (e 0) k) + X (ix2 (e 0) k)) * W (ix2 (e 1) k)) + B (ix1 (e 1))) 0
  congr 1
  congr 1
  · refine Finset.sum_congr rfl fun k _ => ?_
    congr 1
    · congr 1
      · exact ha _ _ he0 rfl
      · exact hx _ _ he0 rfl
    · exact hw _ _ he1 rfl
  · exact hb _ _ he1

/-- What point t writes back is block t of the layer of the whole arrays: row r of the layer depends on row r of the
    row operands only. -/
theorem flushed3_eq (c : Dev nD) (t : Fin cfg3.N) :
    (dat3 V c).flushed 4 t = ((cfg3.win 4).blk t).view.read (Elt Ideal)
      (relu (lin (plus (V c main_v26) (V c main_v7)) (V c main_arg4) (V c main_arg5))) := by
  show (cfg3.win 4).cut (grid3.coords t) ((dat3 V c).after 4 t) = _
  rw [after3_4]
  unfold out3_4
  rw [View.canon_unit_zero hz3]
  simp only [View.ld_unit_zero (S := S8000x128) hz3, View.ld_unit_zero (S := S128x128) hz3,
    View.ld_unit_zero (S := S128) hz3']
  rw [pay3_eq]
  obtain ⟨-, -, -, -, -, -, -, e0, e1⟩ := idx3 t
  funext j
  rw [View.read_apply]
  -- where block t's entry j sits in the array: row 8000·t + j₀, column j₁
  have he0 : ((((cfg3.win 4).blk t).view.emb j) 0).val = t.val * 8000 + (j 0).val := by
    show win3_4.index t 0 * 8000 + 1 * (j 0).val = _
    rw [e0]; omega
  have he1 : ((((cfg3.win 4).blk t).view.emb j) 1).val = (j 1).val := by
    show win3_4.index t 1 * 128 + 1 * (j 1).val = _
    rw [e1]; omega
  exact lin_tile3 (V c main_v26) (V c main_v7) (V c main_arg4) (V c main_arg5)
    (iblk3 V c 0 t) (iblk3 V c 1 t) (iblk3 V c 2 t) (iblk3 V c 3 t) t.val
    (iblk3_0_apply V c t) (iblk3_1_apply V c t) (iblk3_2_apply V c t) (iblk3_3_apply V c t) j _ he0 he1

/-- An index of the array is in point t's block iff each coordinate is in the block's range on its axis. -/
theorem mem_blk3 (t : Fin cfg3.N) (i : S200000x128.Idx) :
    i ∈ ((cfg3.win 4).blk t).view.set ↔ ∀ a : Fin 2, win3_4.index t a * S8000x128.size a ≤ (i a).val
      ∧ (i a).val < win3_4.index t a * S8000x128.size a + S8000x128.size a := by
  show i ∈ ((View.whole main_v27).slice (win3_4.rect t)).set ↔ _
  rw [View.set_slice_whole, Rect.mem_set_unit]
  exact Iff.rfl

/-- Every row r of the array is in the block of point r / 8000. -/
theorem cover3 (i : S200000x128.Idx) :
    ∃ t : Fin cfg3.N, (cfg3.win 4).flush t = true ∧ i ∈ ((cfg3.win 4).blk t).view.set := by
  have hi0 : (i 0).val < 200000 := (i 0).isLt
  have hi1 : (i 1).val < 128 := (i 1).isLt
  have hN : cfg3.N = 25 := N_3
  have ht : (i 0).val / 8000 < cfg3.N := by rw [hN]; omega
  obtain ⟨-, -, -, -, -, -, -, e0, e1⟩ := idx3 ⟨(i 0).val / 8000, ht⟩
  refine ⟨⟨(i 0).val / 8000, ht⟩, flush3_4 _, ?_⟩
  rw [mem_blk3]
  intro a
  match a with
  | ⟨0, _⟩ =>
    show win3_4.index ⟨(i 0).val / 8000, ht⟩ 0 * 8000 ≤ (i 0).val
      ∧ (i 0).val < win3_4.index ⟨(i 0).val / 8000, ht⟩ 0 * 8000 + 8000
    rw [e0]
    show (i 0).val / 8000 * 8000 ≤ (i 0).val ∧ (i 0).val < (i 0).val / 8000 * 8000 + 8000
    omega
  | ⟨1, _⟩ =>
    show win3_4.index ⟨(i 0).val / 8000, ht⟩ 1 * 128 ≤ (i 1).val
      ∧ (i 1).val < win3_4.index ⟨(i 0).val / 8000, ht⟩ 1 * 128 + 128
    rw [e1]
    omega

/-- After the region its result array is the layer of the arrays the region found. -/
theorem final3 (c : Dev nD) :
    (dat3 V c).arrAt 4 cfg3.N = relu (lin (plus (V c main_v26) (V c main_v7)) (V c main_arg4) (V c main_arg5)) := by
  exact (dat3 V c).arrAt_eq_of_cover 4 (relu (lin (plus (V c main_v26) (V c main_v7)) (V c main_arg4) (V c main_arg5)))
    (fun t _ => flushed3_eq V c t) cover3

end Cert.KernelIdeal.Hand

end
-- ==== Proof.Region4.lean ====
/-
  The second message: the rectifier of the gathered source features plus the edge attributes, entry by entry, tiled by
  rows (120 tiles of 5000 edges):  out(e, q) = max (a(e,q) + b(e,q), 0).
-/
import proofs.«154361_j8684423873312_1_alg».proof.Proof.Gen.KernelIdeal.Frame
import proofs.«154361_j8684423873312_1_alg».proof.Proof.Layers
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.Gnn

-- the buffer contents the region is entered from: a parameter
variable (V : (c : Dev nD) → (b : Ref sig .tc) → Buf (Elt Ideal) ((c : Thread nD τ).loc b))

/-- The zero offsets of a whole staging buffer. -/
theorem reluAdd4_zeroOff : (![0, 0] : Fin 2 → Nat) = fun _ => 0 := funext fun a => by fin_cases a <;> rfl

/-- The body's arithmetic on its two loaded tiles is the rectifier of their entrywise sum. -/
theorem reluAdd4_pay (x y : Vec Ideal S5000x128 .f32) : k4_pay1 x y = relu (plus x y) := by
  funext i
  unfold k4_pay1
  -- the casts to the same shape are the identity; the compared constant is the real 0
  rw [shapeCast_self, shapeCast_self]
  show max (x i + y i) (Ideal.ofBits .f32 0x00000000#32) = max (x i + y i) 0
  rw [Ideal.ofBits_zero_f32]

/-- The index maps over the 120 tiles: tile t of each of the three arrays is its row block t, column block 0. -/
theorem reluAdd4_tiles : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What tile t writes back is tile t of the rectifier of the sum of the two whole arrays: the three windows are tiled
    alike, so the entry (r, q) of the output tile is computed from the entries (5000 t + r, q) of both inputs. -/
theorem reluAdd4_flushed (c : Dev nD) (t : Fin cfg4.N) :
    (dat4 V c).flushed 2 t
      = ((cfg4.win 2).blk t).view.read (Elt Ideal) (relu (plus (V c main_v34) (V c main_v11))) := by
  show (cfg4.win 2).cut (grid4.coords t) ((dat4 V c).after 2 t) = _
  rw [after4_2]
  unfold out4_2
  rw [View.canon_unit_zero reluAdd4_zeroOff]
  simp only [View.ld_unit_zero (S := S5000x128) reluAdd4_zeroOff]
  rw [reluAdd4_pay]
  obtain ⟨e0, e1, e2, e3, e4, e5⟩ := reluAdd4_tiles t
  funext j
  -- a tile's entry sits in its array at (block index × tile extent + the coordinate inside the tile), per axis
  have h0 : ((cfg4.win 0).blk t).view.emb j = ((cfg4.win 2).blk t).view.emb j := by
    funext a; apply Fin.ext
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 128 + 1 * (j 1).val = win4_2.index t (1 : Fin 2) * 128 + 1 * (j 1).val; omega
  have h1 : ((cfg4.win 1).blk t).view.emb j = ((cfg4.win 2).blk t).view.emb j := by
    funext a; apply Fin.ext
    match a with
    | ⟨0, _⟩ => show win4_1.index t (0 : Fin 2) * 5000 + 1 * (j 0).val = win4_2.index t (0 : Fin 2) * 5000 + 1 * (j 0).val; omega
    | ⟨1, _⟩ => show win4_1.index t (1 : Fin 2) * 128 + 1 * (j 1).val = win4_2.index t (1 : Fin 2) * 128 + 1 * (j 1).val; omega
  -- both sides are max (a + b, 0), the left at the inputs' positions, the right at the output's
  have both : ∀ (A B : Mat 600000 128) (p0 p1 p2 : S600000x128.Idx), p0 = p2 → p1 = p2 →
      max (A p0 + B p1) 0 = max (A p2 + B p2) 0 := by
    intro A B p0 p1 p2 q0 q1
    rw [q0, q1]
  exact both (V c main_v34) (V c main_v11) (((cfg4.win 0).blk t).view.emb j) (((cfg4.win 1).blk t).view.emb j)
    (((cfg4.win 2).blk t).view.emb j) h0 h1

/-- An entry of the output array is in tile t iff each coordinate is in the tile's range on its axis. -/
theorem reluAdd4_memTile (t : Fin cfg4.N) (i : S600000x128.Idx) :
    i ∈ ((cfg4.win 2).blk t).view.set ↔ ∀ a : Fin 2, win4_2.index t a * S5000x128.size a ≤ (i a).val
      ∧ (i a).val < win4_2.index t a * S5000x128.size a + S5000x128.size a := by
  show i ∈ ((View.whole main_v35).slice (win4_2.rect t)).set ↔ _
  rw [View.set_slice_whole, Rect.mem_set_unit]
  exact Iff.rfl

/-- The 120 tiles cover the output array: row r is in tile r / 5000. -/
theorem reluAdd4_cover (i : S600000x128.Idx) :
    ∃ t : Fin cfg4.N, (cfg4.win 2).flush t = true ∧ i ∈ ((cfg4.win 2).blk t).view.set := by
  have hi0 : (i 0).val < 600000 := (i 0).isLt
  have hi1 : (i 1).val < 128 := (i 1).isLt
  have hN : grid4.N = 120 := N_4
  have ht : (i 0).val / 5000 < cfg4.N := by show (i 0).val / 5000 < grid4.N; omega
  obtain ⟨-, -, -, -, e4, e5⟩ := reluAdd4_tiles ⟨(i 0).val / 5000, ht⟩
  refine ⟨⟨(i 0).val / 5000, ht⟩, flush4_2 _, ?_⟩
  rw [reluAdd4_memTile]
  intro a
  match a with
  | ⟨0, _⟩ =>
    show win4_2.index ⟨(i 0).val / 5000, ht⟩ (0 : Fin 2) * 5000 ≤ (i 0).val
      ∧ (i 0).val < win4_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win4_2.index ⟨(i 0).val / 5000, ht⟩ (1 : Fin 2) * 128 ≤ (i 1).val
      ∧ (i 1).val < win4_2.index ⟨(i 0).val / 5000, ht⟩ (1 : Fin 2) * 128 + 128
    rw [e5]
    omega

/-- After the region its result array is the layer of the arrays the region found. -/
theorem final4 (c : Dev nD) :
    (dat4 V c).arrAt 2 cfg4.N = relu (plus (V c main_v34) (V c main_v11)) :=
  (dat4 V c).arrAt_eq_of_cover 2 (relu (plus (V c main_v34) (V c main_v11))) (fun t _ => reluAdd4_flushed V c t) reluAdd4_cover

end Cert.KernelIdeal.Hand

end
-- ==== Proof.Region5.lean ====
/-
  The second convolution's update, tiled by rows (25 tiles of 8000 nodes): the aggregated messages plus the node
  features, through a linear layer (no rectifier):  out(r, q) = Σ_k (a(r,k) + x(r,k))·w(q,k) + b(q).
-/
import proofs.«154361_j8684423873312_1_alg».proof.Proof.Gen.KernelIdeal.Frame
import proofs.«154361_j8684423873312_1_alg».proof.Proof.Layers
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.Gnn

-- the buffer contents the region is entered from: a parameter
variable (V : (c : Dev nD) → (b : Ref sig .tc) → Buf (Elt Ideal) ((c : Thread nD τ).loc b))

theorem hz5 : (![0, 0] : Fin 2 → Nat) = fun _ => 0 := funext fun a => by fin_cases a <;> rfl

theorem hz5' : (![0] : Fin 1 → Nat) = fun _ => 0 := funext fun a => by fin_cases a; rfl

/-- The body's payload is the layer of its loaded blocks: the sum of the two row operands through x·wᵀ + b. -/
theorem pay5_eq (a x : Vec Ideal S8000x128 .f32) (w : Vec Ideal S128x128 .f32) (b : Vec Ideal S128 .f32) :
    k5_pay1 a x w b = lin (plus a x) w b := by
  funext i
  obtain ⟨p, q, rfl⟩ : ∃ p q, i = ix2 p q := ⟨i 0, i 1, eq_ix2 i⟩
  unfold k5_pay1
  rw [shapeCast_self, shapeCast_self]
  refine (addf_apply _ _ _).trans ?_
  rw [lin_apply]
  congr 1
  · exact matT_apply dot_S8000x128_S128x128_S8000x128_1_0_0_1_n_n rfl (addf a x) w bitsLt_bf16_f32
      transposes_S128x128_p1_0_S128x128 p q
  · exact biasRow_apply b shapeCasts_S128_S1x128 broadcasts_S1x128_S8000x128 p q

/-- The index maps, decided once over the grid: a row-tiled window's block index at point t is (t, 0), a whole
    operand's is zero. -/
theorem idx5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 1) = 0
    ∧ win5_4.index t (0 : Fin 2) = t.val ∧ win5_4.index t (1 : Fin 2) = 0 :=
  (by decide +kernel : ∀ t : Fin grid5.N, _)

example : Pipeline.arrRef spec5 0 = main_v38 := rfl
example : Pipeline.arrRef spec5 1 = main_v27 := rfl
example : Pipeline.arrRef spec5 2 = main_arg6 := rfl
example : Pipeline.arrRef spec5 3 = main_arg7 := rfl
example : Pipeline.arrRef spec5 4 = main_v39 := rfl

/-- The first row operand's block at point t is rows 8000·t … 8000·t + 7999 of its array. -/
theorem iblk5_0_apply (c : Dev nD) (t : Fin cfg5.N) (y : S8000x128.Idx) (k : S200000x128.Idx)
    (hk0 : (k 0).val = t.val * 8000 + (y 0).val) (hk1 : (k 1).val = (y 1).val) :
    (iblk5 V c 0 t : Vec Ideal S8000x128 .f32) y = (V c main_v38 : S200000x128.Idx → EReal) k := by
  obtain ⟨e0, e1, -⟩ := idx5 t
  unfold iblk5
  rw [View.read_apply]
  show V c main_v38 _ = _
  congr 1
  funext a
  apply Fin.ext
  match a with
  | ⟨0, _⟩ => show win5_0.index t 0 * 8000 + 1 * (y 0).val = (k 0).val; rw [e0, hk0]; omega
  | ⟨1, _⟩ => show win5_0.index t 1 * 128 + 1 * (y 1).val = (k 1).val; rw [e1, hk1]; omega

/-- The second row operand's block at point t is the same rows of its array. -/
theorem iblk5_1_apply (c : Dev nD) (t : Fin cfg5.N) (y : S8000x128.Idx) (k : S200000x128.Idx)
    (hk0 : (k 0).val = t.val * 8000 + (y 0).val) (hk1 : (k 1).val = (y 1).val) :
    (iblk5 V c 1 t : Vec Ideal S8000x128 .f32) y = (V c main_v27 : S200000x128.Idx → EReal) k := by
  obtain ⟨-, -, e0, e1, -⟩ := idx5 t
  unfold iblk5
  rw [View.read_apply]
  show V c main_v27 _ = _
  congr 1
  funext a
  apply Fin.ext
  match a with
  | ⟨0, _⟩ => show win5_1.index t 0 * 8000 + 1 * (y 0).val = (k 0).val; rw [e0, hk0]; omega
  | ⟨1, _⟩ => show win5_1.index t 1 * 128 + 1 * (y 1).val = (k 1).val; rw [e1, hk1]; omega

/-- The weight's block at every point is the whole weight. -/
theorem iblk5_2_apply (c : Dev nD) (t : Fin cfg5.N) (y : S128x128.Idx) (k : S128x128.Idx)
    (hk0 : (k 0).val = (y 0).val) (hk1 : (k 1).val = (y 1).val) :
    (iblk5 V c 2 t : Vec Ideal S128x128 .f32) y = (V c main_arg6 : S128x128.Idx → EReal) k := by
  obtain ⟨-, -, -, -, e0, e1, -⟩ := idx5 t
  unfold iblk5
  rw [View.read_apply]
  show V c main_arg6 _ = _
  congr 1
  funext a
  apply Fin.ext
  match a with
  | ⟨0, _⟩ => show win5_2.index t 0 * 128 + 1 * (y 0).val = (k 0).val; rw [e0, hk0]; omega
  | ⟨1, _⟩ => show win5_2.index t 1 * 128 + 1 * (y 1).val = (k 1).val; rw [e1, hk1]; omega

/-- The bias's block at every point is the whole bias. -/
theorem iblk5_3_apply (c : Dev nD) (t : Fin cfg5.N) (y : S128.Idx) (k : S128.Idx)
    (hk0 : (k 0).val = (y 0).val) :
    (iblk5 V c 3 t : Vec Ideal S128 .f32) y = (V c main_arg7 : S128.Idx → EReal) k := by
  obtain ⟨-, -, -, -, -, -, e0, -⟩ := idx5 t
  unfold iblk5
  rw [View.read_apply]
  show V c main_arg7 _ = _
  congr 1
  funext a
  apply Fin.ext
  match a with
  | ⟨0, _⟩ => show win5_3.index t 0 * 128 + 1 * (y 0).val = (k 0).val; rw [e0, hk0]; omega

/-- Row r of the layer depends on row r of the row operands only: a row tile of the layer of whole arrays is the layer of
    the matching row tiles, the weight and bias whole. -/
theorem lin_tile5 (A X : Mat 200000 128) (W : Mat 128 128) (B : Row 128)
    (a x : Mat 8000 128) (w : Mat 128 128) (b : Row 128) (t : ℕ)
    (ha : ∀ (y : S8000x128.Idx) (k : S200000x128.Idx), (k 0).val = t * 8000 + (y 0).val → (k 1).val = (y 1).val → a y = A k)
    (hx : ∀ (y : S8000x128.Idx) (k : S200000x128.Idx), (k 0).val = t * 8000 + (y 0).val → (k 1).val = (y 1).val → x y = X k)
    (hw : ∀ (y k : S128x128.Idx), (k 0).val = (y 0).val → (k 1).val = (y 1).val → w y = W k)
    (hb : ∀ (y k : S128.Idx), (k 0).val = (y 0).val → b y = B k)
    (j : S8000x128.Idx) (e : S200000x128.Idx) (he0 : (e 0).val = t * 8000 + (j 0).val) (he1 : (e 1).val = (j 1).val) :
    lin (plus a x) w b j = lin (plus A X) W B e := by
  show (∑ k : Fin 128, (a (ix2 (j 0) k) + x (ix2 (j 0) k)) * w (ix2 (j 1) k)) + b (ix1 (j 1))
     = (∑ k : Fin 128, (A (ix2 (e 0) k) + X (ix2 (e 0) k)) * W (ix2 (e 1) k)) + B (ix1 (e 1))
  congr 1
  · refine Finset.sum_congr rfl fun k _ => ?_
    congr 1
    · congr 1
      · exact ha _ _ he0 rfl
      · exact hx _ _ he0 rfl
    · exact hw _ _ he1 rfl
  · exact hb _ _ he1

/-- What point t writes back is block t of the layer of the whole arrays: row r of the layer depends on row r of the
    row operands only. -/
theorem flushed5_eq (c : Dev nD) (t : Fin cfg5.N) :
    (dat5 V c).flushed 4 t = ((cfg5.win 4).blk t).view.read (Elt Ideal)
      (lin (plus (V c main_v38) (V c main_v27)) (V c main_arg6) (V c main_arg7)) := by
  show (cfg5.win 4).cut (grid5.coords t) ((dat5 V c).after 4 t) = _
  rw [after5_4]
  unfold out5_4
  rw [View.canon_unit_zero hz5]
  simp only [View.ld_unit_zero (S := S8000x128) hz5, View.ld_unit_zero (S := S128x128) hz5,
    View.ld_unit_zero (S := S128) hz5']
  rw [pay5_eq]
  obtain ⟨-, -, -, -, -, -, -, e0, e1⟩ := idx5 t
  funext j
  rw [View.read_apply]
  -- where block t's entry j sits in the array: row 8000·t + j₀, column j₁
  have he0 : ((((cfg5.win 4).blk t).view.emb j) 0).val = t.val * 8000 + (j 0).val := by
    show win5_4.index t 0 * 8000 + 1 * (j 0).val = _
    rw [e0]; omega
  have he1 : ((((cfg5.win 4).blk t).view.emb j) 1).val = (j 1).val := by
    show win5_4.index t 1 * 128 + 1 * (j 1).val = _
    rw [e1]; omega
  exact lin_tile5 (V c main_v38) (V c main_v27) (V c main_arg6) (V c main_arg7)
    (iblk5 V c 0 t) (iblk5 V c 1 t) (iblk5 V c 2 t) (iblk5 V c 3 t) t.val
    (iblk5_0_apply V c t) (iblk5_1_apply V c t) (iblk5_2_apply V c t) (iblk5_3_apply V c t) j _ he0 he1

/-- An index of the array is in point t's block iff each coordinate is in the block's range on its axis. -/
theorem mem_blk5 (t : Fin cfg5.N) (i : S200000x128.Idx) :
    i ∈ ((cfg5.win 4).blk t).view.set ↔ ∀ a : Fin 2, win5_4.index t a * S8000x128.size a ≤ (i a).val
      ∧ (i a).val < win5_4.index t a * S8000x128.size a + S8000x128.size a := by
  show i ∈ ((View.whole main_v39).slice (win5_4.rect t)).set ↔ _
  rw [View.set_slice_whole, Rect.mem_set_unit]
  exact Iff.rfl

/-- Every row r of the array is in the block of point r / 8000. -/
theorem cover5 (i : S200000x128.Idx) :
    ∃ t : Fin cfg5.N, (cfg5.win 4).flush t = true ∧ i ∈ ((cfg5.win 4).blk t).view.set := by
  have hi0 : (i 0).val < 200000 := (i 0).isLt
  have hi1 : (i 1).val < 128 := (i 1).isLt
  have hN : cfg5.N = 25 := N_5
  have ht : (i 0).val / 8000 < cfg5.N := by rw [hN]; omega
  obtain ⟨-, -, -, -, -, -, -, e0, e1⟩ := idx5 ⟨(i 0).val / 8000, ht⟩
  refine ⟨⟨(i 0).val / 8000, ht⟩, flush5_4 _, ?_⟩
  rw [mem_blk5]
  intro a
  match a with
  | ⟨0, _⟩ =>
    show win5_4.index ⟨(i 0).val / 8000, ht⟩ 0 * 8000 ≤ (i 0).val
      ∧ (i 0).val < win5_4.index ⟨(i 0).val / 8000, ht⟩ 0 * 8000 + 8000
    rw [e0]
    show (i 0).val / 8000 * 8000 ≤ (i 0).val ∧ (i 0).val < (i 0).val / 8000 * 8000 + 8000
    omega
  | ⟨1, _⟩ =>
    show win5_4.index ⟨(i 0).val / 8000, ht⟩ 1 * 128 ≤ (i 1).val
      ∧ (i 1).val < win5_4.index ⟨(i 0).val / 8000, ht⟩ 1 * 128 + 128
    rw [e1]
    omega

/-- After the region its result array is the layer of the arrays the region found. -/
theorem final5 (c : Dev nD) :
    (dat5 V c).arrAt 4 cfg5.N = lin (plus (V c main_v38) (V c main_v27)) (V c main_arg6) (V c main_arg7) := by
  exact (dat5 V c).arrAt_eq_of_cover 4 (lin (plus (V c main_v38) (V c main_v27)) (V c main_arg6) (V c main_arg7))
    (fun t _ => flushed5_eq V c t) cover5

end Cert.KernelIdeal.Hand

end
-- ==== Proof.KChainB.lean ====
/-
  The two graph convolutions: each message array (regions 2 and 4), each aggregated update (regions 3 and 5) of the kernel
  program holds the reference's stage of the launch arguments. The gathers and the scatter-adds between the regions are the
  same host operations in both programs, applied to equal arrays.
-/
import proofs.«154361_j8684423873312_1_alg».proof.Proof.KChainA
import proofs.«154361_j8684423873312_1_alg».proof.Proof.Region2
import proofs.«154361_j8684423873312_1_alg».proof.Proof.Region3
import proofs.«154361_j8684423873312_1_alg».proof.Proof.Region4
import proofs.«154361_j8684423873312_1_alg».proof.Proof.Region5

set_option maxRecDepth 16384

noncomputable section

open Idealize.ShloMosaic Idealize.ShloMosaic.TcCoe Idealize.SL.Sem Idealize.ShloMosaic.ValueIdx

namespace Cert.KernelIdeal.Hand

open Cert.KernelIdeal Cert.KernelIdeal.Gen Cert.Gnn

variable (m : (ℓ : Loc nD τ sig) → Buf (Elt Ideal) ℓ) (ρ : Dev nD → PrngReg)

/-! ## The launch arguments, walked back to the launch -/

/-- The edge index table is still as launched when the stretch before region 2 starts. -/
theorem w4_arg17 (c : Dev nD) : W4 m ρ c (Proc.devRef .tc main_arg17) = a17 m c := by
  refine (W4_of_ne m ρ c main_arg17 (by decide)).trans ?_
  host_keep hostOps1
  refine (W2_of_ne m ρ c main_arg17 (by decide)).trans ?_
  host_keep hostOps0
  rfl

/-- Argument 4 is still as launched when region 3 is entered: nothing before writes it. -/
theorem w7_arg4 (c : Dev nD) : W7 m ρ c (Proc.devRef .tc main_arg4) = a4 m c := by
  host_keep hostOps3
  refine (W6_of_ne m ρ c main_arg4 (by decide)).trans ?_
  host_keep hostOps2
  refine (W4_of_ne m ρ c main_arg4 (by decide)).trans ?_
  host_keep hostOps1
  refine (W2_of_ne m ρ c main_arg4 (by decide)).trans ?_
  host_keep hostOps0
  rfl

/-- Argument 5 is still as launched when region 3 is entered: nothing before writes it. -/
theorem w7_arg5 (c : Dev nD) : W7 m ρ c (Proc.devRef .tc main_arg5) = a5 m c := by
  host_keep hostOps3
  refine (W6_of_ne m ρ c main_arg5 (by decide)).trans ?_
  host_keep hostOps2
  refine (W4_of_ne m ρ c main_arg5 (by decide)).trans ?_
  host_keep hostOps1
  refine (W2_of_ne m ρ c main_arg5 (by decide)).trans ?_
  host_keep hostOps0
  rfl

/-- Argument 6 is still as launched when region 3 is entered: nothing before writes it. -/
theorem w7_arg6 (c : Dev nD) : W7 m ρ c (Proc.devRef .tc main_arg6) = a6 m c := by
  host_keep hostOps3
  refine (W6_of_ne m ρ c main_arg6 (by decide)).trans ?_
  host_keep hostOps2
  refine (W4_of_ne m ρ c main_arg6 (by decide)).trans ?_
  host_keep hostOps1
  refine (W2_of_ne m ρ c main_arg6 (by decide)).trans ?_
  host_keep hostOps0
  rfl

/-- Argument 7 is still as launched when region 3 is entered: nothing before writes it. -/
theorem w7_arg7 (c : Dev nD) : W7 m ρ c (Proc.devRef .tc main_arg7) = a7 m c := by
  host_keep hostOps3
  refine (W6_of_ne m ρ c main_arg7 (by decide)).trans ?_
  host_keep hostOps2
  refine (W4_of_ne m ρ c main_arg7 (by decide)).trans ?_
  host_keep hostOps1
  refine (W2_of_ne m ρ c main_arg7 (by decide)).trans ?_
  host_keep hostOps0
  rfl

/-- Argument 6 is still as launched when region 5 is entered. -/
theorem w11_arg6 (c : Dev nD) : W11 m ρ c (Proc.devRef .tc main_arg6) = a6 m c := by
  host_keep hostOps5
  refine (W10_of_ne m ρ c main_arg6 (by decide)).trans ?_
  host_keep hostOps4
  refine (W8_of_ne m ρ c main_arg6 (by decide)).trans ?_
  exact w7_arg6 m ρ c

/-- Argument 7 is still as launched when region 5 is entered. -/
theorem w11_arg7 (c : Dev nD) : W11 m ρ c (Proc.devRef .tc main_arg7) = a7 m c := by
  host_keep hostOps5
  refine (W10_of_ne m ρ c main_arg7 (by decide)).trans ?_
  host_keep hostOps4
  refine (W8_of_ne m ρ c main_arg7 (by decide)).trans ?_
  exact w7_arg7 m ρ c

/-! ## The source and the destination index rows: written once, before region 2, and read three times -/

/-- The source row: row 0 of the index table, as the reference slices and reshapes it. -/
theorem w5_v13 (c : Dev nD) : W5 m ρ c (Proc.devRef .tc main_v13) = Cert.ReferenceIdeal.Read.val_main_v25 (F := Ideal) (a17 m c) := by
  show StableHlo.after hostOps2 (W4 m ρ c) (Proc.devRef .tc main_v13) = _
  after_results
  rw [w4_arg17 m ρ c]
  rfl

/-- The destination row: row 1 of the index table. -/
theorem w5_v15 (c : Dev nD) : W5 m ρ c (Proc.devRef .tc main_v15) = Cert.ReferenceIdeal.Read.val_main_v27 (F := Ideal) (a17 m c) := by
  show StableHlo.after hostOps2 (W4 m ρ c) (Proc.devRef .tc main_v15) = _
  after_results
  rw [w4_arg17 m ρ c]
  rfl

theorem w6_v13 (c : Dev nD) : W6 m ρ c (Proc.devRef .tc main_v13) = Cert.ReferenceIdeal.Read.val_main_v25 (F := Ideal) (a17 m c) :=
  (W6_of_ne m ρ c main_v13 (by decide)).trans (w5_v13 m ρ c)

theorem w6_v15 (c : Dev nD) : W6 m ρ c (Proc.devRef .tc main_v15) = Cert.ReferenceIdeal.Read.val_main_v27 (F := Ideal) (a17 m c) :=
  (W6_of_ne m ρ c main_v15 (by decide)).trans (w5_v15 m ρ c)

theorem w8_v13 (c : Dev nD) : W8 m ρ c (Proc.devRef .tc main_v13) = Cert.ReferenceIdeal.Read.val_main_v25 (F := Ideal) (a17 m c) := by
  refine (W8_of_ne m ρ c main_v13 (by decide)).trans ?_
  host_keep hostOps3
  exact w6_v13 m ρ c

theorem w8_v15 (c : Dev nD) : W8 m ρ c (Proc.devRef .tc main_v15) = Cert.ReferenceIdeal.Read.val_main_v27 (F := Ideal) (a17 m c) := by
  refine (W8_of_ne m ρ c main_v15 (by decide)).trans ?_
  host_keep hostOps3
  exact w6_v15 m ρ c

theorem w10_v15 (c : Dev nD) : W10 m ρ c (Proc.devRef .tc main_v15) = Cert.ReferenceIdeal.Read.val_main_v27 (F := Ideal) (a17 m c) := by
  refine (W10_of_ne m ρ c main_v15 (by decide)).trans ?_
  host_keep hostOps4
  exact w8_v15 m ρ c

/-! ## The node projection and the edge projection, carried to where they are read again -/

/-- The node projection when the stretch before region 2 starts. -/
theorem w4_v7 (c : Dev nD) : W4 m ρ c (Proc.devRef .tc main_v7) = t18 m c := by
  refine (W4_of_ne m ρ c main_v7 (by decide)).trans ?_
  host_keep hostOps1
  exact kv7 m ρ c

/-- The node projection when region 3 is entered. -/
theorem w7_v7 (c : Dev nD) : W7 m ρ c (Proc.devRef .tc main_v7) = t18 m c := by
  host_keep hostOps3
  refine (W6_of_ne m ρ c main_v7 (by decide)).trans ?_
  host_keep hostOps2
  exact w4_v7 m ρ c

/-- The edge projection when region 2 is entered. -/
theorem w5_v11 (hpre : Cert.Pre_KernelIdeal (hPre_finite_inputs := Cert.Pre_finite_inputs.Gen.facts) m) (c : Dev nD) : W5 m ρ c (Proc.devRef .tc main_v11) = t23 m c := by
  host_keep hostOps2
  exact kv11 m ρ hpre c

/-- Region 2 reads the edge projection and leaves it as it found it. -/
theorem w6_v11 (hpre : Cert.Pre_KernelIdeal (hPre_finite_inputs := Cert.Pre_finite_inputs.Gen.facts) m) (c : Dev nD) : W6 m ρ c (Proc.devRef .tc main_v11) = t23 m c := by
  refine ((W6_arr m ρ c 1).trans (((dat2 (V5 m ρ) c).arrAt_in 1 rfl _).trans (A_eq2 (V5 m ρ) c 1))).trans ?_
  exact w5_v11 m ρ hpre c

/-- The edge projection when region 4 is entered. -/
theorem w9_v11 (hpre : Cert.Pre_KernelIdeal (hPre_finite_inputs := Cert.Pre_finite_inputs.Gen.facts) m) (c : Dev nD) : W9 m ρ c (Proc.devRef .tc main_v11) = t23 m c := by
  host_keep hostOps4
  refine (W8_of_ne m ρ c main_v11 (by decide)).trans ?_
  host_keep hostOps3
  exact w6_v11 m ρ hpre c

/-! ## The first convolution -/

/-- The rows of the node projection gathered at the normalised sources: the same gather of equal arrays. -/
theorem w5_v22 (c : Dev nD) :
    W5 m ρ c (Proc.devRef .tc main_v22) = Cert.ReferenceIdeal.Read.val_main_v34 (F := Ideal) (a0 m c) (a2 m c) (a3 m c) (a14 m c) (a17 m c) := by
  show StableHlo.after hostOps2 (W4 m ρ c) (Proc.devRef .tc main_v22) = _
  after_results
  rw [w4_v7 m ρ c, w4_arg17 m ρ c]
  rfl

/-- After region 2: the first message. -/
theorem kv23 (hpre : Cert.Pre_KernelIdeal (hPre_finite_inputs := Cert.Pre_finite_inputs.Gen.facts) m) (c : Dev nD) :
    W6 m ρ c (Proc.devRef .tc main_v23) = t36 m c := by
  refine ((W6_arr m ρ c 2).trans (final2 (V5 m ρ) c)).trans ?_
  have e1 : V5 m ρ c main_v22 = _ := w5_v22 m ρ c
  have e2 : V5 m ρ c main_v11 = _ := w5_v11 m ρ hpre c
  rw [e1, e2]
  exact (Cert.ReferenceIdeal.Hand.r36 _ _ _ _ _ _ _).symm

/-- The messages summed into their destination rows: the same scatter-add of equal arrays. -/
theorem w7_v26 (hpre : Cert.Pre_KernelIdeal (hPre_finite_inputs := Cert.Pre_finite_inputs.Gen.facts) m) (c : Dev nD) :
    W7 m ρ c (Proc.devRef .tc main_v26) = Cert.ReferenceIdeal.Read.val_main_v39 (F := Ideal) (a0 m c) (a1 m c) (a2 m c) (a3 m c) (a14 m c) (a15 m c) (a17 m c) := by
  show StableHlo.after hostOps3 (W6 m ρ c) (Proc.devRef .tc main_v26) = _
  after_results
  rw [w6_v15 m ρ c, kv23 m ρ hpre c]
  rfl

/-- After region 3: the first convolution's output. -/
theorem kv27 (hpre : Cert.Pre_KernelIdeal (hPre_finite_inputs := Cert.Pre_finite_inputs.Gen.facts) m) (c : Dev nD) :
    W8 m ρ c (Proc.devRef .tc main_v27) = t46 m c := by
  refine ((W8_arr m ρ c 4).trans (final3 (V7 m ρ) c)).trans ?_
  have e1 : V7 m ρ c main_v26 = _ := w7_v26 m ρ hpre c
  have e2 : V7 m ρ c main_v7 = _ := w7_v7 m ρ c
  have e3 : V7 m ρ c main_arg4 = _ := w7_arg4 m ρ c
  have e4 : V7 m ρ c main_arg5 = _ := w7_arg5 m ρ c
  rw [e1, e2, e3, e4]
  exact (Cert.ReferenceIdeal.Hand.r46 _ _ _ _ _ _ _ _ _).symm

/-! ## The second convolution: the first again, one layer later -/

/-- The rows of the first convolution's output gathered at the normalised sources. -/
theorem w9_v34 (hpre : Cert.Pre_KernelIdeal (hPre_finite_inputs := Cert.Pre_finite_inputs.Gen.facts) m) (c : Dev nD) :
    W9 m ρ c (Proc.devRef .tc main_v34) = Cert.ReferenceIdeal.Read.val_main_v57 (F := Ideal) (a0 m c) (a1 m c) (a2 m c) (a3 m c) (a4 m c) (a5 m c) (a14 m c) (a15 m c) (a17 m c) := by
  show StableHlo.after hostOps4 (W8 m ρ c) (Proc.devRef .tc main_v34) = _
  after_results
  rw [kv27 m ρ hpre c, w8_v13 m ρ c]
  rfl

/-- After region 4: the second message. -/
theorem kv35 (hpre : Cert.Pre_KernelIdeal (hPre_finite_inputs := Cert.Pre_finite_inputs.Gen.facts) m) (c : Dev nD) :
    W10 m ρ c (Proc.devRef .tc main_v35) = t59 m c := by
  refine ((W10_arr m ρ c 2).trans (final4 (V9 m ρ) c)).trans ?_
  have e1 : V9 m ρ c main_v34 = _ := w9_v34 m ρ hpre c
  have e2 : V9 m ρ c main_v11 = _ := w9_v11 m ρ hpre c
  rw [e1, e2]
  exact (Cert.ReferenceIdeal.Hand.r59 _ _ _ _ _ _ _ _ _).symm

/-- The second messages summed into their destination rows. -/
theorem w11_v38 (hpre : Cert.Pre_KernelIdeal (hPre_finite_inputs := Cert.Pre_finite_inputs.Gen.facts) m) (c : Dev nD) :
    W11 m ρ c (Proc.devRef .tc main_v38) = Cert.ReferenceIdeal.Read.val_main_v62 (F := Ideal) (a0 m c) (a1 m c) (a2 m c) (a3 m c) (a4 m c) (a5 m c) (a14 m c) (a15 m c) (a17 m c) := by
  show StableHlo.after hostOps5 (W10 m ρ c) (Proc.devRef .tc main_v38) = _
  after_results
  rw [w10_v15 m ρ c, kv35 m ρ hpre c]
  rfl

/-- The first convolution's output when region 5 is entered. -/
theorem w11_v27 (hpre : Cert.Pre_KernelIdeal (hPre_finite_inputs := Cert.Pre_finite_inputs.Gen.facts) m) (c : Dev nD) : W11 m ρ c (Proc.devRef .tc main_v27) = t46 m c := by
  host_keep hostOps5
  refine (W10_of_ne m ρ c main_v27 (by decide)).trans ?_
  host_keep hostOps4
  exact kv27 m ρ hpre c

/-- After region 5: the second convolution's output. -/
theorem kv39 (hpre : Cert.Pre_KernelIdeal (hPre_finite_inputs := Cert.Pre_finite_inputs.Gen.facts) m) (c : Dev nD) :
    W12 m ρ c (Proc.devRef .tc main_v39) = t68 m c := by
  refine ((W12_arr m ρ c 4).trans (final5 (V11 m ρ) c)).trans ?_
  have e1 : V11 m ρ c main_v38 = _ := w11_v38 m ρ hpre c
  have e2 : V11 m ρ c main_v27 = _ := w11_v27 m ρ hpre c
  have e3 : V11 m ρ c main_arg6 = _ := w11_arg6 m ρ c
  have e4 : V11 m ρ c main_arg7 = _ := w11_arg7 m ρ c
  rw [e1, e2, e3, e4]
  exact (Cert.ReferenceIdeal.Hand.r68 _ _ _ _ _ _ _ _ _ _ _).symm

end Cert.KernelIdeal.Hand

end
-- ==== Proof.Region6.lean ====
/-
  The edge classifier, tiled by rows (120 tiles of 5000 edges): the source and destination features each against its
  half of the weight, added, plus the bias:  out(e, q) = (Σ_k s(e,k)·w(q,k) + Σ_k d(e,k)·v(q,k)) + b(q).
-/
import proofs.«154361_j8684423873312_1_alg».proof.Proof.Gen.KernelIdeal.Frame
import proofs.«154361_j8684423873312_1_alg».proof.Proof.Layers
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.Gnn

-- the buffer contents the region is entered from: a parameter
variable (V : (c : Dev nD) → (b : Ref sig .tc) → Buf (Elt Ideal) ((c : Thread nD τ).loc b))

/-- The zero offsets of a rank-2 whole-block rectangle, however spelt. -/
theorem hz6 : (![0, 0] : Fin 2 → Nat) = fun _ => 0 := funext fun a => by
  match a with
  | ⟨0, _⟩ => rfl
  | ⟨1, _⟩ => rfl

/-- The zero offset of a rank-1 whole-block rectangle. -/
theorem hz6' : (![0] : Fin 1 → Nat) = fun _ => 0 := funext fun a => by
  match a with
  | ⟨0, _⟩ => rfl

/-- The body's arithmetic on its loaded blocks is the two-operand linear layer of those blocks: each operand is
    narrowed (the identity over the extended reals), each weight transposed, the two products into zero added,
    and the bias row spread over the rows and added. -/
theorem pay6_eq (s d : Vec Ideal S5000x128 .f32) (w v : Vec Ideal S64x128 .f32) (b : Vec Ideal S64 .f32) :
    k6_pay1 s d w v b = lin2 (M := 5000) (K := 128) (N := 64) s d w v b := by
  funext i
  obtain ⟨p, q, rfl⟩ : ∃ p q, i = ix2 p q := ⟨i 0, i 1, eq_ix2 i⟩
  unfold k6_pay1
  simp only [shapeCast_self]
  rw [lin2_apply]
  refine (addf_apply _ _ _).trans ?_
  congr 1
  · refine (addf_apply _ _ _).trans ?_
    congr 1
    · exact matT_apply (M := 5000) (K := 128) (N := 64) _ rfl s w _ _ p q
    · exact matT_apply (M := 5000) (K := 128) (N := 64) _ rfl d v _ _ p q
  · exact biasRow_apply (M := 5000) (N := 64) b _ _ p q

/-- The index maps, decided once over the grid: the two row operands and the result move with the point along the
    rows, the weights and the bias stay at block 0. -/
theorem idx_facts6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 1) = 0
    ∧ win6_5.index t (0 : Fin 2) = t.val ∧ win6_5.index t (1 : Fin 2) = 0 :=
  (by decide +kernel : ∀ t : Fin grid6.N, _)

-- each window's array is the named array
example : Pipeline.arrRef spec6 0 = main_v46 := rfl
example : Pipeline.arrRef spec6 1 = main_v53 := rfl
example : Pipeline.arrRef spec6 2 = main_v54 := rfl
example : Pipeline.arrRef spec6 3 = main_v55 := rfl
example : Pipeline.arrRef spec6 4 = main_arg9 := rfl
example : Pipeline.arrRef spec6 5 = main_v56 := rfl

/-- The source operand's block at point t is rows 5000·t … 5000·t + 4999 of the array. -/
theorem iblk6_0_apply (c : Dev nD) (t : Fin cfg6.N) (y : S5000x128.Idx) (k : S600000x128.Idx)
    (hk0 : (k 0).val = t.val * 5000 + (y 0).val) (hk1 : (k 1).val = (y 1).val) :
    (iblk6 V c 0 t : Vec Ideal S5000x128 .f32) y = (V c main_v46 : S600000x128.Idx → EReal) k := by
  obtain ⟨e0, e1, -⟩ := idx_facts6 t
  unfold iblk6
  rw [View.read_apply]
  show V c main_v46 _ = _
  congr 1
  funext a
  apply Fin.ext
  match a with
  | ⟨0, _⟩ => show win6_0.index t 0 * 5000 + 1 * (y 0).val = (k 0).val; rw [e0, hk0]; omega
  | ⟨1, _⟩ => show win6_0.index t 1 * 128 + 1 * (y 1).val = (k 1).val; rw [e1, hk1]; omega

/-- The destination operand's block at point t is the same rows of its array. -/
theorem iblk6_1_apply (c : Dev nD) (t : Fin cfg6.N) (y : S5000x128.Idx) (k : S600000x128.Idx)
    (hk0 : (k 0).val = t.val * 5000 + (y 0).val) (hk1 : (k 1).val = (y 1).val) :
    (iblk6 V c 1 t : Vec Ideal S5000x128 .f32) y = (V c main_v53 : S600000x128.Idx → EReal) k := by
  obtain ⟨-, -, e0, e1, -⟩ := idx_facts6 t
  unfold iblk6
  rw [View.read_apply]
  show V c main_v53 _ = _
  congr 1
  funext a
  apply Fin.ext
  match a with
  | ⟨0, _⟩ => show win6_1.index t 0 * 5000 + 1 * (y 0).val = (k 0).val; rw [e0, hk0]; omega
  | ⟨1, _⟩ => show win6_1.index t 1 * 128 + 1 * (y 1).val = (k 1).val; rw [e1, hk1]; omega

/-- The first weight's block at every point is the whole weight. -/
theorem iblk6_2_apply (c : Dev nD) (t : Fin cfg6.N) (y : S64x128.Idx) :
    (iblk6 V c 2 t : Vec Ideal S64x128 .f32) y = (V c main_v54 : S64x128.Idx → EReal) y := by
  obtain ⟨-, -, -, -, e0, e1, -⟩ := idx_facts6 t
  unfold iblk6
  rw [View.read_apply]
  show V c main_v54 _ = _
  congr 1
  funext a
  apply Fin.ext
  match a with
  | ⟨0, _⟩ => show win6_2.index t 0 * 64 + 1 * (y 0).val = (y 0).val; rw [e0]; omega
  | ⟨1, _⟩ => show win6_2.index t 1 * 128 + 1 * (y 1).val = (y 1).val; rw [e1]; omega

/-- The second weight's block at every point is the whole weight. -/
theorem iblk6_3_apply (c : Dev nD) (t : Fin cfg6.N) (y : S64x128.Idx) :
    (iblk6 V c 3 t : Vec Ideal S64x128 .f32) y = (V c main_v55 : S64x128.Idx → EReal) y := by
  obtain ⟨-, -, -, -, -, -, e0, e1, -⟩ := idx_facts6 t
  unfold iblk6
  rw [View.read_apply]
  show V c main_v55 _ = _
  congr 1
  funext a
  apply Fin.ext
  match a with
  | ⟨0, _⟩ => show win6_3.index t 0 * 64 + 1 * (y 0).val = (y 0).val; rw [e0]; omega
  | ⟨1, _⟩ => show win6_3.index t 1 * 128 + 1 * (y 1).val = (y 1).val; rw [e1]; omega

/-- The bias's block at every point is the whole bias. -/
theorem iblk6_4_apply (c : Dev nD) (t : Fin cfg6.N) (y : S64.Idx) :
    (iblk6 V c 4 t : Vec Ideal S64 .f32) y = (V c main_arg9 : S64.Idx → EReal) y := by
  obtain ⟨-, -, -, -, -, -, -, -, e0, -⟩ := idx_facts6 t
  unfold iblk6
  rw [View.read_apply]
  show V c main_arg9 _ = _
  congr 1
  funext a
  apply Fin.ext
  match a with
  | ⟨0, _⟩ => show win6_4.index t 0 * 64 + 1 * (y 0).val = (y 0).val; rw [e0]; omega

/-- Row p of the layer depends on row p of the row operands only: the layer of the blocks at point t, at (p, q), is
    the layer of the arrays at (5000·t + p, q). -/
theorem tile6_eq (c : Dev nD) (t : Fin cfg6.N) (y : S5000x64.Idx) (i : S600000x64.Idx)
    (h0 : (i 0).val = t.val * 5000 + (y 0).val) (h1 : (i 1).val = (y 1).val) :
    lin2 (M := 5000) (K := 128) (N := 64) (iblk6 V c 0 t) (iblk6 V c 1 t) (iblk6 V c 2 t) (iblk6 V c 3 t) (iblk6 V c 4 t) y
      = lin2 (M := 600000) (K := 128) (N := 64) (V c main_v46) (V c main_v53) (V c main_v54) (V c main_v55) (V c main_arg9) i := by
  have hq : y 1 = i 1 := Fin.ext h1.symm
  unfold lin2
  congr 1
  · congr 1
    · refine Finset.sum_congr rfl fun k _ => ?_
      congr 1
      · exact iblk6_0_apply V c t _ _ h0 rfl
      · rw [hq]; exact iblk6_2_apply V c t _
    · refine Finset.sum_congr rfl fun k _ => ?_
      congr 1
      · exact iblk6_1_apply V c t _ _ h0 rfl
      · rw [hq]; exact iblk6_3_apply V c t _
  · rw [hq]; exact iblk6_4_apply V c t _

/-- What point t writes back is block t of the layer of the arrays the region found. -/
theorem flushed6_eq (c : Dev nD) (t : Fin cfg6.N) :
    (dat6 V c).flushed 5 t = ((cfg6.win 5).blk t).view.read (Elt Ideal)
      (lin2 (M := 600000) (K := 128) (N := 64) (V c main_v46) (V c main_v53) (V c main_v54) (V c main_v55) (V c main_arg9)) := by
  show (cfg6.win 5).cut (grid6.coords t) ((dat6 V c).after 5 t) = _
  rw [after6_5]
  unfold out6_5
  rw [View.canon_unit_zero hz6]
  simp only [View.ld_unit_zero (S := S5000x128) hz6, View.ld_unit_zero (S := S64x128) hz6, View.ld_unit_zero (S := S64) hz6']
  rw [pay6_eq]
  obtain ⟨-, -, -, -, -, -, -, -, -, e0, e1⟩ := idx_facts6 t
  funext j
  rw [View.read_apply]
  refine tile6_eq V c t j _ ?_ ?_
  · show win6_5.index t 0 * 5000 + 1 * (j 0).val = _; rw [e0]; omega
  · show win6_5.index t 1 * 64 + 1 * (j 1).val = _; rw [e1]; omega

/-- An index of the result array is in point t's block iff each coordinate is in the block's range on its axis. -/
theorem mem_blk6 (t : Fin cfg6.N) (i : S600000x64.Idx) :
    i ∈ ((cfg6.win 5).blk t).view.set ↔ ∀ a : Fin 2, win6_5.index t a * S5000x64.size a ≤ (i a).val ∧ (i a).val < win6_5.index t a * S5000x64.size a + S5000x64.size a := by
  show i ∈ ((View.whole main_v56).slice (win6_5.rect t)).set ↔ _
  rw [View.set_slice_whole, Rect.mem_set_unit]
  exact Iff.rfl

/-- Every row of the result is in some point's block: row r in that of point r / 5000. -/
theorem cover6 (i : S600000x64.Idx) :
    ∃ t : Fin cfg6.N, (cfg6.win 5).flush t = true ∧ i ∈ ((cfg6.win 5).blk t).view.set := by
  have hi0 : (i 0).val < 600000 := (i 0).isLt
  have hi1 : (i 1).val < 64 := (i 1).isLt
  have hN : cfg6.N = 120 := N_6
  let t : Fin cfg6.N := ⟨(i 0).val / 5000, by rw [hN]; omega⟩
  obtain ⟨-, -, -, -, -, -, -, -, -, e0, e1⟩ := idx_facts6 t
  have ht : t.val = (i 0).val / 5000 := rfl
  refine ⟨t, flush6_5 t, ?_⟩
  rw [mem_blk6]
  intro a
  match a with
  | ⟨0, _⟩ => show win6_5.index t 0 * 5000 ≤ (i 0).val ∧ (i 0).val < win6_5.index t 0 * 5000 + 5000; rw [e0, ht]; omega
  | ⟨1, _⟩ => show win6_5.index t 1 * 64 ≤ (i 1).val ∧ (i 1).val < win6_5.index t 1 * 64 + 64; rw [e1]; omega

/-- After the region its result array is the layer of the arrays the region found. -/
theorem final6 (c : Dev nD) :
    (dat6 V c).arrAt 5 cfg6.N = lin2 (V c main_v46) (V c main_v53) (V c main_v54) (V c main_v55) (V c main_arg9) := by
  exact (dat6 V c).arrAt_eq_of_cover 5 _ (fun t _ => flushed6_eq V c t) cover6

end Cert.KernelIdeal.Hand

end
-- ==== Proof.Region7.lean ====
/-
  The motif head: one tile of 256 centre rows against the whole weight and bias:
  out(r, q) = Σ_k x(r,k)·w(q,k) + b(q).
-/
import proofs.«154361_j8684423873312_1_alg».proof.Proof.Gen.KernelIdeal.Frame
import proofs.«154361_j8684423873312_1_alg».proof.Proof.Layers
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.Gnn

-- the buffer contents the region is entered from: a parameter
variable (V : (c : Dev nD) → (b : Ref sig .tc) → Buf (Elt Ideal) ((c : Thread nD τ).loc b))

/-- The zero offsets of a whole rank-2 block, however spelt. -/
private theorem hz : (![0, 0] : Fin 2 → Nat) = fun _ => 0 := funext fun a => by fin_cases a <;> rfl
/-- The zero offset of a whole rank-1 block. -/
private theorem hz1 : (![0] : Fin 1 → Nat) = fun _ => 0 := funext fun a => by fin_cases a <;> rfl

/-- The body's stored value is the linear layer of its three loaded blocks: the rows and the weight narrowed (the
    identity on the extended reals), the weight transposed, one product into zero, the bias spread over the rows. -/
theorem pay7_eq (x : Vec Ideal S256x128 .f32) (w : Vec Ideal S512x128 .f32) (b : Vec Ideal S512 .f32) :
    k7_pay1 x w b = lin x w b := by
  funext i
  obtain ⟨p, q, rfl⟩ : ∃ p q, i = ix2 p q := ⟨i 0, i 1, eq_ix2 i⟩
  unfold k7_pay1
  rw [shapeCast_self]
  refine (addf_apply _ _ _).trans ?_
  rw [lin_apply]
  congr 1
  · exact matT_apply dot_S256x128_S128x512_S256x512_1_0_0_1_n_n rfl x w bitsLt_bf16_f32
      transposes_S512x128_p1_0_S128x512 p q
  · exact biasRow_apply b shapeCasts_S512_S1x512 broadcasts_S1x512_S256x512 p q

/-- The index maps over the grid: the row operand and the result are at block (t, 0), the weight at (0, 0), the
    bias at (0). -/
theorem idx7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 1) = 0
    ∧ win7_3.index t (0 : Fin 2) = t.val ∧ win7_3.index t (1 : Fin 2) = 0 :=
  (by decide +kernel : ∀ t : Fin grid7.N, _)

/-- The row operand's one block is its whole array (the grid has the one point 0). -/
theorem iblk7_0_apply (c : Dev nD) (t : Fin cfg7.N) (y : S256x128.Idx) (k : S256x128.Idx)
    (hk0 : (k 0).val = t.val * 256 + (y 0).val) (hk1 : (k 1).val = (y 1).val) :
    (iblk7 V c 0 t : Vec Ideal S256x128 .f32) y = (V c main_v63 : S256x128.Idx → EReal) k := by
  obtain ⟨e0, e1, -⟩ := idx7 t
  unfold iblk7
  rw [View.read_apply]
  show V c main_v63 _ = _
  congr 1
  funext a
  apply Fin.ext
  match a with
  | ⟨0, _⟩ => show win7_0.index t 0 * 256 + 1 * (y 0).val = (k 0).val; rw [e0, hk0]; omega
  | ⟨1, _⟩ => show win7_0.index t 1 * 128 + 1 * (y 1).val = (k 1).val; rw [e1, hk1]; omega

/-- The weight's block at every point is the whole weight. -/
theorem iblk7_1_apply (c : Dev nD) (t : Fin cfg7.N) (y : S512x128.Idx) :
    (iblk7 V c 1 t : Vec Ideal S512x128 .f32) y = (V c main_arg10 : S512x128.Idx → EReal) y := by
  obtain ⟨-, -, e0, e1, -⟩ := idx7 t
  unfold iblk7
  rw [View.read_apply]
  show V c main_arg10 _ = _
  congr 1
  funext a
  apply Fin.ext
  match a with
  | ⟨0, _⟩ => show win7_1.index t 0 * 512 + 1 * (y 0).val = (y 0).val; rw [e0]; omega
  | ⟨1, _⟩ => show win7_1.index t 1 * 128 + 1 * (y 1).val = (y 1).val; rw [e1]; omega

/-- The bias's block at every point is the whole bias. -/
theorem iblk7_2_apply (c : Dev nD) (t : Fin cfg7.N) (y : S512.Idx) :
    (iblk7 V c 2 t : Vec Ideal S512 .f32) y = (V c main_arg11 : S512.Idx → EReal) y := by
  obtain ⟨-, -, -, -, e0, -⟩ := idx7 t
  unfold iblk7
  rw [View.read_apply]
  show V c main_arg11 _ = _
  congr 1
  funext a
  apply Fin.ext
  match a with
  | ⟨0, _⟩ => show win7_2.index t 0 * 512 + 1 * (y 0).val = (y 0).val; rw [e0]; omega

/-- Entry (p, q) of a linear layer reads row p of the row operand, row q of the weight and entry q of the bias only:
    where those agree, two layers' entries agree. -/
private theorem lin_congr {M M' K N N' : ℕ} (x : Mat M K) (X : Mat M' K) (w : Mat N K) (W : Mat N' K) (b : Row N) (B : Row N')
    (p : Fin M) (p' : Fin M') (q : Fin N) (q' : Fin N')
    (hx : ∀ k, x (ix2 p k) = X (ix2 p' k)) (hw : ∀ k, w (ix2 q k) = W (ix2 q' k)) (hb : b (ix1 q) = B (ix1 q')) :
    lin x w b (ix2 p q) = lin X W B (ix2 p' q') := by
  rw [lin_apply, lin_apply, hb]
  congr 1
  exact Finset.sum_congr rfl fun k _ => by rw [hx k, hw k]

/-- What point t writes back is block t of the linear layer of the whole arrays. -/
theorem flushed7_eq (c : Dev nD) (t : Fin cfg7.N) :
    (dat7 V c).flushed 3 t
      = ((cfg7.win 3).blk t).view.read (Elt Ideal) (lin (V c main_v63) (V c main_arg10) (V c main_arg11)) := by
  show (cfg7.win 3).cut (grid7.coords t) ((dat7 V c).after 3 t) = _
  rw [after7_3]
  unfold out7_3
  rw [View.canon_unit_zero hz]
  simp only [View.ld_unit_zero (S := S256x128) hz, View.ld_unit_zero (S := S512x128) hz,
    View.ld_unit_zero (S := S512) hz1]
  rw [pay7_eq]
  obtain ⟨-, -, -, -, -, e5, e6⟩ := idx7 t
  have hN : cfg7.N = 1 := N_7
  refine funext fun (j : S256x512.Idx) => ?_
  obtain ⟨p, q, rfl⟩ : ∃ p q, j = ix2 p q := ⟨j 0, j 1, eq_ix2 j⟩
  have hp : t.val * 256 + p.val < 256 := by have := t.isLt; have := p.isLt; omega
  -- the block's entry (p, q) sits at row 256·t + p, column q of the array
  have he : ((cfg7.win 3).blk t).view.emb (ix2 p q)
      = (ix2 (⟨t.val * 256 + p.val, hp⟩ : Fin 256) q : S256x512.Idx) := by
    funext a
    apply Fin.ext
    match a with
    | ⟨0, _⟩ => show win7_3.index t 0 * 256 + 1 * p.val = t.val * 256 + p.val; rw [e5]; omega
    | ⟨1, _⟩ => show win7_3.index t 1 * 512 + 1 * q.val = q.val; rw [e6]; omega
  show lin _ _ _ (ix2 p q) = lin _ _ _ (((cfg7.win 3).blk t).view.emb (ix2 p q))
  rw [he]
  exact lin_congr _ _ _ _ _ _ p _ q q (fun k => iblk7_0_apply V c t _ _ rfl rfl)
    (fun k => iblk7_1_apply V c t _) (iblk7_2_apply V c t _)

/-- An index of the array is in point t's block iff each coordinate is in the block's range on its axis. -/
theorem mem_blk7 (t : Fin cfg7.N) (i : S256x512.Idx) :
    i ∈ ((cfg7.win 3).blk t).view.set ↔ ∀ a : Fin 2, win7_3.index t a * S256x512.size a ≤ (i a).val
      ∧ (i a).val < win7_3.index t a * S256x512.size a + S256x512.size a := by
  show i ∈ ((View.whole main_v64).slice (win7_3.rect t)).set ↔ _
  rw [View.set_slice_whole, Rect.mem_set_unit]
  exact Iff.rfl

/-- Row r of the array is in the block of point r / 256: the blocks cover the array. -/
theorem cover7 (i : S256x512.Idx) :
    ∃ t : Fin cfg7.N, (cfg7.win 3).flush t = true ∧ i ∈ ((cfg7.win 3).blk t).view.set := by
  have h0 : (i 0).val < 256 := idx2_lt0 i
  have h1 : (i 1).val < 512 := idx2_lt1 i
  have hN : cfg7.N = 1 := N_7
  have ht : (i 0).val / 256 < cfg7.N := by omega
  obtain ⟨-, -, -, -, -, e5, e6⟩ := idx7 ⟨(i 0).val / 256, ht⟩
  refine ⟨⟨(i 0).val / 256, ht⟩, flush7_3 _, ?_⟩
  rw [mem_blk7]
  intro a
  match a with
  | ⟨0, _⟩ =>
    show win7_3.index ⟨(i 0).val / 256, ht⟩ (0 : Fin 2) * 256 ≤ (i 0).val
      ∧ (i 0).val < win7_3.index ⟨(i 0).val / 256, ht⟩ (0 : Fin 2) * 256 + 256
    rw [e5]
    show (i 0).val / 256 * 256 ≤ (i 0).val ∧ (i 0).val < (i 0).val / 256 * 256 + 256
    omega
  | ⟨1, _⟩ =>
    show win7_3.index ⟨(i 0).val / 256, ht⟩ (1 : Fin 2) * 512 ≤ (i 1).val
      ∧ (i 1).val < win7_3.index ⟨(i 0).val / 256, ht⟩ (1 : Fin 2) * 512 + 512
    rw [e6]
    omega

/-- After the region its result array is the layer of the arrays the region found. -/
theorem final7 (c : Dev nD) :
    (dat7 V c).arrAt 3 cfg7.N = lin (V c main_v63) (V c main_arg10) (V c main_arg11) :=
  (dat7 V c).arrAt_eq_of_cover 3 (lin (V c main_v63) (V c main_arg10) (V c main_arg11))
    (fun t _ => flushed7_eq V c t) cover7

end Cert.KernelIdeal.Hand

end
-- ==== Proof.Region8.lean ====
/-
  The node classifier, tiled by rows (10 tiles of 20000 nodes) against the whole weight and bias:
  out(r, q) = Σ_k x(r,k)·w(q,k) + b(q).
-/
import proofs.«154361_j8684423873312_1_alg».proof.Proof.Gen.KernelIdeal.Frame
import proofs.«154361_j8684423873312_1_alg».proof.Proof.Layers
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.Gnn

-- the buffer contents the region is entered from: a parameter
variable (V : (c : Dev nD) → (b : Ref sig .tc) → Buf (Elt Ideal) ((c : Thread nD τ).loc b))

/-- The zero offsets of a whole rank-2 block, however spelt. -/
private theorem hz : (![0, 0] : Fin 2 → Nat) = fun _ => 0 := funext fun a => by fin_cases a <;> rfl
/-- The zero offset of a whole rank-1 block. -/
private theorem hz1 : (![0] : Fin 1 → Nat) = fun _ => 0 := funext fun a => by fin_cases a <;> rfl

/-- The body's stored value is the linear layer of its three loaded blocks: the rows and the weight narrowed (the
    identity on the extended reals), the weight transposed, one product into zero, the bias spread over the rows. -/
theorem pay8_eq (x : Vec Ideal S20000x128 .f32) (w : Vec Ideal S16x128 .f32) (b : Vec Ideal S16 .f32) :
    k8_pay1 x w b = lin x w b := by
  funext i
  obtain ⟨p, q, rfl⟩ : ∃ p q, i = ix2 p q := ⟨i 0, i 1, eq_ix2 i⟩
  unfold k8_pay1
  rw [shapeCast_self]
  refine (addf_apply _ _ _).trans ?_
  rw [lin_apply]
  congr 1
  · exact matT_apply dot_S20000x128_S128x16_S20000x16_1_0_0_1_n_n rfl x w bitsLt_bf16_f32
      transposes_S16x128_p1_0_S128x16 p q
  · exact biasRow_apply b shapeCasts_S16_S1x16 broadcasts_S1x16_S20000x16 p q

/-- The index maps over the grid: the row operand and the result are at block (t, 0), the weight at (0, 0), the
    bias at (0). -/
theorem idx8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 1) = 0
    ∧ win8_3.index t (0 : Fin 2) = t.val ∧ win8_3.index t (1 : Fin 2) = 0 :=
  (by decide +kernel : ∀ t : Fin grid8.N, _)

/-- The row operand's block at point t is rows 20000·t … 20000·t + 19999 of its array. -/
theorem iblk8_0_apply (c : Dev nD) (t : Fin cfg8.N) (y : S20000x128.Idx) (k : S200000x128.Idx)
    (hk0 : (k 0).val = t.val * 20000 + (y 0).val) (hk1 : (k 1).val = (y 1).val) :
    (iblk8 V c 0 t : Vec Ideal S20000x128 .f32) y = (V c main_v39 : S200000x128.Idx → EReal) k := by
  obtain ⟨e0, e1, -⟩ := idx8 t
  unfold iblk8
  rw [View.read_apply]
  show V c main_v39 _ = _
  congr 1
  funext a
  apply Fin.ext
  match a with
  | ⟨0, _⟩ => show win8_0.index t 0 * 20000 + 1 * (y 0).val = (k 0).val; rw [e0, hk0]; omega
  | ⟨1, _⟩ => show win8_0.index t 1 * 128 + 1 * (y 1).val = (k 1).val; rw [e1, hk1]; omega

/-- The weight's block at every point is the whole weight. -/
theorem iblk8_1_apply (c : Dev nD) (t : Fin cfg8.N) (y : S16x128.Idx) :
    (iblk8 V c 1 t : Vec Ideal S16x128 .f32) y = (V c main_arg12 : S16x128.Idx → EReal) y := by
  obtain ⟨-, -, e0, e1, -⟩ := idx8 t
  unfold iblk8
  rw [View.read_apply]
  show V c main_arg12 _ = _
  congr 1
  funext a
  apply Fin.ext
  match a with
  | ⟨0, _⟩ => show win8_1.index t 0 * 16 + 1 * (y 0).val = (y 0).val; rw [e0]; omega
  | ⟨1, _⟩ => show win8_1.index t 1 * 128 + 1 * (y 1).val = (y 1).val; rw [e1]; omega

/-- The bias's block at every point is the whole bias. -/
theorem iblk8_2_apply (c : Dev nD) (t : Fin cfg8.N) (y : S16.Idx) :
    (iblk8 V c 2 t : Vec Ideal S16 .f32) y = (V c main_arg13 : S16.Idx → EReal) y := by
  obtain ⟨-, -, -, -, e0, -⟩ := idx8 t
  unfold iblk8
  rw [View.read_apply]
  show V c main_arg13 _ = _
  congr 1
  funext a
  apply Fin.ext
  match a with
  | ⟨0, _⟩ => show win8_2.index t 0 * 16 + 1 * (y 0).val = (y 0).val; rw [e0]; omega

/-- Entry (p, q) of a linear layer reads row p of the row operand, row q of the weight and entry q of the bias only:
    where those agree, two layers' entries agree. -/
private theorem lin_congr {M M' K N N' : ℕ} (x : Mat M K) (X : Mat M' K) (w : Mat N K) (W : Mat N' K) (b : Row N) (B : Row N')
    (p : Fin M) (p' : Fin M') (q : Fin N) (q' : Fin N')
    (hx : ∀ k, x (ix2 p k) = X (ix2 p' k)) (hw : ∀ k, w (ix2 q k) = W (ix2 q' k)) (hb : b (ix1 q) = B (ix1 q')) :
    lin x w b (ix2 p q) = lin X W B (ix2 p' q') := by
  rw [lin_apply, lin_apply, hb]
  congr 1
  exact Finset.sum_congr rfl fun k _ => by rw [hx k, hw k]

/-- What point t writes back is block t of the linear layer of the whole arrays. -/
theorem flushed8_eq (c : Dev nD) (t : Fin cfg8.N) :
    (dat8 V c).flushed 3 t
      = ((cfg8.win 3).blk t).view.read (Elt Ideal) (lin (V c main_v39) (V c main_arg12) (V c main_arg13)) := by
  show (cfg8.win 3).cut (grid8.coords t) ((dat8 V c).after 3 t) = _
  rw [after8_3]
  unfold out8_3
  rw [View.canon_unit_zero hz]
  simp only [View.ld_unit_zero (S := S20000x128) hz, View.ld_unit_zero (S := S16x128) hz,
    View.ld_unit_zero (S := S16) hz1]
  rw [pay8_eq]
  obtain ⟨-, -, -, -, -, e5, e6⟩ := idx8 t
  have hN : cfg8.N = 10 := N_8
  refine funext fun (j : S20000x16.Idx) => ?_
  obtain ⟨p, q, rfl⟩ : ∃ p q, j = ix2 p q := ⟨j 0, j 1, eq_ix2 j⟩
  have hp : t.val * 20000 + p.val < 200000 := by have := t.isLt; have := p.isLt; omega
  -- the block's entry (p, q) sits at row 20000·t + p, column q of the array
  have he : ((cfg8.win 3).blk t).view.emb (ix2 p q)
      = (ix2 (⟨t.val * 20000 + p.val, hp⟩ : Fin 200000) q : S200000x16.Idx) := by
    funext a
    apply Fin.ext
    match a with
    | ⟨0, _⟩ => show win8_3.index t 0 * 20000 + 1 * p.val = t.val * 20000 + p.val; rw [e5]; omega
    | ⟨1, _⟩ => show win8_3.index t 1 * 16 + 1 * q.val = q.val; rw [e6]; omega
  show lin _ _ _ (ix2 p q) = lin _ _ _ (((cfg8.win 3).blk t).view.emb (ix2 p q))
  rw [he]
  exact lin_congr _ _ _ _ _ _ p _ q q (fun k => iblk8_0_apply V c t _ _ rfl rfl)
    (fun k => iblk8_1_apply V c t _) (iblk8_2_apply V c t _)

/-- An index of the array is in point t's block iff each coordinate is in the block's range on its axis. -/
theorem mem_blk8 (t : Fin cfg8.N) (i : S200000x16.Idx) :
    i ∈ ((cfg8.win 3).blk t).view.set ↔ ∀ a : Fin 2, win8_3.index t a * S20000x16.size a ≤ (i a).val
      ∧ (i a).val < win8_3.index t a * S20000x16.size a + S20000x16.size a := by
  show i ∈ ((View.whole main_v65).slice (win8_3.rect t)).set ↔ _
  rw [View.set_slice_whole, Rect.mem_set_unit]
  exact Iff.rfl

/-- Row r of the array is in the block of point r / 20000: the blocks cover the array. -/
theorem cover8 (i : S200000x16.Idx) :
    ∃ t : Fin cfg8.N, (cfg8.win 3).flush t = true ∧ i ∈ ((cfg8.win 3).blk t).view.set := by
  have h0 : (i 0).val < 200000 := idx2_lt0 i
  have h1 : (i 1).val < 16 := idx2_lt1 i
  have hN : cfg8.N = 10 := N_8
  have ht : (i 0).val / 20000 < cfg8.N := by omega
  obtain ⟨-, -, -, -, -, e5, e6⟩ := idx8 ⟨(i 0).val / 20000, ht⟩
  refine ⟨⟨(i 0).val / 20000, ht⟩, flush8_3 _, ?_⟩
  rw [mem_blk8]
  intro a
  match a with
  | ⟨0, _⟩ =>
    show win8_3.index ⟨(i 0).val / 20000, ht⟩ (0 : Fin 2) * 20000 ≤ (i 0).val
      ∧ (i 0).val < win8_3.index ⟨(i 0).val / 20000, ht⟩ (0 : Fin 2) * 20000 + 20000
    rw [e5]
    show (i 0).val / 20000 * 20000 ≤ (i 0).val ∧ (i 0).val < (i 0).val / 20000 * 20000 + 20000
    omega
  | ⟨1, _⟩ =>
    show win8_3.index ⟨(i 0).val / 20000, ht⟩ (1 : Fin 2) * 16 ≤ (i 1).val
      ∧ (i 1).val < win8_3.index ⟨(i 0).val / 20000, ht⟩ (1 : Fin 2) * 16 + 16
    rw [e6]
    omega

/-- After the region its result array is the layer of the arrays the region found. -/
theorem final8 (c : Dev nD) :
    (dat8 V c).arrAt 3 cfg8.N = lin (V c main_v39) (V c main_arg12) (V c main_arg13) :=
  (dat8 V c).arrAt_eq_of_cover 3 (lin (V c main_v39) (V c main_arg12) (V c main_arg13))
    (fun t _ => flushed8_eq V c t) cover8

end Cert.KernelIdeal.Hand

end
-- ==== Proof.KChainC.lean ====
/-
  The three heads: the edge classifier (region 6), the motif head (region 7) and the node classifier (region 8) of the
  kernel program hold the reference's results of the launch arguments, and the first two stay in place to the end.
-/
import proofs.«154361_j8684423873312_1_alg».proof.Proof.KChainB
import proofs.«154361_j8684423873312_1_alg».proof.Proof.Region6
import proofs.«154361_j8684423873312_1_alg».proof.Proof.Region7
import proofs.«154361_j8684423873312_1_alg».proof.Proof.Region8

set_option maxRecDepth 16384

noncomputable section

open Idealize.ShloMosaic Idealize.ShloMosaic.TcCoe Idealize.SL.Sem Idealize.ShloMosaic.ValueIdx

namespace Cert.KernelIdeal.Hand

open Cert.KernelIdeal Cert.KernelIdeal.Gen Cert.Gnn

variable (m : (ℓ : Loc nD τ sig) → Buf (Elt Ideal) ℓ) (ρ : Dev nD → PrngReg)

/-! ## The launch arguments, where the last three regions and the host stretches before them read them

No host operation and no region writes an argument, so at every boundary it holds what it held at the end, which is
what it held at the launch. -/

/-- The edge classifier's weight when the host stretch before region 6 reads it. -/
theorem w12_arg8 (c : Dev nD) : W12 m ρ c (Proc.devRef .tc main_arg8) = a8 m c := by
  have h : W17 m ρ c (Proc.devRef .tc main_arg8) = W12 m ρ c (Proc.devRef .tc main_arg8) := by
    refine (W17_of_ne m ρ c main_arg8 (by decide)).trans ?_
    refine (W16_of_ne m ρ c main_arg8 (by decide)).trans ?_
    host_keep hostOps7
    refine (W14_of_ne m ρ c main_arg8 (by decide)).trans ?_
    host_keep hostOps6
    rfl
  exact h.symm.trans (W17_main_arg8 m ρ c)

/-- The edge classifier's bias when region 6 is entered. -/
theorem w13_arg9 (c : Dev nD) : W13 m ρ c (Proc.devRef .tc main_arg9) = a9 m c := by
  have h : W17 m ρ c (Proc.devRef .tc main_arg9) = W13 m ρ c (Proc.devRef .tc main_arg9) := by
    refine (W17_of_ne m ρ c main_arg9 (by decide)).trans ?_
    refine (W16_of_ne m ρ c main_arg9 (by decide)).trans ?_
    host_keep hostOps7
    refine ((W14_arr m ρ c 4).trans (((dat6 (V13 m ρ) c).arrAt_in 4 rfl _).trans (A_eq6 (V13 m ρ) c 4))).trans ?_
    rfl
  exact h.symm.trans (W17_main_arg9 m ρ c)

/-- The motif node ids when the host stretch before region 7 reads them. -/
theorem w14_arg16 (c : Dev nD) : W14 m ρ c (Proc.devRef .tc main_arg16) = a16 m c := by
  have h : W17 m ρ c (Proc.devRef .tc main_arg16) = W14 m ρ c (Proc.devRef .tc main_arg16) := by
    refine (W17_of_ne m ρ c main_arg16 (by decide)).trans ?_
    refine (W16_of_ne m ρ c main_arg16 (by decide)).trans ?_
    host_keep hostOps7
    rfl
  exact h.symm.trans (W17_main_arg16 m ρ c)

/-- The motif head's weight when region 7 is entered. -/
theorem w15_arg10 (c : Dev nD) : W15 m ρ c (Proc.devRef .tc main_arg10) = a10 m c := by
  have h : W17 m ρ c (Proc.devRef .tc main_arg10) = W15 m ρ c (Proc.devRef .tc main_arg10) := by
    refine (W17_of_ne m ρ c main_arg10 (by decide)).trans ?_
    refine ((W16_arr m ρ c 1).trans (((dat7 (V15 m ρ) c).arrAt_in 1 rfl _).trans (A_eq7 (V15 m ρ) c 1))).trans ?_
    rfl
  exact h.symm.trans (W17_main_arg10 m ρ c)

/-- The motif head's bias when region 7 is entered. -/
theorem w15_arg11 (c : Dev nD) : W15 m ρ c (Proc.devRef .tc main_arg11) = a11 m c := by
  have h : W17 m ρ c (Proc.devRef .tc main_arg11) = W15 m ρ c (Proc.devRef .tc main_arg11) := by
    refine (W17_of_ne m ρ c main_arg11 (by decide)).trans ?_
    refine ((W16_arr m ρ c 2).trans (((dat7 (V15 m ρ) c).arrAt_in 2 rfl _).trans (A_eq7 (V15 m ρ) c 2))).trans ?_
    rfl
  exact h.symm.trans (W17_main_arg11 m ρ c)

/-- The node classifier's weight when region 8 is entered. -/
theorem w16_arg12 (c : Dev nD) : W16 m ρ c (Proc.devRef .tc main_arg12) = a12 m c := by
  have h : W17 m ρ c (Proc.devRef .tc main_arg12) = W16 m ρ c (Proc.devRef .tc main_arg12) := by
    refine ((W17_arr m ρ c 1).trans (((dat8 (V16 m ρ) c).arrAt_in 1 rfl _).trans (A_eq8 (V16 m ρ) c 1))).trans ?_
    rfl
  exact h.symm.trans (W17_main_arg12 m ρ c)

/-- The node classifier's bias when region 8 is entered. -/
theorem w16_arg13 (c : Dev nD) : W16 m ρ c (Proc.devRef .tc main_arg13) = a13 m c := by
  have h : W17 m ρ c (Proc.devRef .tc main_arg13) = W16 m ρ c (Proc.devRef .tc main_arg13) := by
    refine ((W17_arr m ρ c 2).trans (((dat8 (V16 m ρ) c).arrAt_in 2 rfl _).trans (A_eq8 (V16 m ρ) c 2))).trans ?_
    rfl
  exact h.symm.trans (W17_main_arg13 m ρ c)

/-! ## The source and destination rows of the edge list

The host stretch before region 2 cuts them out of the edge list once; nothing writes them afterwards, so what that
stretch left is what the stretch before region 6 finds. -/

/-- The source row when the host stretch before region 6 reads it. -/
theorem w12_v13 (c : Dev nD) : W12 m ρ c (Proc.devRef .tc main_v13) = Cert.ReferenceIdeal.Read.val_main_v25 (F := Ideal) (a17 m c) := by
  refine (W12_of_ne m ρ c main_v13 (by decide)).trans ?_
  host_keep hostOps5
  refine (W10_of_ne m ρ c main_v13 (by decide)).trans ?_
  host_keep hostOps4
  refine (W8_of_ne m ρ c main_v13 (by decide)).trans ?_
  host_keep hostOps3
  refine (W6_of_ne m ρ c main_v13 (by decide)).trans ?_
  exact w5_v13 m ρ c

/-- The destination row when the host stretch before region 6 reads it. -/
theorem w12_v15 (c : Dev nD) : W12 m ρ c (Proc.devRef .tc main_v15) = Cert.ReferenceIdeal.Read.val_main_v27 (F := Ideal) (a17 m c) := by
  refine (W12_of_ne m ρ c main_v15 (by decide)).trans ?_
  host_keep hostOps5
  refine (W10_of_ne m ρ c main_v15 (by decide)).trans ?_
  host_keep hostOps4
  refine (W8_of_ne m ρ c main_v15 (by decide)).trans ?_
  host_keep hostOps3
  refine (W6_of_ne m ρ c main_v15 (by decide)).trans ?_
  exact w5_v15 m ρ c

/-! ## The second convolution's output, where the later stretches and the last region read it -/

/-- The second convolution's output when the host stretch before region 7 reads it. -/
theorem w14_v39 (hpre : Cert.Pre_KernelIdeal (hPre_finite_inputs := Cert.Pre_finite_inputs.Gen.facts) m) (c : Dev nD) :
    W14 m ρ c (Proc.devRef .tc main_v39) = t68 m c := by
  refine (W14_of_ne m ρ c main_v39 (by decide)).trans ?_
  host_keep hostOps6
  exact kv39 m ρ hpre c

/-- The second convolution's output when region 8 is entered. -/
theorem w16_v39 (hpre : Cert.Pre_KernelIdeal (hPre_finite_inputs := Cert.Pre_finite_inputs.Gen.facts) m) (c : Dev nD) :
    W16 m ρ c (Proc.devRef .tc main_v39) = t68 m c := by
  refine (W16_of_ne m ρ c main_v39 (by decide)).trans ?_
  host_keep hostOps7
  exact w14_v39 m ρ hpre c

/-! ## What the host stretches before regions 6 and 7 write

Each is the same chain of host operations as the reference's, applied to equal arrays: the node features gathered by the
edge list's normalised source (destination) row, by the normalised motif ids; and the two column halves of the edge
classifier's weight. -/

/-- The node features gathered at the sources, as region 6 is entered. -/
theorem w13_v46 (hpre : Cert.Pre_KernelIdeal (hPre_finite_inputs := Cert.Pre_finite_inputs.Gen.facts) m) (c : Dev nD) :
    W13 m ρ c (Proc.devRef .tc main_v46) = Cert.ReferenceIdeal.Read.val_main_v77 (F := Ideal) (a0 m c) (a1 m c) (a2 m c) (a3 m c) (a4 m c) (a5 m c) (a6 m c) (a7 m c) (a14 m c) (a15 m c) (a17 m c) := by
  show StableHlo.after hostOps6 (W12 m ρ c) (Proc.devRef .tc main_v46) = _
  after_results
  rw [kv39 m ρ hpre c, w12_v13 m ρ c]
  rfl

/-- The node features gathered at the destinations, as region 6 is entered. -/
theorem w13_v53 (hpre : Cert.Pre_KernelIdeal (hPre_finite_inputs := Cert.Pre_finite_inputs.Gen.facts) m) (c : Dev nD) :
    W13 m ρ c (Proc.devRef .tc main_v53) = Cert.ReferenceIdeal.Read.val_main_v86 (F := Ideal) (a0 m c) (a1 m c) (a2 m c) (a3 m c) (a4 m c) (a5 m c) (a6 m c) (a7 m c) (a14 m c) (a15 m c) (a17 m c) := by
  show StableHlo.after hostOps6 (W12 m ρ c) (Proc.devRef .tc main_v53) = _
  after_results_simp
  rw [kv39 m ρ hpre c, w12_v15 m ρ c]
  rfl

/-- The first column half of the edge classifier's weight, as region 6 is entered: entry (r, k) is the weight's (r, k). -/
theorem w13_v54 (c : Dev nD) (r : Fin 64) (k : Fin 128) :
    (V13 m ρ c main_v54 : Mat 64 128) (ix2 r k) = (a8 m c : Mat 64 256) (ix2 r (Fin.castAdd 128 k)) := by
  have e : V13 m ρ c main_v54 = extractStridedSlice S64x128 ![0, 0] (a8 m c) slices_S64x256_S64x128_0_0 := by
    show StableHlo.after hostOps6 (W12 m ρ c) (Proc.devRef .tc main_v54) = _
    after_results
    rw [w12_arg8 m ρ c]
  rw [e]
  refine extractStridedSlice_apply ![0, 0] (a8 m c) slices_S64x256_S64x128_0_0 (ix2 r k) (ix2 r (Fin.castAdd 128 k)) fun a => ?_
  match a with
  | ⟨0, _⟩ => show r.val = 0 + r.val; omega
  | ⟨1, _⟩ => show k.val = 0 + k.val; omega

/-- The second column half of the edge classifier's weight, as region 6 is entered: entry (r, k) is the weight's (r, 128 + k). -/
theorem w13_v55 (c : Dev nD) (r : Fin 64) (k : Fin 128) :
    (V13 m ρ c main_v55 : Mat 64 128) (ix2 r k) = (a8 m c : Mat 64 256) (ix2 r (Fin.natAdd 128 k)) := by
  have e : V13 m ρ c main_v55 = extractStridedSlice S64x128 ![0, 128] (a8 m c) slices_S64x256_S64x128_0_128 := by
    show StableHlo.after hostOps6 (W12 m ρ c) (Proc.devRef .tc main_v55) = _
    after_results
    rw [w12_arg8 m ρ c]
  rw [e]
  refine extractStridedSlice_apply ![0, 128] (a8 m c) slices_S64x256_S64x128_0_128 (ix2 r k) (ix2 r (Fin.natAdd 128 k)) fun a => ?_
  match a with
  | ⟨0, _⟩ => show r.val = 0 + r.val; omega
  | ⟨1, _⟩ => show 128 + k.val = 128 + k.val; rfl

/-- The node features gathered at the motif ids, as region 7 is entered. -/
theorem w15_v63 (hpre : Cert.Pre_KernelIdeal (hPre_finite_inputs := Cert.Pre_finite_inputs.Gen.facts) m) (c : Dev nD) :
    W15 m ρ c (Proc.devRef .tc main_v63) = Cert.ReferenceIdeal.Read.val_main_v99 (F := Ideal) (a0 m c) (a1 m c) (a2 m c) (a3 m c) (a4 m c) (a5 m c) (a6 m c) (a7 m c) (a14 m c) (a15 m c) (a16 m c) (a17 m c) := by
  show StableHlo.after hostOps7 (W14 m ρ c) (Proc.devRef .tc main_v63) = _
  after_results
  rw [w14_v39 m ρ hpre c, w14_arg16 m ρ c]
  rfl

/-- After region 6: the edge classifier's output. -/
theorem kv56 (hpre : Cert.Pre_KernelIdeal (hPre_finite_inputs := Cert.Pre_finite_inputs.Gen.facts) m) (c : Dev nD) :
    W14 m ρ c (Proc.devRef .tc main_v56) = t92 m c := by
  refine (W14_arr m ρ c 5).trans ?_
  refine (final6 (V13 m ρ) c).trans ?_
  have e46 : V13 m ρ c main_v46 = Cert.ReferenceIdeal.Read.val_main_v77 (F := Ideal) (a0 m c) (a1 m c) (a2 m c) (a3 m c) (a4 m c) (a5 m c) (a6 m c) (a7 m c) (a14 m c) (a15 m c) (a17 m c) := w13_v46 m ρ hpre c
  have e53 : V13 m ρ c main_v53 = Cert.ReferenceIdeal.Read.val_main_v86 (F := Ideal) (a0 m c) (a1 m c) (a2 m c) (a3 m c) (a4 m c) (a5 m c) (a6 m c) (a7 m c) (a14 m c) (a15 m c) (a17 m c) := w13_v53 m ρ hpre c
  have e9 : V13 m ρ c main_arg9 = a9 m c := w13_arg9 m ρ c
  rw [e46, e53, e9]
  exact (Cert.ReferenceIdeal.Hand.r92 _ _ _ _ _ _ _ _ _ _ _ _ _ _ _ (w13_v54 m ρ c) (w13_v55 m ρ c)).symm

/-- After region 7: the motif head's output. -/
theorem kv64 (hpre : Cert.Pre_KernelIdeal (hPre_finite_inputs := Cert.Pre_finite_inputs.Gen.facts) m) (c : Dev nD) :
    W16 m ρ c (Proc.devRef .tc main_v64) = t104 m c := by
  refine (W16_arr m ρ c 3).trans ?_
  refine (final7 (V15 m ρ) c).trans ?_
  have e63 : V15 m ρ c main_v63 = Cert.ReferenceIdeal.Read.val_main_v99 (F := Ideal) (a0 m c) (a1 m c) (a2 m c) (a3 m c) (a4 m c) (a5 m c) (a6 m c) (a7 m c) (a14 m c) (a15 m c) (a16 m c) (a17 m c) := w15_v63 m ρ hpre c
  have e10 : V15 m ρ c main_arg10 = a10 m c := w15_arg10 m ρ c
  have e11 : V15 m ρ c main_arg11 = a11 m c := w15_arg11 m ρ c
  rw [e63, e10, e11]
  exact (Cert.ReferenceIdeal.Hand.r104 _ _ _ _ _ _ _ _ _ _ _ _ _ _).symm

/-- After region 8, the last: the node classifier's output. -/
theorem kv65 (hpre : Cert.Pre_KernelIdeal (hPre_finite_inputs := Cert.Pre_finite_inputs.Gen.facts) m) (c : Dev nD) :
    W17 m ρ c (Proc.devRef .tc main_v65) = t109 m c := by
  refine (W17_arr m ρ c 3).trans ?_
  refine (final8 (V16 m ρ) c).trans ?_
  have e39 : V16 m ρ c main_v39 = t68 m c := w16_v39 m ρ hpre c
  have e12 : V16 m ρ c main_arg12 = a12 m c := w16_arg12 m ρ c
  have e13 : V16 m ρ c main_arg13 = a13 m c := w16_arg13 m ρ c
  rw [e39, e12, e13]
  exact (Cert.ReferenceIdeal.Hand.r109 _ _ _ _ _ _ _ _ _ _ _ _ _).symm

/-- The edge classifier's output is still in place at the end. -/
theorem out0 (hpre : Cert.Pre_KernelIdeal (hPre_finite_inputs := Cert.Pre_finite_inputs.Gen.facts) m) (c : Dev nD) :
    W17 m ρ c (Proc.devRef .tc main_v56) = t92 m c := by
  refine (W17_of_ne m ρ c main_v56 (by decide)).trans ?_
  refine (W16_of_ne m ρ c main_v56 (by decide)).trans ?_
  host_keep hostOps7
  exact kv56 m ρ hpre c

/-- The motif head's output is still in place at the end. -/
theorem out1 (hpre : Cert.Pre_KernelIdeal (hPre_finite_inputs := Cert.Pre_finite_inputs.Gen.facts) m) (c : Dev nD) :
    W17 m ρ c (Proc.devRef .tc main_v64) = t104 m c := by
  refine (W17_of_ne m ρ c main_v64 (by decide)).trans ?_
  exact kv64 m ρ hpre c

end Cert.KernelIdeal.Hand

end
-- ==== Proof.lean ====
/-
  A relational graph network (two graph convolutions, an edge classifier, a motif head and a node classifier) as nine
  tiled kernel calls among host gathers and scatter-adds, against its plain array reference, over the extended reals.

  Every dense layer of the kernel program is a row-tiled product with a weight stored [out, in] and a bias vector; on the
  extended reals a tile's result is the layer of the tile's rows, so each region's result array is the whole-array layer
  (Region0 … Region8), and the reference's host operations, stretch by stretch, are the same layers (RefLayers). The gathers
  and scatter-adds are the same host operations in both programs. The one place where the two programs differ in kind is the
  edge projection: the reference gathers rows of the relation table and projects them, the kernel projects the table once
  and picks the projected row by a product with a one-hot matrix of the labels; the two agree where every label lies in
  [0, 64) — the domain the reference's own indexing assumes, stated in the precondition — and 0·x = 0 holds for every
  extended real, so nothing is asked of the table's entries. The edge classifier's one product over joined columns is the
  kernel's sum of two products: a sum over 256 terms split in two.

  The frames of the two kernel programs are the generated ones; the reference's is its generated run. The kernel
  program's run with its three results named is KernelRun; KChainA, KChainB, KChainC carry the reference's stage values
  through the kernel program's segments.
-/
import proofs.«154361_j8684423873312_1_alg».proof.Defs
import proofs.«154361_j8684423873312_1_alg».proof.Proof.Gen.Kernel
import proofs.«154361_j8684423873312_1_alg».proof.Proof.Gen.Kernel.Skeleton
import proofs.«154361_j8684423873312_1_alg».proof.Proof.Gen.Kernel.Launch
import proofs.«154361_j8684423873312_1_alg».proof.Proof.Gen.Kernel.Points
import proofs.«154361_j8684423873312_1_alg».proof.Proof.Gen.Kernel.Frame
import proofs.«154361_j8684423873312_1_alg».proof.Proof.Gen.KernelIdeal
import proofs.«154361_j8684423873312_1_alg».proof.Proof.Gen.KernelIdeal.Skeleton
import proofs.«154361_j8684423873312_1_alg».proof.Proof.Gen.KernelIdeal.Launch
import proofs.«154361_j8684423873312_1_alg».proof.Proof.Gen.KernelIdeal.Points
import proofs.«154361_j8684423873312_1_alg».proof.Proof.Gen.KernelIdeal.Frame
import proofs.«154361_j8684423873312_1_alg».proof.Proof.Gen.ReferenceIdeal
import proofs.«154361_j8684423873312_1_alg».proof.Proof.Gen.ReferenceIdeal.Run
import proofs.«154361_j8684423873312_1_alg».proof.Proof.Gen.ReferenceIdeal.Read
import proofs.«154361_j8684423873312_1_alg».proof.Proof.Gen.Pre_finite_inputs
import proofs.«154361_j8684423873312_1_alg».proof.Proof.KernelRun
import proofs.«154361_j8684423873312_1_alg».proof.Proof.KChainC
import Idealize.ShloMosaic.Adequacy
import Idealize.ShloMosaic.Init

noncomputable section

namespace Cert.Proof

open Idealize.ShloMosaic Idealize.SL.Sem

namespace Claims

/-- The word-level kernel program runs and leaves its arguments as launched. -/
theorem frame_k : Cert.frame_Kernel (hKernel := Cert.Kernel.Gen.facts) (hPre_finite_inputs := Cert.Pre_finite_inputs.Gen.facts) :=
  fun m ρ _ => Cert.Kernel.Gen.frame m ρ

/-- So does the idealized kernel program. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs: its generated run with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2) (Cert.ReferenceIdeal.Value.run (F := Ideal) m ρ)

/-- Both idealized programs end with the reference's three results of the launch arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.t92 m c, fun c => Cert.KernelIdeal.Hand.t104 m c, fun c => Cert.KernelIdeal.Hand.t109 m c, ?_, ?_⟩
  · refine (θ_run Cert.KernelIdeal.defs _ _).mono (fun r h c => ?_) (Cert.KernelIdeal.Named.run (F := Ideal) m ρ)
    obtain ⟨h56, h64, h65, hargs⟩ := h c
    exact ⟨h56.trans (Cert.KernelIdeal.Hand.out0 m ρ hpre c), h64.trans (Cert.KernelIdeal.Hand.out1 m ρ hpre c),
      h65.trans (Cert.KernelIdeal.Hand.kv65 m ρ hpre c), hargs⟩
  · refine (θ_run Cert.ReferenceIdeal.defs _ _).mono (fun r h c => ?_) (Cert.ReferenceIdeal.Value.run (F := Ideal) m' ρ')
    obtain ⟨h92, h104, h109, hargs⟩ := h c
    obtain ⟨h0, h1, h2, h3, h4, h5, h6, h7, h8, h9, h10, h11, h12, h13, h14, h15, h16, h17⟩ := hagree c
    refine ⟨h92.trans ?_, h104.trans ?_, h109.trans ?_, hargs⟩
    · rw [Cert.ReferenceIdeal.Read.val_main_v92_eq, h0, h1, h2, h3, h4, h5, h6, h7, h8, h9, h14, h15, h17]
    · rw [Cert.ReferenceIdeal.Read.val_main_v104_eq, h0, h1, h2, h3, h4, h5, h6, h7, h10, h11, h14, h15, h16, h17]
    · rw [Cert.ReferenceIdeal.Read.val_main_v109_eq, h0, h1, h2, h3, h4, h5, h6, h7, h12, h13, h14, h15, h17]

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, trivial, Claims.algebraic⟩

end Cert.Proof

end
